-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S3x128x128 : Shape := ⟨3, ![3, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg10 : FVec F S256 .f32) (main_arg11 : FVec F S256x2 .f32) (main_arg12 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg11
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_cst_24 : FVec F S_ .f32 := constant S_ .f32 0x00000000#32
  let main_v64 : FVec F S256 .f32 := broadcastInDim S256 ![] bcast_S_S256 main_cst_24
  let main_v65 : IVec S256 1 := cmpf .oge main_arg10 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v63 main_v66
  main_v67

def fn_part2 {F : FTy → Type} [FloatOps F] (main_arg7 : FVec F S256 .f32) (main_arg8 : FVec F S256 .f32) (main_arg9 : FVec F S256 .f32) (main_arg10 : FVec F S256 .f32) (main_arg11 : FVec F S256x2 .f32) (main_arg12 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg10 main_arg11 main_arg12 main_v48 main_v49 main_v50

def fn_part1 {F : FTy → Type} [FloatOps F] (main_arg4 : FVec F S3x128x128 .f32) (main_arg5 : FVec F S128x256 .f32) (main_arg6 : FVec F S256 .f32) (main_arg7 : FVec F S256 .f32) (main_arg8 : FVec F S256 .f32) (main_arg9 : FVec F S256 .f32) (main_arg10 : FVec F S256 .f32) (main_arg11 : FVec F S256x2 .f32) (main_arg12 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S600000 .f32) (main_arg2 : FVec F S3x128x128 .f32) (main_arg3 : FVec F S3x128x128 .f32) (main_arg4 : FVec F S3x128x128 .f32) (main_arg5 : FVec F S128x256 .f32) (main_arg6 : FVec F S256 .f32) (main_arg7 : FVec F S256 .f32) (main_arg8 : FVec F S256 .f32) (main_arg9 : FVec F S256 .f32) (main_arg10 : FVec F S256 .f32) (main_arg11 : FVec F S256x2 .f32) (main_arg12 : FVec F S2 .f32) (main_arg13 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S600000 : Shape := ⟨1, ![600000]⟩
abbrev S3x128x128 : Shape := ⟨3, ![3, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S10000x128 : Shape := ⟨2, ![10000, 128]⟩
abbrev S1x256 : Shape := ⟨2, ![1, 256]⟩
abbrev S1x2 : Shape := ⟨2, ![1, 2]⟩
abbrev S100000x2 : Shape := ⟨2, ![100000, 2]⟩
abbrev S5000x128 : Shape := ⟨2, ![5000, 128]⟩
abbrev S5000x2 : Shape := ⟨2, ![5000, 2]⟩
abbrev S5000x256 : Shape := ⟨2, ![5000, 256]⟩

abbrev nBuf : Space → Nat
  | .hbm => 194
  | .vmem => 39
  | .smem => 0
  | _ => 0

abbrev hbmTy0_0 (i : Nat) : BufTy := match i % 128 with
  | 0 => ⟨S100000x128, .f32⟩
  | 1 => ⟨S600000, .f32⟩
  | 2 => ⟨S3x128x128, .f32⟩
  | 3 => ⟨S3x128x128, .f32⟩
  | 4 => ⟨S3x128x128, .f32⟩
  | 5 => ⟨S128x256, .f32⟩
  | 6 => ⟨S256, .f32⟩
  | 7 => ⟨S256, .f32⟩
  | 8 => ⟨S256, .f32⟩
  | 9 => ⟨S256, .f32⟩
  | 10 => ⟨S256, .f32⟩
  | 11 => ⟨S256x2, .f32⟩
  | 12 => ⟨S2, .f32⟩
  | 13 => ⟨S2x600000, .i32⟩
  | 14 => ⟨S1x600000, .i32⟩
  | 15 => ⟨S600000, .i32⟩
  | 16 => ⟨S1x600000, .i32⟩
  | 17 => ⟨S600000, .i32⟩
  | 18 => ⟨S600000, .i1⟩
  | 19 => ⟨S_, .f32⟩
  | 20 => ⟨S600000, .f32⟩
  | 21 => ⟨S600000, .f32⟩
  | 22 => ⟨S_, .f32⟩
  | 23 => ⟨S100000, .f32⟩
  | 24 => ⟨S600000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S100000, .f32⟩
  | 32 => ⟨S100000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S600000x1, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S600000x128, .f32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S600000x1, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S600000x128, .f32⟩
  | 81 => ⟨S600000x128, .f32⟩
  | 82 => ⟨S_, .f32⟩
  | 83 => ⟨S100000x128, .f32⟩
  | 84 => ⟨S600000x1, .i32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1x128x128, .f32⟩
  | 91 => ⟨S128x128, .f32⟩
  | 92 => ⟨S1x128x128, .f32⟩
  | 93 => ⟨S128x128, .f32⟩
  | 94 => ⟨S1x128x128, .f32⟩
  | 95 => ⟨S128x128, .f32⟩
  | 96 => ⟨S100000x128, .f32⟩
  | 97 => ⟨S600000x1, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x128, .f32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S600000x1, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x128, .f32⟩
  | 124 => ⟨S600000x128, .f32⟩
  | 125 => ⟨S_, .f32⟩
  | 126 => ⟨S100000x128, .f32⟩
  | 127 => ⟨S600000x1, .i32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S1x128x128, .f32⟩
  | 6 => ⟨S128x128, .f32⟩
  | 7 => ⟨S1x128x128, .f32⟩
  | 8 => ⟨S128x128, .f32⟩
  | 9 => ⟨S1x128x128, .f32⟩
  | 10 => ⟨S128x128, .f32⟩
  | 11 => ⟨S100000x128, .f32⟩
  | 12 => ⟨S600000x1, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x128, .f32⟩
  | 22 => ⟨S600000x128, .f32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S600000x1, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x128, .f32⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S_, .f32⟩
  | 49 => ⟨S256, .f32⟩
  | 50 => ⟨S256, .f32⟩
  | 51 => ⟨S256, .f32⟩
  | 52 => ⟨S256, .f32⟩
  | 53 => ⟨S256, .f32⟩
  | 54 => ⟨S256, .f32⟩
  | 55 => ⟨S1x128x128, .f32⟩
  | 56 => ⟨S128x128, .f32⟩
  | 57 => ⟨S1x128x128, .f32⟩
  | 58 => ⟨S128x128, .f32⟩
  | 59 => ⟨S1x128x128, .f32⟩
  | 60 => ⟨S128x128, .f32⟩
  | 61 => ⟨S1x256, .f32⟩
  | 62 => ⟨S1x256, .f32⟩
  | 63 => ⟨S1x256, .f32⟩
  | 64 => ⟨S1x2, .f32⟩
  | 65 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x2, .f32⟩
  | .local _ .vmem, ⟨36, _⟩ => ⟨S1x2, .f32⟩
  | .local _ .vmem, ⟨37, _⟩ => ⟨S5000x2, .f32⟩
  | .local _ .vmem, ⟨38, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_call0_v0 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_call1_v0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_16 : Ref sig .tc := ⟨.hbm, 114, rfl⟩
abbrev main_v80 : Ref sig .tc := ⟨.hbm, 115, rfl⟩
abbrev main_v81 : Ref sig .tc := ⟨.hbm, 116, rfl⟩
abbrev main_c_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_c_21 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_22 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_23 : Ref sig .tc := ⟨.hbm, 157, rfl⟩
abbrev main_v116 : Ref sig .tc := ⟨.hbm, 158, rfl⟩
abbrev main_v117 : Ref sig .tc := ⟨.hbm, 159, rfl⟩
abbrev main_c_24 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_25 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_27 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem12_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x2 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S5000x2 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  bcast_S_S256 : S_.BroadcastsInDim S256 (![] : Fin 0 → Fin S256.rank)
  shapeCasts_S256_S1x256 : S256.ShapeCasts S1x256
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x2.size a ≤ S256x2.size a
  hwx2_10 : ∀ i : grid2.Coords, EltTy.bits .f32 = 32 ∨ (Rect.block (s := S256x2) S256x2.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x2.size a ≤ S1x2.size a
  hwx2_11 : ∀ i : grid2.Coords, EltTy.bits .f32 = 32 ∨ (Rect.block (s := S1x2) S1x2.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x2.size a ≤ S100000x2.size a
  hwx2_12 : ∀ i : grid2.Coords, EltTy.bits .f32 = 32 ∨ (Rect.block (s := S100000x2) S5000x2.size (cc2_transform_12 i) (hinb2_12 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v65) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v96) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v98) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v101) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v101) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v130) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v138) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v140) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v142) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v143) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v144) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v145) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg11) S256x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v146) S1x2.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v147) S5000x2.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000 : Shape := ⟨1, ![600000]⟩
abbrev S3x128x128 : Shape := ⟨3, ![3, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S100000x256 : Shape := ⟨2, ![100000, 256]⟩
abbrev S1x256 : Shape := ⟨2, ![1, 256]⟩
abbrev S100000x2 : Shape := ⟨2, ![100000, 2]⟩
abbrev S1x2 : Shape := ⟨2, ![1, 2]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S600000, .f32⟩
  | 2 => ⟨S3x128x128, .f32⟩
  | 3 => ⟨S3x128x128, .f32⟩
  | 4 => ⟨S3x128x128, .f32⟩
  | 5 => ⟨S128x256, .f32⟩
  | 6 => ⟨S256, .f32⟩
  | 7 => ⟨S256, .f32⟩
  | 8 => ⟨S256, .f32⟩
  | 9 => ⟨S256, .f32⟩
  | 10 => ⟨S256, .f32⟩
  | 11 => ⟨S256x2, .f32⟩
  | 12 => ⟨S2, .f32⟩
  | 13 => ⟨S2x600000, .i32⟩
  | 14 => ⟨S1x600000, .i32⟩
  | 15 => ⟨S600000, .i32⟩
  | 16 => ⟨S1x600000, .i32⟩
  | 17 => ⟨S600000, .i32⟩
  | 18 => ⟨S600000, .i1⟩
  | 19 => ⟨S_, .f32⟩
  | 20 => ⟨S_, .f32⟩
  | 21 => ⟨S600000, .f32⟩
  | 22 => ⟨S600000, .f32⟩
  | 23 => ⟨S_, .f32⟩
  | 24 => ⟨S100000, .f32⟩
  | 25 => ⟨S600000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S600000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000, .f32⟩
  | 55 => ⟨S600000, .f32⟩
  | 56 => ⟨S1x128x128, .f32⟩
  | 57 => ⟨S128x128, .f32⟩
  | 58 => ⟨S100000x128, .f32⟩
  | 59 => ⟨S600000x1, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x128, .f32⟩
  | 70 => ⟨S600000x128, .f32⟩
  | 71 => ⟨S_, .f32⟩
  | 72 => ⟨S100000x128, .f32⟩
  | 73 => ⟨S600000x1, .i32⟩
  | 74 => ⟨S100000x128, .f32⟩
  | 75 => ⟨S1x128x128, .f32⟩
  | 76 => ⟨S128x128, .f32⟩
  | 77 => ⟨S100000x128, .f32⟩
  | 78 => ⟨S100000x128, .f32⟩
  | 79 => ⟨S600000x1, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S600000x128, .f32⟩
  | 90 => ⟨S600000x128, .f32⟩
  | 91 => ⟨S_, .f32⟩
  | 92 => ⟨S100000x128, .f32⟩
  | 93 => ⟨S600000x1, .i32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S1x128x128, .f32⟩
  | 100 => ⟨S128x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S1x128x128, .f32⟩
  | 126 => ⟨S128x128, .f32⟩
  | 127 => ⟨S100000x128, .f32⟩
  | _ => ⟨S100000x128, .f32⟩

abbrev hbmTy0_1 (i : Nat) : BufTy := match i % 128 with
  | 0 => ⟨S100000x128, .f32⟩
  | 1 => ⟨S600000x1, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S600000x128, .f32⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S1x128x128, .f32⟩
  | 22 => ⟨S128x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S1x128x128, .f32⟩
  | 29 => ⟨S128x128, .f32⟩
  | 30 => ⟨S100000x128, .f32⟩
  | 31 => ⟨S600000x1, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S1x128x128, .f32⟩
  | 48 => ⟨S128x128, .f32⟩
  | 49 => ⟨S100000x128, .f32⟩
  | 50 => ⟨S100000x128, .f32⟩
  | 51 => ⟨S600000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x128, .f32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x256, .f32⟩
  | 79 => ⟨S1x256, .f32⟩
  | 80 => ⟨S100000x256, .f32⟩
  | 81 => ⟨S100000x256, .f32⟩
  | 82 => ⟨S_, .f32⟩
  | 83 => ⟨S100000x256, .f32⟩
  | 84 => ⟨S100000x256, .f32⟩
  | 85 => ⟨S1x256, .f32⟩
  | 86 => ⟨S100000x256, .f32⟩
  | 87 => ⟨S100000x256, .f32⟩
  | 88 => ⟨S_, .f32⟩
  | 89 => ⟨S256, .f32⟩
  | 90 => ⟨S256, .f32⟩
  | 91 => ⟨S256, .f32⟩
  | 92 => ⟨S1x256, .f32⟩
  | 93 => ⟨S100000x256, .f32⟩
  | 94 => ⟨S100000x256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S100000x2, .f32⟩
  | 102 => ⟨S1x2, .f32⟩
  | 103 => ⟨S100000x2, .f32⟩
  | 104 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call2_cst : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_16 : Ref sig .tc := ⟨.hbm, 130, rfl⟩
abbrev main_v92 : Ref sig .tc := ⟨.hbm, 131, rfl⟩
abbrev main_v93 : Ref sig .tc := ⟨.hbm, 132, rfl⟩
abbrev main_c_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_19 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call3_cst : Ref sig .tc := ⟨.hbm, 153, rfl⟩
abbrev main_call3_v0 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_20 : Ref sig .tc := ⟨.hbm, 160, rfl⟩
abbrev main_v116 : Ref sig .tc := ⟨.hbm, 161, rfl⟩
abbrev main_v117 : Ref sig .tc := ⟨.hbm, 162, rfl⟩
abbrev main_c_21 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_22 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_23 : Ref sig .tc := ⟨.hbm, 180, rfl⟩
abbrev main_v133 : Ref sig .tc := ⟨.hbm, 181, rfl⟩
abbrev main_v134 : Ref sig .tc := ⟨.hbm, 182, rfl⟩
abbrev main_c_24 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_25 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_26 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_call4_cst : Ref sig .tc := ⟨.hbm, 203, rfl⟩
abbrev main_call4_v0 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_call5_cst : Ref sig .tc := ⟨.hbm, 210, rfl⟩
abbrev main_call5_v0 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_27 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S256 : S_.BroadcastsInDim S256 (![] : Fin 0 → Fin S256.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  dot_S100000x256_S256x2_S100000x2_1_0_0_1_n_n_wf : DotDims.WF S100000x256 S256x2 S100000x2 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.Spec.lean ====
/-
  The mathematics both programs compute, index by index, on the extended reals.

  A Chebyshev layer's dense step: from three node-feature arrays t0, t1, t2 (100000 x 128) and three
  weight matrices (128 x 128), entry (p, q) of the result is
      max (sum_k t0[p,k] w0[k,q] + sum_k t1[p,k] w1[k,q] + sum_k t2[p,k] w2[k,q]) 0.
  The classifier head: hidden[p,j] = max (sum_k x[p,k] cw1[k,j] + b1[j]) 0, then an affine map per hidden
  column, then logits[p,c] = sum_j (...)[p,j] w2[j,c] + b2[c].  The kernel applies the affine map as
  hidden * scale + shift with scale = gamma * r and shift = beta - mean * scale (r the reciprocal square root of
  the shifted variance); the reference applies it as ((hidden - mean) * r) * gamma + beta.  The two agree at
  every extended-real hidden value as soon as mean, r, gamma, beta are real numbers and r is positive.
-/
import Idealize.ShloMosaic.Lib.ValueIdx
import Idealize.ShloMosaic.PureOps.Ideal
import Mathlib.Data.EReal.Operations
import Mathlib.Algebra.BigOperators.Group.Finset.Basic

noncomputable section

namespace Cert.Spec

open Idealize.ShloMosaic Idealize.ShloMosaic.ValueIdx

abbrev SN128 : Shape := ⟨2, ![100000, 128]⟩
abbrev SW128 : Shape := ⟨2, ![128, 128]⟩
abbrev SW256 : Shape := ⟨2, ![128, 256]⟩
abbrev SW2 : Shape := ⟨2, ![256, 2]⟩
abbrev SN2 : Shape := ⟨2, ![100000, 2]⟩
abbrev SR256 : Shape := ⟨2, ![1, 256]⟩
abbrev SR2 : Shape := ⟨2, ![1, 2]⟩
abbrev SV256 : Shape := ⟨1, ![256]⟩
abbrev SV2 : Shape := ⟨1, ![2]⟩

/-- Entry (p, q) of a layer's dense step followed by the rectifier. -/
def combAt (t0 t1 t2 : SN128.Idx → EReal) (w0 w1 w2 : SW128.Idx → EReal) (p : Fin 100000) (q : Fin 128) : EReal :=
  max ((∑ k : Fin 128, t0 (ix2 p k) * w0 (ix2 k q)) + (∑ k : Fin 128, t1 (ix2 p k) * w1 (ix2 k q))
    + (∑ k : Fin 128, t2 (ix2 p k) * w2 (ix2 k q))) 0

/-- The layer's dense step as an array. -/
def comb (t0 t1 t2 : SN128.Idx → EReal) (w0 w1 w2 : SW128.Idx → EReal) : SN128.Idx → EReal :=
  fun i => combAt t0 t1 t2 w0 w1 w2 ⟨(i 0).val, (i 0).isLt⟩ ⟨(i 1).val, (i 1).isLt⟩

/-- Hidden activation (p, j) of the classifier: the rectified linear map of row p of x. -/
def hidAt (x : SN128.Idx → EReal) (cw1 : SW256.Idx → EReal) (b1 : Fin 256 → EReal) (p : Fin 100000) (j : Fin 256) : EReal :=
  max ((∑ k : Fin 128, x (ix2 p k) * cw1 (ix2 k j)) + b1 j) 0

/-- Logit (p, c) with the per-column affine map in the kernel's form, hidden * scale + shift. -/
def headK (x : SN128.Idx → EReal) (cw1 : SW256.Idx → EReal) (b1 sc sh : Fin 256 → EReal) (w2 : SW2.Idx → EReal)
    (b2 : Fin 2 → EReal) (p : Fin 100000) (c : Fin 2) : EReal :=
  (∑ j : Fin 256, (hidAt x cw1 b1 p j * sc j + sh j) * w2 (ix2 j c)) + b2 c

/-- Logit (p, c) with the per-column affine map in the reference's form, ((hidden - mean) * r) * gamma + beta. -/
def headR (x : SN128.Idx → EReal) (cw1 : SW256.Idx → EReal) (b1 mu r ga be : Fin 256 → EReal) (w2 : SW2.Idx → EReal)
    (b2 : Fin 2 → EReal) (p : Fin 100000) (c : Fin 2) : EReal :=
  (∑ j : Fin 256, (((hidAt x cw1 b1 p j - mu j) * r j) * ga j + be j) * w2 (ix2 j c)) + b2 c

/-- The logits as an array, kernel's form: the last layer's dense step feeds the head; the bias, scale and shift
    rows arrive as 1 x 256 (and 1 x 2) arrays. -/
def headArr (t0 t1 t2 : SN128.Idx → EReal) (w0 w1 w2 : SW128.Idx → EReal) (cw1 : SW256.Idx → EReal)
    (b1 sc sh : SR256.Idx → EReal) (w2c : SW2.Idx → EReal) (b2 : SR2.Idx → EReal) : SN2.Idx → EReal :=
  fun i => headK (comb t0 t1 t2 w0 w1 w2) cw1 (fun j => b1 (ix2 0 j)) (fun j => sc (ix2 0 j)) (fun j => sh (ix2 0 j)) w2c
    (fun c => b2 (ix2 0 c)) ⟨(i 0).val, (i 0).isLt⟩ ⟨(i 1).val, (i 1).isLt⟩

/-- The logits as an array, reference's form, from the last layer's output x and the per-column vectors. -/
def headRArr (x : SN128.Idx → EReal) (cw1 : SW256.Idx → EReal) (b1 mu r ga be : SV256.Idx → EReal) (w2c : SW2.Idx → EReal)
    (b2 : SV2.Idx → EReal) : SN2.Idx → EReal :=
  fun i => headR x cw1 (fun j => b1 (ix1 j)) (fun j => mu (ix1 j)) (fun j => r (ix1 j)) (fun j => ga (ix1 j)) (fun j => be (ix1 j)) w2c
    (fun c => b2 (ix1 c)) ⟨(i 0).val, (i 0).isLt⟩ ⟨(i 1).val, (i 1).isLt⟩

/-- The affine map in its two arrangements, at any extended-real h: for real mean, gamma, beta and a positive
    real r, h * (gamma * r) + (beta - mean * (gamma * r)) = ((h - mean) * r) * gamma + beta.  At a real h it is
    the ring identity; at an infinite h both sides are the infinity of the sign of gamma (r is positive), or
    beta when gamma is zero. -/
theorem bn_affine (h : EReal) (mu r ga be : ℝ) (hr : 0 < r) :
    h * ((ga : EReal) * (r : EReal)) + ((be : EReal) - (mu : EReal) * ((ga : EReal) * (r : EReal)))
      = ((h - (mu : EReal)) * (r : EReal)) * (ga : EReal) + (be : EReal) := by
  have hgr : ((ga : EReal) * (r : EReal)) = ((ga * r : ℝ) : EReal) := (EReal.coe_mul ga r).symm
  have hsh : ((be : EReal) - (mu : EReal) * ((ga * r : ℝ) : EReal)) = ((be - mu * (ga * r) : ℝ) : EReal) := by
    rw [← EReal.coe_mul, ← EReal.coe_sub]
  rw [hgr, hsh]
  induction h using EReal.rec with
  | bot =>
    rcases lt_trichotomy ga 0 with hg | hg | hg
    · have h1 : ga * r < 0 := mul_neg_of_neg_of_pos hg hr
      rw [EReal.bot_mul_coe_of_neg h1, EReal.top_add_coe, EReal.bot_sub, EReal.bot_mul_coe_of_pos hr,
        EReal.bot_mul_coe_of_neg hg, EReal.top_add_coe]
    · subst hg
      simp
    · have h1 : 0 < ga * r := mul_pos hg hr
      rw [EReal.bot_mul_coe_of_pos h1, EReal.bot_add, EReal.bot_sub, EReal.bot_mul_coe_of_pos hr,
        EReal.bot_mul_coe_of_pos hg, EReal.bot_add]
  | coe x =>
    rw [← EReal.coe_mul, ← EReal.coe_add, ← EReal.coe_sub, ← EReal.coe_mul, ← EReal.coe_mul, ← EReal.coe_add]
    congr 1
    ring
  | top =>
    rcases lt_trichotomy ga 0 with hg | hg | hg
    · have h1 : ga * r < 0 := mul_neg_of_neg_of_pos hg hr
      rw [EReal.top_mul_coe_of_neg h1, EReal.bot_add, EReal.top_sub_coe, EReal.top_mul_coe_of_pos hr,
        EReal.top_mul_coe_of_neg hg, EReal.bot_add]
    · subst hg
      simp
    · have h1 : 0 < ga * r := mul_pos hg hr
      rw [EReal.top_mul_coe_of_pos h1, EReal.top_add_coe, EReal.top_sub_coe, EReal.top_mul_coe_of_pos hr,
        EReal.top_mul_coe_of_pos hg, EReal.top_add_coe]

/-- The two heads agree when, column by column, mean, gamma, beta are real, r is a positive real, and the
    kernel's scale and shift are gamma * r and beta - mean * (gamma * r). -/
theorem headK_eq_headR (x : SN128.Idx → EReal) (cw1 : SW256.Idx → EReal) (b1 sc sh mu r ga be : Fin 256 → EReal)
    (w2 : SW2.Idx → EReal) (b2 : Fin 2 → EReal)
    (hsc : ∀ j, sc j = ga j * r j) (hsh : ∀ j, sh j = be j - mu j * (ga j * r j))
    (hmu : ∀ j, ∃ a : ℝ, mu j = a) (hga : ∀ j, ∃ a : ℝ, ga j = a) (hbe : ∀ j, ∃ a : ℝ, be j = a)
    (hr : ∀ j, ∃ a : ℝ, 0 < a ∧ r j = a) (p : Fin 100000) (c : Fin 2) :
    headK x cw1 b1 sc sh w2 b2 p c = headR x cw1 b1 mu r ga be w2 b2 p c := by
  unfold headK headR
  congr 1
  refine Finset.sum_congr rfl fun j _ => ?_
  obtain ⟨a1, h1⟩ := hmu j
  obtain ⟨a2, h2⟩ := hga j
  obtain ⟨a3, h3⟩ := hbe j
  obtain ⟨a4, h4p, h4⟩ := hr j
  rw [hsc j, hsh j, h1, h2, h3, h4, bn_affine _ a1 a4 a2 a3 h4p]

end Cert.Spec

end
-- ==== Proof.HostFns.lean ====
/-
  The host-side graph operators that both programs apply, word for word, around their dense steps — named once so
  that neither side is ever opened: the source and destination rows of the edge list, the symmetric normalisation
  of the edge weights (self loops masked, degree by a scatter-sum, inverse square root where the degree is positive),
  one propagation step (gather the source rows, scale by the edge's norm, scatter-sum into the destination rows),
  the second Chebyshev term 2 * P(P x) - x, and the three weight slices.  A layer of the reference is the rectified sum of
  three products over these.
-/
import proofs.«428064_j64707977281948_4_alg».proof.Proof.Gen.ReferenceIdeal

noncomputable section

namespace Cert.HostFns

open Cert.ReferenceIdeal Cert.ReferenceIdeal.Gen Idealize.ShloMosaic Idealize.ShloMosaic.TcCoe

variable {F : FTy → Type} [FloatOps F]

/-- Row 0 of the edge list: each edge's source node. -/
def srcOf (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- Row 1 of the edge list: each edge's destination node. -/
def dstOf (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- A node index made non-negative (a negative one counts from the end) and laid out as a column of start indices. -/
def wrapCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- The edge weights with self loops set to zero. -/
def maskedW (w : (⟨S600000, .f32⟩ : BufTy).Contents (Elt F)) (s d : (⟨S600000, .i32⟩ : BufTy).Contents (Elt F)) :
    (⟨S600000, .f32⟩ : BufTy).Contents (Elt F) :=
  select (cmpi .eq s d) (broadcastInDim S600000 ![] bcast_S_S600000 (constant S_ .f32 0x00000000#32)) w

/-- The inverse square root of each node's weighted out-degree, zero where the degree is not positive. -/
def dinvOf (w : (⟨S600000, .f32⟩ : BufTy).Contents (Elt F)) (s d : (⟨S600000, .i32⟩ : BufTy).Contents (Elt F)) :
    (⟨S100000, .f32⟩ : BufTy).Contents (Elt F) :=
  select
    (cmpf .ogt
      (Host.scatterAdd scatter_S100000_S600000x1_S600000_n_0_0_1 (broadcastInDim S100000 ![] bcast_S_S100000 (constant S_ .f32 0x00000000#32))
        (broadcastInDim S600000x1 ![0] bcast_S600000_S600000x1_0 s) (maskedW w s d))
      (broadcastInDim S100000 ![] bcast_S_S100000 (constant S_ .f32 0x00000000#32)))
    (Host.rsqrt
      (Host.scatterAdd scatter_S100000_S600000x1_S600000_n_0_0_1 (broadcastInDim S100000 ![] bcast_S_S100000 (constant S_ .f32 0x00000000#32))
        (broadcastInDim S600000x1 ![0] bcast_S600000_S600000x1_0 s) (maskedW w s d)))
    (broadcastInDim S100000 ![] bcast_S_S100000 (constant S_ .f32 0x00000000#32))

/-- The edge norm: minus dinv[src] times the masked weight times dinv[dst]. -/
def nrmOf (w : (⟨S600000, .f32⟩ : BufTy).Contents (Elt F)) (s d : (⟨S600000, .i32⟩ : BufTy).Contents (Elt F)) :
    (⟨S600000, .f32⟩ : BufTy).Contents (Elt F) :=
  mulf
    (mulf (Host.negf (Host.gather gather_S100000_S600000x1_S600000_n_0_n_n_0_1_1 (dinvOf w s d) (wrapCol s))) (maskedW w s d))
    (Host.gather gather_S100000_S600000x1_S600000_n_0_n_n_0_1_1 (dinvOf w s d) (wrapCol d))

/-- One propagation step: out[i] = sum over the edges into i of norm[e] * x[src e]. -/
def prop (nrm : (⟨S600000, .f32⟩ : BufTy).Contents (Elt F)) (s d : (⟨S600000, .i32⟩ : BufTy).Contents (Elt F))
    (x : (⟨S100000x128, .f32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 d)
    (mulf
      (broadcastInDim S600000x128 ![0, 1] bcast_S600000x1_S600000x128_0_1 (broadcastInDim S600000x1 ![0] bcast_S600000_S600000x1_0 nrm))
      (Host.gather gather_S100000x128_S600000x1_S600000x128_1_0_n_n_0_1_1128 x (wrapCol s)))

/-- The second Chebyshev term from the zeroth term x and the propagated first term p: 2 * p - x. -/
def cheb2 (x p : (⟨S100000x128, .f32⟩ : BufTy).Contents (Elt F)) : (⟨S100000x128, .f32⟩ : BufTy).Contents (Elt F) :=
  subf (mulf (broadcastInDim S100000x128 ![] bcast_S_S100000x128 (constant S_ .f32 0x40000000#32)) p) x

/-- The k-th of a layer's three weight matrices. -/
def wslice0 (w : (⟨S3x128x128, .f32⟩ : BufTy).Contents (Elt F)) : (⟨S128x128, .f32⟩ : BufTy).Contents (Elt F) :=
  shapeCast _ (extractStridedSlice S1x128x128 ![0, 0, 0] w slices_S3x128x128_S1x128x128_0_0_0) shapeCasts_S1x128x128_S128x128
def wslice1 (w : (⟨S3x128x128, .f32⟩ : BufTy).Contents (Elt F)) : (⟨S128x128, .f32⟩ : BufTy).Contents (Elt F) :=
  shapeCast _ (extractStridedSlice S1x128x128 ![1, 0, 0] w slices_S3x128x128_S1x128x128_1_0_0) shapeCasts_S1x128x128_S128x128
def wslice2 (w : (⟨S3x128x128, .f32⟩ : BufTy).Contents (Elt F)) : (⟨S128x128, .f32⟩ : BufTy).Contents (Elt F) :=
  shapeCast _ (extractStridedSlice S1x128x128 ![2, 0, 0] w slices_S3x128x128_S1x128x128_2_0_0) shapeCasts_S1x128x128_S128x128

/-- The three node-feature arrays a layer's dense step consumes: x, P x, 2 P (P x) - x. -/
def tx1 (nrm : (⟨S600000, .f32⟩ : BufTy).Contents (Elt F)) (s d : (⟨S600000, .i32⟩ : BufTy).Contents (Elt F))
    (x : (⟨S100000x128, .f32⟩ : BufTy).Contents (Elt F)) : (⟨S100000x128, .f32⟩ : BufTy).Contents (Elt F) := prop nrm s d x
def tx2 (nrm : (⟨S600000, .f32⟩ : BufTy).Contents (Elt F)) (s d : (⟨S600000, .i32⟩ : BufTy).Contents (Elt F))
    (x : (⟨S100000x128, .f32⟩ : BufTy).Contents (Elt F)) : (⟨S100000x128, .f32⟩ : BufTy).Contents (Elt F) :=
  cheb2 x (prop nrm s d (prop nrm s d x))

/-- One layer as the reference writes it: the three products summed left to right, then the rectifier. -/
def refLayer (nrm : (⟨S600000, .f32⟩ : BufTy).Contents (Elt F)) (s d : (⟨S600000, .i32⟩ : BufTy).Contents (Elt F))
    (w : (⟨S3x128x128, .f32⟩ : BufTy).Contents (Elt F)) (x : (⟨S100000x128, .f32⟩ : BufTy).Contents (Elt F)) :
    (⟨S100000x128, .f32⟩ : BufTy).Contents (Elt F) :=
  maximumf
    (addf
      (addf (Host.dotGeneral dot_S100000x128_S128x128_S100000x128_1_0_0_1_n_n none x (wslice0 w))
        (Host.dotGeneral dot_S100000x128_S128x128_S100000x128_1_0_0_1_n_n none (tx1 nrm s d x) (wslice1 w)))
      (Host.dotGeneral dot_S100000x128_S128x128_S100000x128_1_0_0_1_n_n none (tx2 nrm s d x) (wslice2 w)))
    (broadcastInDim S100000x128 ![] bcast_S_S100000x128 (constant S_ .f32 0x00000000#32))

/-- A length-256 vector as a full 100000 x 256 array, every row the vector. -/
def rows256 (v : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 v)

/-- The shifted variance's reciprocal square root, per hidden column. -/
def rsqVar (var : (⟨S256, .f32⟩ : BufTy).Contents (Elt F)) : (⟨S256, .f32⟩ : BufTy).Contents (Elt F) :=
  Host.rsqrt (addf var (broadcastInDim S256 ![] bcast_S_S256 (constant S_ .f32 0x3727C5AC#32)))

/-- The classifier head as the reference writes it, from the last layer's output x: a linear map and bias, the
    rectifier, the normalisation ((h - mean) * r) * gamma + beta, a second linear map and bias. -/
def refHead (x : (⟨S100000x128, .f32⟩ : BufTy).Contents (Elt F)) (cw1 : (⟨S128x256, .f32⟩ : BufTy).Contents (Elt F))
    (b1 ga be mu var : (⟨S256, .f32⟩ : BufTy).Contents (Elt F)) (w2 : (⟨S256x2, .f32⟩ : BufTy).Contents (Elt F))
    (b2 : (⟨S2, .f32⟩ : BufTy).Contents (Elt F)) : (⟨S100000x2, .f32⟩ : BufTy).Contents (Elt F) :=
  addf
    (Host.dotGeneral dot_S100000x256_S256x2_S100000x2_1_0_0_1_n_n none
      (addf
        (mulf
          (mulf
            (subf
              (maximumf
                (addf (Host.dotGeneral dot_S100000x128_S128x256_S100000x256_1_0_0_1_n_n none x cw1) (rows256 b1))
                (broadcastInDim S100000x256 ![] bcast_S_S100000x256 (constant S_ .f32 0x00000000#32)))
              (rows256 mu))
            (rows256 (rsqVar var)))
          (rows256 ga))
        (rows256 be))
      w2)
    (broadcastInDim S100000x2 ![0, 1] bcast_S1x2_S100000x2_0_1 (broadcastInDim S1x2 ![1] bcast_S2_S1x2_1 b2))

end Cert.HostFns

end
-- ==== Proof.KReg0.lean ====
/-
  Region 0 (the first layer's dense step) read as one array function: the output array after the region is the
  rectified sum of the three products of the region's three node-feature arrays with its three weight arrays,
  entry by entry, whatever the buffers hold when the region is entered.
-/
import proofs.«428064_j64707977281948_4_alg».proof.Proof.Gen.KernelIdeal.Frame
import proofs.«428064_j64707977281948_4_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx

/-! ## One matrix product at an entry -/

theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's product with a weight matrix, accumulated into zero, at entry (p, q): the sum over the 128 shared
    coordinates of the products. -/
theorem prod_apply (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at entry (p, q): the rectified sum of the three products. -/
theorem pay_apply (v0 v4 v10 : Vec Ideal S10000x128 .f32) (v1 v6 v12 : Vec Ideal S128x128 .f32) (p : Fin 10000) (q : Fin 128) :
    k0_pay1 v0 v1 v4 v6 v10 v12 (ix2 p q)
      = max ((∑ k : Fin 128, v0 (ix2 p k) * v1 (ix2 k q)) + (∑ k : Fin 128, v4 (ix2 p k) * v6 (ix2 k q))
          + (∑ k : Fin 128, v10 (ix2 p k) * v12 (ix2 k q))) 0 := by
  unfold k0_pay1
  simp only [shapeCast_self]
  rw [maximumf_apply, addf_apply, addf_apply, prod_apply, prod_apply, prod_apply, broadcast_apply]
  congr 1
  exact Ideal.ofBits_zero_f32

variable (V : (c : Dev nD) → (b : Ref sig .tc) → Buf (Elt Ideal) ((c : Thread nD τ).loc b))

/-! ## Where the region's blocks sit -/

theorem zeros2 : (![0, 0] : Fin 2 → Nat) = fun _ => 0 := funext fun a => by fin_cases a <;> rfl

/-- At grid point t the three node-feature windows and the output window are at row block t, column block 0; the
    three weight windows are at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of node-feature block t is row 10000 t + p of the array. -/
theorem feat0_apply (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : Cert.Spec.SN128.Idx → EReal) (ix2 r k) := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Row p of the second and third node-feature blocks, likewise. -/
theorem feat1_apply (c : Dev nD) (t : Fin cfg0.N) (p : Fin 10000) (k : Fin 128) (r : Fin 100000)
    (hr : r.val = t.val * 10000 + p.val) :
    (iblk0 V c 1 t : Vec Ideal S10000x128 .f32) (ix2 p k) = (V c main_v42 : Cert.Spec.SN128.Idx → EReal) (ix2 r k) := by
  obtain ⟨-, -, e0, e1, -⟩ := block_index t
  unfold iblk0
  rw [View.read_apply]
  show V c main_v42 _ = V c main_v42 _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 128 + 1 * k.val = k.val; rw [e1]; omega

theorem feat2_apply (c : Dev nD) (t : Fin cfg0.N) (p : Fin 10000) (k : Fin 128) (r : Fin 100000)
    (hr : r.val = t.val * 10000 + p.val) :
    (iblk0 V c 2 t : Vec Ideal S10000x128 .f32) (ix2 p k) = (V c main_v58 : Cert.Spec.SN128.Idx → EReal) (ix2 r k) := by
  obtain ⟨-, -, -, -, e0, e1, -⟩ := block_index t
  unfold iblk0
  rw [View.read_apply]
  show V c main_v58 _ = V c main_v58 _
  congr 1
  funext a
  apply Fin.ext
  match a with
  | ⟨0, _⟩ => show win0_2.index t (0 : Fin 2) * 10000 + 1 * p.val = r.val; rw [e0, hr]; omega
  | ⟨1, _⟩ => show win0_2.index t (1 : Fin 2) * 128 + 1 * k.val = k.val; rw [e1]; omega

/-- A weight window's block is its whole array at every grid point. -/
theorem weight0_apply (c : Dev nD) (t : Fin cfg0.N) (k q : Fin 128) :
    (iblk0 V c 3 t : Vec Ideal S128x128 .f32) (ix2 k q) = (V c main_v60 : Cert.Spec.SW128.Idx → EReal) (ix2 k q) := by
  obtain ⟨-, -, -, -, -, -, e0, e1, -⟩ := block_index t
  unfold iblk0
  rw [View.read_apply]
  show V c main_v60 _ = V c main_v60 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem weight1_apply (c : Dev nD) (t : Fin cfg0.N) (k q : Fin 128) :
    (iblk0 V c 4 t : Vec Ideal S128x128 .f32) (ix2 k q) = (V c main_v62 : Cert.Spec.SW128.Idx → EReal) (ix2 k q) := by
  obtain ⟨-, -, -, -, -, -, -, -, e0, e1, -⟩ := block_index t
  unfold iblk0
  rw [View.read_apply]
  show V c main_v62 _ = V c main_v62 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem weight2_apply (c : Dev nD) (t : Fin cfg0.N) (k q : Fin 128) :
    (iblk0 V c 5 t : Vec Ideal S128x128 .f32) (ix2 k q) = (V c main_v64 : Cert.Spec.SW128.Idx → EReal) (ix2 k q) := by
  obtain ⟨-, -, -, -, -, -, -, -, -, -, e0, e1, -⟩ := block_index t
  unfold iblk0
  rw [View.read_apply]
  show V c main_v64 _ = V c main_v64 _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- If three 10000-row blocks hold, at row p, row r of three arrays, and three 128 x 128 blocks hold three weight
    matrices (column q), the rectified sum of the three products at (p, q) is the layer's dense step at the array
    entry (r, q). -/
theorem comb_of_rows (t0 t1 t2 : Cert.Spec.SN128.Idx → EReal) (w0 w1 w2 : Cert.Spec.SW128.Idx → EReal)
    (x0 x1 x2 : Vec Ideal S10000x128 .f32) (y0 y1 y2 : Vec Ideal S128x128 .f32) (p : Fin 10000) (q : Fin 128)
    (i : Cert.Spec.SN128.Idx) (h1 : (i 1).val = q.val)
    (hx0 : ∀ k : Fin 128, x0 (ix2 p k) = t0 (ix2 ⟨(i 0).val, (i 0).isLt⟩ k))
    (hx1 : ∀ k : Fin 128, x1 (ix2 p k) = t1 (ix2 ⟨(i 0).val, (i 0).isLt⟩ k))
    (hx2 : ∀ k : Fin 128, x2 (ix2 p k) = t2 (ix2 ⟨(i 0).val, (i 0).isLt⟩ k))
    (hy0 : ∀ k : Fin 128, y0 (ix2 k q) = w0 (ix2 k q))
    (hy1 : ∀ k : Fin 128, y1 (ix2 k q) = w1 (ix2 k q))
    (hy2 : ∀ k : Fin 128, y2 (ix2 k q) = w2 (ix2 k q)) :
    max ((∑ k : Fin 128, x0 (ix2 p k) * y0 (ix2 k q)) + (∑ k : Fin 128, x1 (ix2 p k) * y1 (ix2 k q))
        + (∑ k : Fin 128, x2 (ix2 p k) * y2 (ix2 k q))) 0
      = Cert.Spec.comb t0 t1 t2 w0 w1 w2 i := by
  show _ = Cert.Spec.combAt t0 t1 t2 w0 w1 w2 ⟨(i 0).val, (i 0).isLt⟩ ⟨(i 1).val, (i 1).isLt⟩
  rw [show (⟨(i 1).val, (i 1).isLt⟩ : Fin 128) = q from Fin.ext h1]
  unfold Cert.Spec.combAt
  rw [Finset.sum_congr rfl fun k _ => show x0 (ix2 p k) * y0 (ix2 k q) = t0 (ix2 ⟨(i 0).val, (i 0).isLt⟩ k) * w0 (ix2 k q) by rw [hx0 k, hy0 k],
    Finset.sum_congr rfl fun k _ => show x1 (ix2 p k) * y1 (ix2 k q) = t1 (ix2 ⟨(i 0).val, (i 0).isLt⟩ k) * w1 (ix2 k q) by rw [hx1 k, hy1 k],
    Finset.sum_congr rfl fun k _ => show x2 (ix2 p k) * y2 (ix2 k q) = t2 (ix2 ⟨(i 0).val, (i 0).isLt⟩ k) * w2 (ix2 k q) by rw [hx2 k, hy2 k]]

/-! ## What a grid point writes back, and the whole array -/

/-- Grid point t writes back block t of the layer's dense step of the region's input arrays. -/
theorem flushed_eq (c : Dev nD) (t : Fin cfg0.N) :
    (dat0 (F := Ideal) V c).flushed 6 t = ((cfg0.win 6).blk t).view.read (Elt Ideal)
      (Cert.Spec.comb (V c main_arg0) (V c main_v42) (V c main_v58) (V c main_v60) (V c main_v62) (V c main_v64)) := by
  show (cfg0.win 6).cut (grid0.coords t) ((dat0 V c).after 6 t) = _
  rw [after0_6]
  unfold out0_6
  rw [View.canon_unit_zero zeros2]
  simp only [View.ld_unit_zero (S := S10000x128) zeros2, View.ld_unit_zero (S := S128x128) zeros2]
  obtain ⟨-, -, -, -, -, -, -, -, -, -, -, -, e0, e1⟩ := block_index t
  funext j
  obtain ⟨p, q, rfl⟩ : ∃ (p : Fin 10000) (q : Fin 128), j = ix2 p q := ⟨j 0, j 1, eq_ix2 j⟩
  show k0_pay1 (iblk0 V c 0 t) (iblk0 V c 3 t) (iblk0 V c 1 t) (iblk0 V c 4 t) (iblk0 V c 2 t) (iblk0 V c 5 t) (ix2 p q)
    = Cert.Spec.comb (V c main_arg0) (V c main_v42) (V c main_v58) (V c main_v60) (V c main_v62) (V c main_v64)
        (((cfg0.win 6).blk t).view.emb (ix2 p q))
  refine (pay_apply (iblk0 V c 0 t) (iblk0 V c 1 t) (iblk0 V c 2 t) (iblk0 V c 3 t) (iblk0 V c 4 t) (iblk0 V c 5 t) p q).trans ?_
  have h0 : ((((cfg0.win 6).blk t).view.emb (ix2 p q)) 0).val = t.val * 10000 + p.val := by
    show win0_6.index t (0 : Fin 2) * 10000 + 1 * p.val = t.val * 10000 + p.val; rw [e0]; omega
  have h1 : ((((cfg0.win 6).blk t).view.emb (ix2 p q)) 1).val = q.val := by
    show win0_6.index t (1 : Fin 2) * 128 + 1 * q.val = q.val; rw [e1]; omega
  exact comb_of_rows (V c main_arg0) (V c main_v42) (V c main_v58) (V c main_v60) (V c main_v62) (V c main_v64)
    (iblk0 V c 0 t) (iblk0 V c 1 t) (iblk0 V c 2 t) (iblk0 V c 3 t) (iblk0 V c 4 t) (iblk0 V c 5 t) p q _ h1
    (fun k => feat0_apply V c t p k _ h0) (fun k => feat1_apply V c t p k _ h0) (fun k => feat2_apply V c t p k _ h0)
    (fun k => weight0_apply V c t k q) (fun k => weight1_apply V c t k q) (fun k => weight2_apply V c t k q)

/-- An entry of the output array lies in grid point t's block iff each coordinate lies in the block's range. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v65).slice (win0_6.rect t)).set ↔ _
  rw [View.set_slice_whole, Rect.mem_set_unit]
  exact Iff.rfl

/-- Row r of the output array lies in the block of grid point r / 10000: the ten blocks cover the array. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 10 := N_0
  have ht : (i 0).val / 10000 < grid0.N := by rw [hN]; omega
  obtain ⟨-, -, -, -, -, -, -, -, -, -, -, -, e0, e1⟩ := block_index ⟨(i 0).val / 10000, ht⟩
  refine ⟨⟨(i 0).val / 10000, ht⟩, flush0_6 _, ?_⟩
  rw [mem_blk]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 128 ≤ (i 1).val ∧ (i 1).val < win0_6.index ⟨(i 0).val / 10000, ht⟩ (1 : Fin 2) * 128 + 128
    rw [e1]; omega

/-- The region's output array after all ten grid points. -/
theorem final (c : Dev nD) :
    (dat0 (F := Ideal) V c).arrAt 6 cfg0.N
      = Cert.Spec.comb (V c main_arg0) (V c main_v42) (V c main_v58) (V c main_v60) (V c main_v62) (V c main_v64) :=
  (dat0 (F := Ideal) V c).arrAt_eq_of_cover 6 _ (fun t _ => flushed_eq V c t) covered

end Cert.KernelIdeal.Reg0

end
-- ==== Proof.KReg1.lean ====
/-
  Region 1 (the second layer's dense step) read as one array function: the output array after the region is the
  rectified sum of the three products of the region's three node-feature arrays with its three weight arrays,
  entry by entry, whatever the buffers hold when the region is entered.
-/
import proofs.«428064_j64707977281948_4_alg».proof.Proof.Gen.KernelIdeal.Frame
import proofs.«428064_j64707977281948_4_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx

/-! ## One matrix product at an entry -/

theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's product with a weight matrix, accumulated into zero, at entry (p, q): the sum over the 128 shared
    coordinates of the products. -/
theorem prod_apply (x : FVec Ideal S10000x128 .f32) (w : FVec Ideal S128x128 .f32) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at entry (p, q): the rectified sum of the three products (the reshapes of the six
    operands to their own shapes are the identity). -/
theorem pay_apply (v0 v5 v11 : Vec Ideal S10000x128 .f32) (v2 v7 v13 : Vec Ideal S128x128 .f32) (p : Fin 10000) (q : Fin 128) :
    k1_pay1 v0 v2 v5 v7 v11 v13 (ix2 p q)
      = max ((∑ k : Fin 128, v0 (ix2 p k) * v2 (ix2 k q)) + (∑ k : Fin 128, v5 (ix2 p k) * v7 (ix2 k q))
          + (∑ k : Fin 128, v11 (ix2 p k) * v13 (ix2 k q))) 0 := by
  unfold k1_pay1
  simp only [shapeCast_self]
  rw [maximumf_apply, addf_apply, addf_apply, prod_apply, prod_apply, prod_apply, broadcast_apply]
  congr 1
  exact Ideal.ofBits_zero_f32

variable (V : (c : Dev nD) → (b : Ref sig .tc) → Buf (Elt Ideal) ((c : Thread nD τ).loc b))

/-! ## Where the region's blocks sit -/

theorem zeros2 : (![0, 0] : Fin 2 → Nat) = fun _ => 0 := funext fun a => by fin_cases a <;> rfl

/-- At grid point t the three node-feature windows and the output window are at row block t, column block 0; the
    three weight windows are at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of node-feature block t is row 10000 t + p of the array. -/
theorem feat0_apply (c : Dev nD) (t : Fin cfg1.N) (p : Fin 10000) (k : Fin 128) (r : Fin 100000)
    (hr : r.val = t.val * 10000 + p.val) :
    (iblk1 V c 0 t : Vec Ideal S10000x128 .f32) (ix2 p k) = (V c main_v65 : Cert.Spec.SN128.Idx → EReal) (ix2 r k) := by
  obtain ⟨e0, e1, -⟩ := block_index t
  unfold iblk1
  rw [View.read_apply]
  show V c main_v65 _ = V c main_v65 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Row p of the second and third node-feature blocks, likewise. -/
theorem feat1_apply (c : Dev nD) (t : Fin cfg1.N) (p : Fin 10000) (k : Fin 128) (r : Fin 100000)
    (hr : r.val = t.val * 10000 + p.val) :
    (iblk1 V c 1 t : Vec Ideal S10000x128 .f32) (ix2 p k) = (V c main_v78 : Cert.Spec.SN128.Idx → EReal) (ix2 r k) := by
  obtain ⟨-, -, e0, e1, -⟩ := block_index t
  unfold iblk1
  rw [View.read_apply]
  show V c main_v78 _ = V c main_v78 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 128 + 1 * k.val = k.val; rw [e1]; omega

theorem feat2_apply (c : Dev nD) (t : Fin cfg1.N) (p : Fin 10000) (k : Fin 128) (r : Fin 100000)
    (hr : r.val = t.val * 10000 + p.val) :
    (iblk1 V c 2 t : Vec Ideal S10000x128 .f32) (ix2 p k) = (V c main_v94 : Cert.Spec.SN128.Idx → EReal) (ix2 r k) := by
  obtain ⟨-, -, -, -, e0, e1, -⟩ := block_index t
  unfold iblk1
  rw [View.read_apply]
  show V c main_v94 _ = V c main_v94 _
  congr 1
  funext a
  apply Fin.ext
  match a with
  | ⟨0, _⟩ => show win1_2.index t (0 : Fin 2) * 10000 + 1 * p.val = r.val; rw [e0, hr]; omega
  | ⟨1, _⟩ => show win1_2.index t (1 : Fin 2) * 128 + 1 * k.val = k.val; rw [e1]; omega

/-- A weight window's block is its whole array at every grid point. -/
theorem weight0_apply (c : Dev nD) (t : Fin cfg1.N) (k q : Fin 128) :
    (iblk1 V c 3 t : Vec Ideal S128x128 .f32) (ix2 k q) = (V c main_v96 : Cert.Spec.SW128.Idx → EReal) (ix2 k q) := by
  obtain ⟨-, -, -, -, -, -, e0, e1, -⟩ := block_index t
  unfold iblk1
  rw [View.read_apply]
  show V c main_v96 _ = V c main_v96 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem weight1_apply (c : Dev nD) (t : Fin cfg1.N) (k q : Fin 128) :
    (iblk1 V c 4 t : Vec Ideal S128x128 .f32) (ix2 k q) = (V c main_v98 : Cert.Spec.SW128.Idx → EReal) (ix2 k q) := by
  obtain ⟨-, -, -, -, -, -, -, -, e0, e1, -⟩ := block_index t
  unfold iblk1
  rw [View.read_apply]
  show V c main_v98 _ = V c main_v98 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

theorem weight2_apply (c : Dev nD) (t : Fin cfg1.N) (k q : Fin 128) :
    (iblk1 V c 5 t : Vec Ideal S128x128 .f32) (ix2 k q) = (V c main_v100 : Cert.Spec.SW128.Idx → EReal) (ix2 k q) := by
  obtain ⟨-, -, -, -, -, -, -, -, -, -, e0, e1, -⟩ := block_index t
  unfold iblk1
  rw [View.read_apply]
  show V c main_v100 _ = V c main_v100 _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- If three 10000-row blocks hold, at row p, row r of three arrays, and three 128 x 128 blocks hold three weight
    matrices (column q), the rectified sum of the three products at (p, q) is the layer's dense step at the array
    entry (r, q). -/
theorem comb_of_rows (t0 t1 t2 : Cert.Spec.SN128.Idx → EReal) (w0 w1 w2 : Cert.Spec.SW128.Idx → EReal)
    (x0 x1 x2 : Vec Ideal S10000x128 .f32) (y0 y1 y2 : Vec Ideal S128x128 .f32) (p : Fin 10000) (q : Fin 128)
    (i : Cert.Spec.SN128.Idx) (h1 : (i 1).val = q.val)
    (hx0 : ∀ k : Fin 128, x0 (ix2 p k) = t0 (ix2 ⟨(i 0).val, (i 0).isLt⟩ k))
    (hx1 : ∀ k : Fin 128, x1 (ix2 p k) = t1 (ix2 ⟨(i 0).val, (i 0).isLt⟩ k))
    (hx2 : ∀ k : Fin 128, x2 (ix2 p k) = t2 (ix2 ⟨(i 0).val, (i 0).isLt⟩ k))
    (hy0 : ∀ k : Fin 128, y0 (ix2 k q) = w0 (ix2 k q))
    (hy1 : ∀ k : Fin 128, y1 (ix2 k q) = w1 (ix2 k q))
    (hy2 : ∀ k : Fin 128, y2 (ix2 k q) = w2 (ix2 k q)) :
    max ((∑ k : Fin 128, x0 (ix2 p k) * y0 (ix2 k q)) + (∑ k : Fin 128, x1 (ix2 p k) * y1 (ix2 k q))
        + (∑ k : Fin 128, x2 (ix2 p k) * y2 (ix2 k q))) 0
      = Cert.Spec.comb t0 t1 t2 w0 w1 w2 i := by
  show _ = Cert.Spec.combAt t0 t1 t2 w0 w1 w2 ⟨(i 0).val, (i 0).isLt⟩ ⟨(i 1).val, (i 1).isLt⟩
  rw [show (⟨(i 1).val, (i 1).isLt⟩ : Fin 128) = q from Fin.ext h1]
  unfold Cert.Spec.combAt
  rw [Finset.sum_congr rfl fun k _ => show x0 (ix2 p k) * y0 (ix2 k q) = t0 (ix2 ⟨(i 0).val, (i 0).isLt⟩ k) * w0 (ix2 k q) by rw [hx0 k, hy0 k],
    Finset.sum_congr rfl fun k _ => show x1 (ix2 p k) * y1 (ix2 k q) = t1 (ix2 ⟨(i 0).val, (i 0).isLt⟩ k) * w1 (ix2 k q) by rw [hx1 k, hy1 k],
    Finset.sum_congr rfl fun k _ => show x2 (ix2 p k) * y2 (ix2 k q) = t2 (ix2 ⟨(i 0).val, (i 0).isLt⟩ k) * w2 (ix2 k q) by rw [hx2 k, hy2 k]]

/-! ## What a grid point writes back, and the whole array -/

/-- Grid point t writes back block t of the layer's dense step of the region's input arrays. -/
theorem flushed_eq (c : Dev nD) (t : Fin cfg1.N) :
    (dat1 (F := Ideal) V c).flushed 6 t = ((cfg1.win 6).blk t).view.read (Elt Ideal)
      (Cert.Spec.comb (V c main_v65) (V c main_v78) (V c main_v94) (V c main_v96) (V c main_v98) (V c main_v100)) := by
  show (cfg1.win 6).cut (grid1.coords t) ((dat1 V c).after 6 t) = _
  rw [after1_6]
  unfold out1_6
  rw [View.canon_unit_zero zeros2]
  simp only [View.ld_unit_zero (S := S10000x128) zeros2, View.ld_unit_zero (S := S128x128) zeros2]
  obtain ⟨-, -, -, -, -, -, -, -, -, -, -, -, e0, e1⟩ := block_index t
  funext j
  obtain ⟨p, q, rfl⟩ : ∃ (p : Fin 10000) (q : Fin 128), j = ix2 p q := ⟨j 0, j 1, eq_ix2 j⟩
  show k1_pay1 (iblk1 V c 0 t) (iblk1 V c 3 t) (iblk1 V c 1 t) (iblk1 V c 4 t) (iblk1 V c 2 t) (iblk1 V c 5 t) (ix2 p q)
    = Cert.Spec.comb (V c main_v65) (V c main_v78) (V c main_v94) (V c main_v96) (V c main_v98) (V c main_v100)
        (((cfg1.win 6).blk t).view.emb (ix2 p q))
  refine (pay_apply (iblk1 V c 0 t) (iblk1 V c 1 t) (iblk1 V c 2 t) (iblk1 V c 3 t) (iblk1 V c 4 t) (iblk1 V c 5 t) p q).trans ?_
  have h0 : ((((cfg1.win 6).blk t).view.emb (ix2 p q)) 0).val = t.val * 10000 + p.val := by
    show win1_6.index t (0 : Fin 2) * 10000 + 1 * p.val = t.val * 10000 + p.val; rw [e0]; omega
  have h1 : ((((cfg1.win 6).blk t).view.emb (ix2 p q)) 1).val = q.val := by
    show win1_6.index t (1 : Fin 2) * 128 + 1 * q.val = q.val; rw [e1]; omega
  exact comb_of_rows (V c main_v65) (V c main_v78) (V c main_v94) (V c main_v96) (V c main_v98) (V c main_v100)
    (iblk1 V c 0 t) (iblk1 V c 1 t) (iblk1 V c 2 t) (iblk1 V c 3 t) (iblk1 V c 4 t) (iblk1 V c 5 t) p q _ h1
    (fun k => feat0_apply V c t p k _ h0) (fun k => feat1_apply V c t p k _ h0) (fun k => feat2_apply V c t p k _ h0)
    (fun k => weight0_apply V c t k q) (fun k => weight1_apply V c t k q) (fun k => weight2_apply V c t k q)

/-- An entry of the output array lies in grid point t's block iff each coordinate lies in the block's range. -/
theorem mem_blk (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v101).slice (win1_6.rect t)).set ↔ _
  rw [View.set_slice_whole, Rect.mem_set_unit]
  exact Iff.rfl

/-- Row r of the output array lies in the block of grid point r / 10000: the ten blocks cover the array. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 10 := N_1
  have ht : (i 0).val / 10000 < grid1.N := by rw [hN]; omega
  obtain ⟨-, -, -, -, -, -, -, -, -, -, -, -, e0, e1⟩ := block_index ⟨(i 0).val / 10000, ht⟩
  refine ⟨⟨(i 0).val / 10000, ht⟩, flush1_6 _, ?_⟩
  rw [mem_blk]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ (1 : Fin 2) * 128 ≤ (i 1).val ∧ (i 1).val < win1_6.index ⟨(i 0).val / 10000, ht⟩ (1 : Fin 2) * 128 + 128
    rw [e1]; omega

/-- The region's output array after all ten grid points. -/
theorem final (c : Dev nD) :
    (dat1 (F := Ideal) V c).arrAt 6 cfg1.N
      = Cert.Spec.comb (V c main_v65) (V c main_v78) (V c main_v94) (V c main_v96) (V c main_v98) (V c main_v100) :=
  (dat1 (F := Ideal) V c).arrAt_eq_of_cover 6 _ (fun t _ => flushed_eq V c t) covered

end Cert.KernelIdeal.Reg1

end
-- ==== Proof.KReg2.lean ====
/-
  Region 2 (the last layer's dense step fused with the classifier head) read as one array function.

  The region walks twenty grid points; at point t it sees rows 5000 t … 5000 t + 4999 of the three node-feature
  arrays (100000 x 128 each), the whole of the nine parameter arrays (three 128 x 128 weights, the 128 x 256 and
  256 x 2 classifier weights, the 1 x 256 bias, scale and shift rows, the 1 x 2 bias), and writes rows
  5000 t … 5000 t + 4999 of the 100000 x 2 logits.  On a block it computes
      x = max (x0 w0 + x1 w1 + x2 w2) 0,   hid = max (x cw1 + b1) 0,   (hid * scale + shift) w2 + b2.
  Every product into the zero accumulator is a plain sum over the shared index, a row vector broadcast over the
  block reads its one row, so entry (p, c) of the stored block is the head's logit of row 5000 t + p of the arrays.
  The twenty blocks tile the 100000 rows (row r lies in block r / 5000), hence the output array ends as the head's
  logit array of the arrays the region found.
-/
import proofs.«428064_j64707977281948_4_alg».proof.Proof.Gen.KernelIdeal.Frame
import proofs.«428064_j64707977281948_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx

/-! ## The three kinds of matrix product at an index

Each product contracts the left operand's columns with the right operand's rows; at an output index (p, q) and a
contraction index k the operands are read at (p, k) and (k, q). -/

/-! ### The product record W: left operand S5000x128, right operand S128x128, contraction over the 128 shared columns/rows -/

theorem lhsW_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsW_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsW_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsW_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into the zero accumulator is the plain sum over the shared index. -/
theorem matmulW_apply (a : FVec Ideal S5000x128 .f32) (b : FVec Ideal S128x128 .f32) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ### The product record C: left operand S5000x128, right operand S128x256, contraction over the 128 shared columns/rows -/

theorem lhsC_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhsC_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhsC_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhsC_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, q) of the product into the zero accumulator is the plain sum over the shared index. -/
theorem matmulC_apply (a : FVec Ideal S5000x128 .f32) (b : FVec Ideal S128x256 .f32) (p : Fin 5000) (q : Fin 256) :
    matmul dot_S5000x128_S128x256_S5000x256_1_0_0_1_n_n none a b (constant (F := Ideal) S5000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lhsC_0 _ _
    | ⟨1, _⟩ => exact (lhsC_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ### The product record L: left operand S5000x256, right operand S256x2, contraction over the 256 shared columns/rows -/

theorem lhsL_0 (i : S5000x2.Idx) (q : dot_S5000x256_S256x2_S5000x2_1_0_0_1_n_n.contr.Idx) :
    (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem lhsL_1 (i : S5000x2.Idx) (q : dot_S5000x256_S256x2_S5000x2_1_0_0_1_n_n.contr.Idx) :
    (dot_S5000x256_S256x2_S5000x2_1_0_0_1_n_n.lhsIdx i q 1).val = (q ⟨0, by decide⟩).val :=
  dot_S5000x256_S256x2_S5000x2_1_0_0_1_n_n.lhsIdx_val_of_single rfl i q
theorem rhsL_0 (i : S5000x2.Idx) (q : dot_S5000x256_S256x2_S5000x2_1_0_0_1_n_n.contr.Idx) :
    (dot_S5000x256_S256x2_S5000x2_1_0_0_1_n_n.rhsIdx i q 0).val = (q ⟨0, by decide⟩).val :=
  dot_S5000x256_S256x2_S5000x2_1_0_0_1_n_n.rhsIdx_val_of_single rfl i q
theorem rhsL_1 (i : S5000x2.Idx) (q : dot_S5000x256_S256x2_S5000x2_1_0_0_1_n_n.contr.Idx) :
    (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-- Entry (p, q) of the product into the zero accumulator is the plain sum over the shared index. -/
theorem matmulL_apply (a : FVec Ideal S5000x256 .f32) (b : FVec Ideal S256x2 .f32) (p : Fin 5000) (q : Fin 2) :
    matmul dot_S5000x256_S256x2_S5000x2_1_0_0_1_n_n none a b (constant (F := Ideal) S5000x2 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x2_S5000x2_1_0_0_1_n_n 256 rfl rfl).symm]
  refine Finset.sum_congr rfl fun k _ => ?_
  have hk := ValueIdx.contrEquiv1_symm_val dot_S5000x256_S256x2_S5000x2_1_0_0_1_n_n 256 rfl rfl k
  have el : dot_S5000x256_S256x2_S5000x2_1_0_0_1_n_n.lhsIdx (ix2 p q) ((ValueIdx.contrEquiv1 dot_S5000x256_S256x2_S5000x2_1_0_0_1_n_n 256 rfl rfl).symm k) = ix2 p k := funext fun a => Fin.ext (by
    match a with
    | ⟨0, _⟩ => exact lhsL_0 _ _
    | ⟨1, _⟩ => exact (lhsL_1 _ _).trans hk)
  have er : dot_S5000x256_S256x2_S5000x2_1_0_0_1_n_n.rhsIdx (ix2 p q) ((ValueIdx.contrEquiv1 dot_S5000x256_S256x2_S5000x2_1_0_0_1_n_n 256 rfl rfl).symm k) = ix2 k q := funext fun a => Fin.ext (by
    match a with
    | ⟨0, _⟩ => exact (rhsL_0 _ _).trans hk
    | ⟨1, _⟩ => exact rhsL_1 _ _)
  rw [el, er]

/-! ## The body's result at an index -/

/-- The zero scalar the rectifier compares with is the extended real 0. -/
theorem zero_scalar : (Scalar.ofBits (F := Ideal) .f32 0x00000000#32 : EReal) = 0 :=
  Ideal.ofBits_zero_f32

/-- Entry (p, k) of the rectified dense step on one block of 5000 rows: the three row blocks against the three
    weight matrices. -/
def blkX (x0 x1 x2 : Vec Ideal S5000x128 .f32) (w0 w1 w2 : Vec Ideal S128x128 .f32) (p : Fin 5000) (k : Fin 128) : EReal :=
  max ((∑ k' : Fin 128, x0 (ix2 p k') * w0 (ix2 k' k)) + (∑ k' : Fin 128, x1 (ix2 p k') * w1 (ix2 k' k))
    + (∑ k' : Fin 128, x2 (ix2 p k') * w2 (ix2 k' k))) 0

/-- Entry (p, cc) of the block the body stores: the head's logit of row p of the block, the affine map applied as
    hidden * scale + shift. -/
theorem pay_apply (x0 x1 x2 : Vec Ideal S5000x128 .f32) (w0 w1 w2 : Vec Ideal S128x128 .f32) (cw1 : Vec Ideal S128x256 .f32)
    (b1 sc sh : Vec Ideal S1x256 .f32) (w2c : Vec Ideal S256x2 .f32) (b2 : Vec Ideal S1x2 .f32) (p : Fin 5000) (cc : Fin 2) :
    k2_pay1 (F := Ideal) (k2_pay2 (F := Ideal) x0 w0 x1 w1 x2 w2 cw1 b1 sc) (k2_pay3 (F := Ideal) sh) w2c b2 (ix2 p cc)
      = (∑ j : Fin 256, (max ((∑ k : Fin 128, blkX x0 x1 x2 w0 w1 w2 p k * cw1 (ix2 k j)) + b1 (ix2 0 j)) 0 * sc (ix2 0 j)
            + sh (ix2 0 j)) * w2c (ix2 j cc)) + b2 (ix2 0 cc) := by
  unfold k2_pay1 k2_pay2 k2_pay3 blkX
  simp only [shapeCast_self]
  rw [addf_apply, matmulL_apply, broadcastTo_1b_ab_apply]
  congr 1
  refine Finset.sum_congr rfl fun j _ => ?_
  rw [addf_apply, mulf_apply, maximumf_apply, addf_apply, broadcast_apply, zero_scalar, matmulC_apply,
    broadcastTo_1b_ab_apply, broadcastTo_1b_ab_apply, broadcastTo_1b_ab_apply]
  refine congrArg (fun z : EReal => (max (z + b1 (ix2 0 j)) 0 * sc (ix2 0 j) + sh (ix2 0 j)) * w2c (ix2 j cc)) ?_
  refine Finset.sum_congr rfl fun k _ => ?_
  refine congrArg (fun z : EReal => z * cw1 (ix2 k j)) ?_
  rw [maximumf_apply, addf_apply, addf_apply, broadcast_apply, matmulW_apply, matmulW_apply, matmulW_apply]

/-- The block's dense step is the array's: when block row p of the three feature blocks is row r of the three arrays,
    entry (p, k) of the block's rectified dense step is entry (r, k) of the array's. -/
theorem blkX_eq_comb (t0 t1 t2 : Vec Ideal S100000x128 .f32) (w0 w1 w2 : Vec Ideal S128x128 .f32)
    (x0 x1 x2 : Vec Ideal S5000x128 .f32) (p : Fin 5000) (r : Fin 100000)
    (e0 : ∀ k : Fin 128, x0 (ix2 p k) = t0 (ix2 r k)) (e1 : ∀ k : Fin 128, x1 (ix2 p k) = t1 (ix2 r k))
    (e2 : ∀ k : Fin 128, x2 (ix2 p k) = t2 (ix2 r k)) (k : Fin 128) :
    blkX x0 x1 x2 w0 w1 w2 p k = Cert.Spec.comb t0 t1 t2 w0 w1 w2 (ix2 r k) := by
  show _ = Cert.Spec.combAt t0 t1 t2 w0 w1 w2 r k
  unfold blkX Cert.Spec.combAt
  simp only [e0, e1, e2]

/-- The stored block at an index is the head's logit array at the array index it lands on: the block at grid point n
    holds rows 5000 n … 5000 n + 4999 of the three feature arrays (h0, h1, h2), the parameter blocks are the parameter
    arrays, and index i of the output array is index j of the block (hi0, hi1). -/
theorem pay_head (t0 t1 t2 : Vec Ideal S100000x128 .f32) (w0 w1 w2 : Vec Ideal S128x128 .f32) (cw1 : Vec Ideal S128x256 .f32)
    (b1 sc sh : Vec Ideal S1x256 .f32) (w2c : Vec Ideal S256x2 .f32) (b2 : Vec Ideal S1x2 .f32)
    (x0 x1 x2 : Vec Ideal S5000x128 .f32) (xw0 xw1 xw2 : Vec Ideal S128x128 .f32) (xcw1 : Vec Ideal S128x256 .f32)
    (xb1 xsc xsh : Vec Ideal S1x256 .f32) (xw2c : Vec Ideal S256x2 .f32) (xb2 : Vec Ideal S1x2 .f32) (n : Nat)
    (h0 : ∀ (p : Fin 5000) (k : Fin 128) (r : Fin 100000), r.val = n * 5000 + p.val → x0 (ix2 p k) = t0 (ix2 r k))
    (h1 : ∀ (p : Fin 5000) (k : Fin 128) (r : Fin 100000), r.val = n * 5000 + p.val → x1 (ix2 p k) = t1 (ix2 r k))
    (h2 : ∀ (p : Fin 5000) (k : Fin 128) (r : Fin 100000), r.val = n * 5000 + p.val → x2 (ix2 p k) = t2 (ix2 r k))
    (hw0 : xw0 = w0) (hw1 : xw1 = w1) (hw2 : xw2 = w2) (hcw1 : xcw1 = cw1) (hb1 : xb1 = b1) (hsc : xsc = sc) (hsh : xsh = sh)
    (hw2c : xw2c = w2c) (hb2 : xb2 = b2)
    (j : S5000x2.Idx) (i : S100000x2.Idx) (hi0 : (i 0).val = n * 5000 + (j 0).val) (hi1 : (i 1).val = (j 1).val) :
    k2_pay1 (F := Ideal) (k2_pay2 (F := Ideal) x0 xw0 x1 xw1 x2 xw2 xcw1 xb1 xsc) (k2_pay3 (F := Ideal) xsh) xw2c xb2 j
      = Cert.Spec.headArr t0 t1 t2 w0 w1 w2 cw1 b1 sc sh w2c b2 i := by
  subst hw0 hw1 hw2 hcw1 hb1 hsc hsh hw2c hb2
  obtain ⟨p, q, rfl⟩ : ∃ (p : Fin 5000) (q : Fin 2), j = ix2 p q := ⟨j 0, j 1, eq_ix2 j⟩
  rw [pay_apply]
  have hq : (⟨(i 1).val, (i 1).isLt⟩ : Fin 2) = q := Fin.ext hi1
  have hX : ∀ k : Fin 128, blkX x0 x1 x2 xw0 xw1 xw2 p k
      = Cert.Spec.comb t0 t1 t2 xw0 xw1 xw2 (ix2 (⟨(i 0).val, (i 0).isLt⟩ : Fin 100000) k) :=
    blkX_eq_comb t0 t1 t2 xw0 xw1 xw2 x0 x1 x2 p ⟨(i 0).val, (i 0).isLt⟩
      (fun k => h0 p k _ hi0) (fun k => h1 p k _ hi0) (fun k => h2 p k _ hi0)
  unfold Cert.Spec.headArr Cert.Spec.headK Cert.Spec.hidAt
  rw [hq]
  simp only [hX]

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The windows' index maps over the twenty grid points: the three feature windows and the output window sit at
    block (t, 0); the nine parameter windows at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = t.val ∧ win2_12.index t (1 : Fin 2) = 0) :=
  (by decide +kernel : ∀ t : Fin grid2.N, _)

/-! ## The windows' blocks read off their arrays -/

/-- Feature window 0's block at grid point t holds rows 5000 t … 5000 t + 4999 of its array. -/
theorem rows0 (c : Dev nD) (t : Fin cfg2.N) (p : Fin 5000) (k : Fin 128) (r : Fin 100000) (hr : r.val = t.val * 5000 + p.val) :
    (iblk2 (F := Ideal) V c 0 t : Vec Ideal S5000x128 .f32) (ix2 p k) = (V c main_v101 : Vec Ideal S100000x128 .f32) (ix2 r k) := by
  have hi : win2_0.index t (0 : Fin 2) = t.val ∧ win2_0.index t (1 : Fin 2) = 0 := (idx_facts t).1
  unfold iblk2
  rw [View.read_apply]
  show V c main_v101 _ = V c main_v101 _
  congr 1
  funext a
  apply Fin.ext
  match a with
  | ⟨0, _⟩ => show win2_0.index t (0 : Fin 2) * 5000 + 1 * p.val = r.val; rw [hi.1, hr]; omega
  | ⟨1, _⟩ => show win2_0.index t (1 : Fin 2) * 128 + 1 * k.val = k.val; rw [hi.2]; omega

/-- Feature window 1's block at grid point t holds rows 5000 t … 5000 t + 4999 of its array. -/
theorem rows1 (c : Dev nD) (t : Fin cfg2.N) (p : Fin 5000) (k : Fin 128) (r : Fin 100000) (hr : r.val = t.val * 5000 + p.val) :
    (iblk2 (F := Ideal) V c 1 t : Vec Ideal S5000x128 .f32) (ix2 p k) = (V c main_v114 : Vec Ideal S100000x128 .f32) (ix2 r k) := by
  have hi : win2_1.index t (0 : Fin 2) = t.val ∧ win2_1.index t (1 : Fin 2) = 0 := (idx_facts t).2.1
  unfold iblk2
  rw [View.read_apply]
  show V c main_v114 _ = V c main_v114 _
  congr 1
  funext a
  apply Fin.ext
  match a with
  | ⟨0, _⟩ => show win2_1.index t (0 : Fin 2) * 5000 + 1 * p.val = r.val; rw [hi.1, hr]; omega
  | ⟨1, _⟩ => show win2_1.index t (1 : Fin 2) * 128 + 1 * k.val = k.val; rw [hi.2]; omega

/-- Feature window 2's block at grid point t holds rows 5000 t … 5000 t + 4999 of its array. -/
theorem rows2 (c : Dev nD) (t : Fin cfg2.N) (p : Fin 5000) (k : Fin 128) (r : Fin 100000) (hr : r.val = t.val * 5000 + p.val) :
    (iblk2 (F := Ideal) V c 2 t : Vec Ideal S5000x128 .f32) (ix2 p k) = (V c main_v130 : Vec Ideal S100000x128 .f32) (ix2 r k) := by
  have hi : win2_2.index t (0 : Fin 2) = t.val ∧ win2_2.index t (1 : Fin 2) = 0 := (idx_facts t).2.2.1
  unfold iblk2
  rw [View.read_apply]
  show V c main_v130 _ = V c main_v130 _
  congr 1
  funext a
  apply Fin.ext
  match a with
  | ⟨0, _⟩ => show win2_2.index t (0 : Fin 2) * 5000 + 1 * p.val = r.val; rw [hi.1, hr]; omega
  | ⟨1, _⟩ => show win2_2.index t (1 : Fin 2) * 128 + 1 * k.val = k.val; rw [hi.2]; omega

/-- Parameter window 3's block is its whole array at every grid point. -/
theorem whole3 (c : Dev nD) (t : Fin cfg2.N) :
    (iblk2 (F := Ideal) V c 3 t : Vec Ideal S128x128 .f32) = (V c main_v138 : Vec Ideal S128x128 .f32) := by
  have hi : win2_3.index t (0 : Fin 2) = 0 ∧ win2_3.index t (1 : Fin 2) = 0 := (idx_facts t).2.2.2.1
  funext y
  unfold iblk2
  rw [View.read_apply]
  show V c main_v138 _ = V c main_v138 _
  congr 1
  funext a
  apply Fin.ext
  match a with
  | ⟨0, _⟩ => show win2_3.index t (0 : Fin 2) * 128 + 1 * (y 0).val = (y 0).val; rw [hi.1]; omega
  | ⟨1, _⟩ => show win2_3.index t (1 : Fin 2) * 128 + 1 * (y 1).val = (y 1).val; rw [hi.2]; omega

/-- Parameter window 4's block is its whole array at every grid point. -/
theorem whole4 (c : Dev nD) (t : Fin cfg2.N) :
    (iblk2 (F := Ideal) V c 4 t : Vec Ideal S128x128 .f32) = (V c main_v140 : Vec Ideal S128x128 .f32) := by
  have hi : win2_4.index t (0 : Fin 2) = 0 ∧ win2_4.index t (1 : Fin 2) = 0 := (idx_facts t).2.2.2.2.1
  funext y
  unfold iblk2
  rw [View.read_apply]
  show V c main_v140 _ = V c main_v140 _
  congr 1
  funext a
  apply Fin.ext
  match a with
  | ⟨0, _⟩ => show win2_4.index t (0 : Fin 2) * 128 + 1 * (y 0).val = (y 0).val; rw [hi.1]; omega
  | ⟨1, _⟩ => show win2_4.index t (1 : Fin 2) * 128 + 1 * (y 1).val = (y 1).val; rw [hi.2]; omega

/-- Parameter window 5's block is its whole array at every grid point. -/
theorem whole5 (c : Dev nD) (t : Fin cfg2.N) :
    (iblk2 (F := Ideal) V c 5 t : Vec Ideal S128x128 .f32) = (V c main_v142 : Vec Ideal S128x128 .f32) := by
  have hi : win2_5.index t (0 : Fin 2) = 0 ∧ win2_5.index t (1 : Fin 2) = 0 := (idx_facts t).2.2.2.2.2.1
  funext y
  unfold iblk2
  rw [View.read_apply]
  show V c main_v142 _ = V c main_v142 _
  congr 1
  funext a
  apply Fin.ext
  match a with
  | ⟨0, _⟩ => show win2_5.index t (0 : Fin 2) * 128 + 1 * (y 0).val = (y 0).val; rw [hi.1]; omega
  | ⟨1, _⟩ => show win2_5.index t (1 : Fin 2) * 128 + 1 * (y 1).val = (y 1).val; rw [hi.2]; omega

/-- Parameter window 6's block is its whole array at every grid point. -/
theorem whole6 (c : Dev nD) (t : Fin cfg2.N) :
    (iblk2 (F := Ideal) V c 6 t : Vec Ideal S128x256 .f32) = (V c main_arg5 : Vec Ideal S128x256 .f32) := by
  have hi : win2_6.index t (0 : Fin 2) = 0 ∧ win2_6.index t (1 : Fin 2) = 0 := (idx_facts t).2.2.2.2.2.2.1
  funext y
  unfold iblk2
  rw [View.read_apply]
  show V c main_arg5 _ = V c main_arg5 _
  congr 1
  funext a
  apply Fin.ext
  match a with
  | ⟨0, _⟩ => show win2_6.index t (0 : Fin 2) * 128 + 1 * (y 0).val = (y 0).val; rw [hi.1]; omega
  | ⟨1, _⟩ => show win2_6.index t (1 : Fin 2) * 256 + 1 * (y 1).val = (y 1).val; rw [hi.2]; omega

/-- Parameter window 7's block is its whole array at every grid point. -/
theorem whole7 (c : Dev nD) (t : Fin cfg2.N) :
    (iblk2 (F := Ideal) V c 7 t : Vec Ideal S1x256 .f32) = (V c main_v143 : Vec Ideal S1x256 .f32) := by
  have hi : win2_7.index t (0 : Fin 2) = 0 ∧ win2_7.index t (1 : Fin 2) = 0 := (idx_facts t).2.2.2.2.2.2.2.1
  funext y
  unfold iblk2
  rw [View.read_apply]
  show V c main_v143 _ = V c main_v143 _
  congr 1
  funext a
  apply Fin.ext
  match a with
  | ⟨0, _⟩ => show win2_7.index t (0 : Fin 2) * 1 + 1 * (y 0).val = (y 0).val; rw [hi.1]; omega
  | ⟨1, _⟩ => show win2_7.index t (1 : Fin 2) * 256 + 1 * (y 1).val = (y 1).val; rw [hi.2]; omega

/-- Parameter window 8's block is its whole array at every grid point. -/
theorem whole8 (c : Dev nD) (t : Fin cfg2.N) :
    (iblk2 (F := Ideal) V c 8 t : Vec Ideal S1x256 .f32) = (V c main_v144 : Vec Ideal S1x256 .f32) := by
  have hi : win2_8.index t (0 : Fin 2) = 0 ∧ win2_8.index t (1 : Fin 2) = 0 := (idx_facts t).2.2.2.2.2.2.2.2.1
  funext y
  unfold iblk2
  rw [View.read_apply]
  show V c main_v144 _ = V c main_v144 _
  congr 1
  funext a
  apply Fin.ext
  match a with
  | ⟨0, _⟩ => show win2_8.index t (0 : Fin 2) * 1 + 1 * (y 0).val = (y 0).val; rw [hi.1]; omega
  | ⟨1, _⟩ => show win2_8.index t (1 : Fin 2) * 256 + 1 * (y 1).val = (y 1).val; rw [hi.2]; omega

/-- Parameter window 9's block is its whole array at every grid point. -/
theorem whole9 (c : Dev nD) (t : Fin cfg2.N) :
    (iblk2 (F := Ideal) V c 9 t : Vec Ideal S1x256 .f32) = (V c main_v145 : Vec Ideal S1x256 .f32) := by
  have hi : win2_9.index t (0 : Fin 2) = 0 ∧ win2_9.index t (1 : Fin 2) = 0 := (idx_facts t).2.2.2.2.2.2.2.2.2.1
  funext y
  unfold iblk2
  rw [View.read_apply]
  show V c main_v145 _ = V c main_v145 _
  congr 1
  funext a
  apply Fin.ext
  match a with
  | ⟨0, _⟩ => show win2_9.index t (0 : Fin 2) * 1 + 1 * (y 0).val = (y 0).val; rw [hi.1]; omega
  | ⟨1, _⟩ => show win2_9.index t (1 : Fin 2) * 256 + 1 * (y 1).val = (y 1).val; rw [hi.2]; omega

/-- Parameter window 10's block is its whole array at every grid point. -/
theorem whole10 (c : Dev nD) (t : Fin cfg2.N) :
    (iblk2 (F := Ideal) V c 10 t : Vec Ideal S256x2 .f32) = (V c main_arg11 : Vec Ideal S256x2 .f32) := by
  have hi : win2_10.index t (0 : Fin 2) = 0 ∧ win2_10.index t (1 : Fin 2) = 0 := (idx_facts t).2.2.2.2.2.2.2.2.2.2.1
  funext y
  unfold iblk2
  rw [View.read_apply]
  show V c main_arg11 _ = V c main_arg11 _
  congr 1
  funext a
  apply Fin.ext
  match a with
  | ⟨0, _⟩ => show win2_10.index t (0 : Fin 2) * 256 + 1 * (y 0).val = (y 0).val; rw [hi.1]; omega
  | ⟨1, _⟩ => show win2_10.index t (1 : Fin 2) * 2 + 1 * (y 1).val = (y 1).val; rw [hi.2]; omega

/-- Parameter window 11's block is its whole array at every grid point. -/
theorem whole11 (c : Dev nD) (t : Fin cfg2.N) :
    (iblk2 (F := Ideal) V c 11 t : Vec Ideal S1x2 .f32) = (V c main_v146 : Vec Ideal S1x2 .f32) := by
  have hi : win2_11.index t (0 : Fin 2) = 0 ∧ win2_11.index t (1 : Fin 2) = 0 := (idx_facts t).2.2.2.2.2.2.2.2.2.2.2.1
  funext y
  unfold iblk2
  rw [View.read_apply]
  show V c main_v146 _ = V c main_v146 _
  congr 1
  funext a
  apply Fin.ext
  match a with
  | ⟨0, _⟩ => show win2_11.index t (0 : Fin 2) * 1 + 1 * (y 0).val = (y 0).val; rw [hi.1]; omega
  | ⟨1, _⟩ => show win2_11.index t (1 : Fin 2) * 2 + 1 * (y 1).val = (y 1).val; rw [hi.2]; omega

/-- What grid point t writes back is block t of the head's logit array of the arrays as the region finds them. -/
theorem flushed_eq (c : Dev nD) (t : Fin cfg2.N) :
    (dat2 (F := Ideal) V c).flushed 12 t = ((cfg2.win 12).blk t).view.read (Elt Ideal)
      (Cert.Spec.headArr (V c main_v101) (V c main_v114) (V c main_v130) (V c main_v138) (V c main_v140) (V c main_v142)
          (V c main_arg5) (V c main_v143) (V c main_v144) (V c main_v145) (V c main_arg11) (V c main_v146)) := by
  show (cfg2.win 12).cut (grid2.coords t) ((dat2 V c).after 12 t) = _
  rw [after2_12]
  unfold out2_12
  rw [View.canon_unit_zero hz]
  simp only [View.ld_unit_zero (S := S5000x128) hz, View.ld_unit_zero (S := S128x128) hz, View.ld_unit_zero (S := S128x256) hz,
    View.ld_unit_zero (S := S1x256) hz, View.ld_unit_zero (S := S256x2) hz, View.ld_unit_zero (S := S1x2) hz]
  funext j
  rw [View.read_apply]
  have hi : win2_12.index t (0 : Fin 2) = t.val ∧ win2_12.index t (1 : Fin 2) = 0 := (idx_facts t).2.2.2.2.2.2.2.2.2.2.2.2
  refine pay_head (V c main_v101) (V c main_v114) (V c main_v130) (V c main_v138) (V c main_v140) (V c main_v142)
    (V c main_arg5) (V c main_v143) (V c main_v144) (V c main_v145) (V c main_arg11) (V c main_v146)
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) t.val
    (rows0 V c t) (rows1 V c t) (rows2 V c t) (whole3 V c t) (whole4 V c t) (whole5 V c t) (whole6 V c t)
    (whole7 V c t) (whole8 V c t) (whole9 V c t) (whole10 V c t) (whole11 V c t) _ _ ?_ ?_
  · show win2_12.index t (0 : Fin 2) * 5000 + 1 * (j 0).val = t.val * 5000 + (j 0).val
    rw [hi.1]; omega
  · show win2_12.index t (1 : Fin 2) * 2 + 1 * (j 1).val = (j 1).val
    rw [hi.2]; omega

/-- An index of the output array is in grid point t's block iff each coordinate is in the block's range on its axis. -/
theorem mem_blk (t : Fin cfg2.N) (i : S100000x2.Idx) :
    i ∈ ((cfg2.win 12).blk t).view.set ↔ ∀ a : Fin 2, win2_12.index t a * S5000x2.size a ≤ (i a).val
      ∧ (i a).val < win2_12.index t a * S5000x2.size a + S5000x2.size a := by
  show i ∈ ((View.whole main_v147).slice (win2_12.rect t)).set ↔ _
  rw [View.set_slice_whole, Rect.mem_set_unit]
  exact Iff.rfl

/-- The twenty blocks of 5000 rows fill the 100000 rows: row r lies in the block of grid point r / 5000. -/
theorem covered (i : S100000x2.Idx) :
    ∃ t : Fin cfg2.N, (cfg2.win 12).flush t = true ∧ i ∈ ((cfg2.win 12).blk t).view.set := by
  have hi0 : (i 0).val < 100000 := (i 0).isLt
  have hi1 : (i 1).val < 2 := (i 1).isLt
  obtain ⟨t, ht⟩ : ∃ t : Fin cfg2.N, t.val = (i 0).val / 5000 :=
    ⟨⟨(i 0).val / 5000, by rw [show cfg2.N = 20 from N_2]; omega⟩, rfl⟩
  have hf : win2_12.index t (0 : Fin 2) = t.val ∧ win2_12.index t (1 : Fin 2) = 0 := (idx_facts t).2.2.2.2.2.2.2.2.2.2.2.2
  refine ⟨t, flush2_12 t, ?_⟩
  rw [mem_blk]
  intro a
  match a with
  | ⟨0, _⟩ =>
    show win2_12.index t (0 : Fin 2) * 5000 ≤ (i 0).val ∧ (i 0).val < win2_12.index t (0 : Fin 2) * 5000 + 5000
    rw [hf.1, ht]; omega
  | ⟨1, _⟩ =>
    show win2_12.index t (1 : Fin 2) * 2 ≤ (i 1).val ∧ (i 1).val < win2_12.index t (1 : Fin 2) * 2 + 2
    rw [hf.2]; omega

/-- The region's output array (the logits) after all twenty grid points. -/
theorem final (c : Dev nD) :
    (dat2 (F := Ideal) V c).arrAt 12 cfg2.N
      = Cert.Spec.headArr (V c main_v101) (V c main_v114) (V c main_v130) (V c main_v138) (V c main_v140) (V c main_v142)
          (V c main_arg5) (V c main_v143) (V c main_v144) (V c main_v145) (V c main_arg11) (V c main_v146) :=
  (dat2 (F := Ideal) V c).arrAt_eq_of_cover 12
    (Cert.Spec.headArr (V c main_v101) (V c main_v114) (V c main_v130) (V c main_v138) (V c main_v140) (V c main_v142)
      (V c main_arg5) (V c main_v143) (V c main_v144) (V c main_v145) (V c main_arg11) (V c main_v146))
    (fun t _ => flushed_eq V c t) covered

end Cert.KernelIdeal.Reg2

end
-- ==== Proof.KHost.lean ====
/-
  What the kernel program's host operations leave in the arrays its three regions read, each as one of the shared
  graph operators of the launch contents (and, for the second and third layers, of the previous region's output).
-/
import proofs.«428064_j64707977281948_4_alg».proof.Proof.Gen.KernelIdeal.Frame
import proofs.«428064_j64707977281948_4_alg».proof.Proof.HostFns

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Source nodes, destination nodes and edge norms of the launch contents. -/
abbrev S (c : Dev nD) := Cert.HostFns.srcOf (F := F) (m ((c : Thread nD τ).loc main_arg13))
abbrev D (c : Dev nD) := Cert.HostFns.dstOf (F := F) (m ((c : Thread nD τ).loc main_arg13))
abbrev Nrm (c : Dev nD) := Cert.HostFns.nrmOf (F := F) (m ((c : Thread nD τ).loc main_arg1)) (S m c) (D m c)

/-! ## A stretch of host operations leaves alone what it does not write -/

/-- A stretch of host operations leaves a buffer it does not write as it was. -/
macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the long stretch: the edge rows, the masked weights and the inverse square-root degrees

The first four stretches (nineteen operations) compute, from the launch contents alone, the source and destination
rows of the edge list, the edge weights with self loops zeroed, and the inverse square root of the degrees. -/

set_option maxHeartbeats 1000000 in
theorem a4_v1 (c : Dev nD) : W4 m ρ c (Proc.devRef .tc main_v1) = S m c := by
  show StableHlo.after hostOps0_3 (W3 m ρ c) (Proc.devRef .tc main_v1) = _
  after_results_simp
  rfl

set_option maxHeartbeats 1000000 in
theorem a4_v3 (c : Dev nD) : W4 m ρ c (Proc.devRef .tc main_v3) = D m c := by
  show StableHlo.after hostOps0_3 (W3 m ρ c) (Proc.devRef .tc main_v3) = _
  after_results_simp
  rfl

set_option maxHeartbeats 1000000 in
theorem a4_v5 (c : Dev nD) : W4 m ρ c (Proc.devRef .tc main_v5)
    = Cert.HostFns.maskedW (m ((c : Thread nD τ).loc main_arg1)) (S m c) (D m c) := by
  show StableHlo.after hostOps0_3 (W3 m ρ c) (Proc.devRef .tc main_v5) = _
  after_results_simp
  rfl

set_option maxHeartbeats 1000000 in
theorem a4_v12 (c : Dev nD) : W4 m ρ c (Proc.devRef .tc main_v12)
    = Cert.HostFns.dinvOf (m ((c : Thread nD τ).loc main_arg1)) (S m c) (D m c) := by
  show StableHlo.after hostOps0_3 (W3 m ρ c) (Proc.devRef .tc main_v12) = _
  after_results_simp
  rfl

set_option maxHeartbeats 1000000 in
theorem a4_arg0 (c : Dev nD) : W4 m ρ c (Proc.devRef .tc main_arg0) = m ((c : Thread nD τ).loc main_arg0) := by
  show StableHlo.after hostOps0_3 (W3 m ρ c) (Proc.devRef .tc main_arg0) = _
  after_results_simp

set_option maxHeartbeats 1000000 in
theorem a4_arg2 (c : Dev nD) : W4 m ρ c (Proc.devRef .tc main_arg2) = m ((c : Thread nD τ).loc main_arg2) := by
  show StableHlo.after hostOps0_3 (W3 m ρ c) (Proc.devRef .tc main_arg2) = _
  after_results_simp

/-! ## What stays put to the end: the edge rows, the edge norms, the later layers' and the head's arguments -/

set_option maxHeartbeats 1000000 in
/-- The long stretch before region 0 computes the edge norms from the degrees, the masked weights and the rows. -/
theorem w5_v29 (c : Dev nD) : W5 m ρ c (Proc.devRef .tc main_v29) = Nrm m c := by
  have h1 := a4_v1 m ρ c; have h3 := a4_v3 m ρ c; have h5 := a4_v5 m ρ c; have h12 := a4_v12 m ρ c
  show StableHlo.after hostOps0_4 (W4 m ρ c) (Proc.devRef .tc main_v29) = _
  generalize W4 m ρ c = V at h1 h3 h5 h12 ⊢
  after_results_simp
  rw [h1, h3, h5, h12]
  rfl

set_option maxHeartbeats 1000000 in
theorem w5_v1 (c : Dev nD) : W5 m ρ c (Proc.devRef .tc main_v1) = S m c :=
  (by stretch_keeps hostOps0_4 : W5 m ρ c (Proc.devRef .tc main_v1) = W4 m ρ c (Proc.devRef .tc main_v1)).trans (a4_v1 m ρ c)

set_option maxHeartbeats 1000000 in
theorem w5_v3 (c : Dev nD) : W5 m ρ c (Proc.devRef .tc main_v3) = D m c :=
  (by stretch_keeps hostOps0_4 : W5 m ρ c (Proc.devRef .tc main_v3) = W4 m ρ c (Proc.devRef .tc main_v3)).trans (a4_v3 m ρ c)

set_option maxHeartbeats 4000000 in
/-- No host operation before region 0 writes an argument: there it holds the launch contents. -/
theorem w5_launch (c : Dev nD) (b : Ref sig .tc)
    (hb : b ∈ [main_arg3, main_arg4, main_arg5, main_arg6, main_arg7, main_arg8, main_arg9, main_arg10, main_arg11, main_arg12]) :
    W5 m ρ c (Proc.devRef .tc b) = m ((c : Thread nD τ).loc b) := by
  fin_cases hb <;>
    (show StableHlo.after hostOps0_4 (W4 m ρ c) (Proc.devRef .tc _) = _; after_results_simp)

/-! ## Region 0's arrays at its entry -/

set_option maxHeartbeats 1000000 in
theorem v5_arg0 (c : Dev nD) : V5 m ρ c main_arg0 = m ((c : Thread nD τ).loc main_arg0) :=
  (by stretch_keeps hostOps0_4 : W5 m ρ c (Proc.devRef .tc main_arg0) = W4 m ρ c (Proc.devRef .tc main_arg0)).trans (a4_arg0 m ρ c)

set_option maxHeartbeats 1000000 in
theorem v5_tx1 (c : Dev nD) : V5 m ρ c main_v42 = Cert.HostFns.tx1 (Nrm m c) (S m c) (D m c) (m ((c : Thread nD τ).loc main_arg0)) := by
  have h1 := a4_v1 m ρ c; have h3 := a4_v3 m ρ c; have h5 := a4_v5 m ρ c; have h12 := a4_v12 m ρ c
  have h0 := a4_arg0 m ρ c
  show StableHlo.after hostOps0_4 (W4 m ρ c) (Proc.devRef .tc main_v42) = _
  generalize W4 m ρ c = V at h1 h3 h5 h12 h0 ⊢
  after_results_simp
  rw [h1, h3, h5, h12, h0]
  rfl

set_option maxHeartbeats 1000000 in
theorem v5_tx2 (c : Dev nD) : V5 m ρ c main_v58 = Cert.HostFns.tx2 (Nrm m c) (S m c) (D m c) (m ((c : Thread nD τ).loc main_arg0)) := by
  have h1 := a4_v1 m ρ c; have h3 := a4_v3 m ρ c; have h5 := a4_v5 m ρ c; have h12 := a4_v12 m ρ c
  have h0 := a4_arg0 m ρ c
  show StableHlo.after hostOps0_4 (W4 m ρ c) (Proc.devRef .tc main_v58) = _
  generalize W4 m ρ c = V at h1 h3 h5 h12 h0 ⊢
  after_results_simp
  rw [h1, h3, h5, h12, h0]
  rfl

set_option maxHeartbeats 1000000 in
theorem v5_w0 (c : Dev nD) : V5 m ρ c main_v60 = Cert.HostFns.wslice0 (m ((c : Thread nD τ).loc main_arg2)) := by
  have h2 := a4_arg2 m ρ c
  show StableHlo.after hostOps0_4 (W4 m ρ c) (Proc.devRef .tc main_v60) = _
  generalize W4 m ρ c = V at h2 ⊢
  after_results_simp
  rw [h2]
  rfl

set_option maxHeartbeats 1000000 in
theorem v5_w1 (c : Dev nD) : V5 m ρ c main_v62 = Cert.HostFns.wslice1 (m ((c : Thread nD τ).loc main_arg2)) := by
  have h2 := a4_arg2 m ρ c
  show StableHlo.after hostOps0_4 (W4 m ρ c) (Proc.devRef .tc main_v62) = _
  generalize W4 m ρ c = V at h2 ⊢
  after_results_simp
  rw [h2]
  rfl

set_option maxHeartbeats 1000000 in
theorem v5_w2 (c : Dev nD) : V5 m ρ c main_v64 = Cert.HostFns.wslice2 (m ((c : Thread nD τ).loc main_arg2)) := by
  have h2 := a4_arg2 m ρ c
  show StableHlo.after hostOps0_4 (W4 m ρ c) (Proc.devRef .tc main_v64) = _
  generalize W4 m ρ c = V at h2 ⊢
  after_results_simp
  rw [h2]
  rfl

/-! ## Across region 0: it owns none of the persistent buffers -/

theorem w6_v1 (c : Dev nD) : W6 m ρ c (Proc.devRef .tc main_v1) = S m c :=
  (W6_of_ne m ρ c main_v1 (by decide)).trans (w5_v1 m ρ c)
theorem w6_v3 (c : Dev nD) : W6 m ρ c (Proc.devRef .tc main_v3) = D m c :=
  (W6_of_ne m ρ c main_v3 (by decide)).trans (w5_v3 m ρ c)
theorem w6_v29 (c : Dev nD) : W6 m ρ c (Proc.devRef .tc main_v29) = Nrm m c :=
  (W6_of_ne m ρ c main_v29 (by decide)).trans (w5_v29 m ρ c)
/-- The later layers' and the head's arguments at region 0's exit. -/
theorem w6_launch (c : Dev nD) (b : Ref sig .tc)
    (hb : b ∈ [main_arg3, main_arg4, main_arg5, main_arg6, main_arg7, main_arg8, main_arg9, main_arg10, main_arg11, main_arg12]) :
    W6 m ρ c (Proc.devRef .tc b) = m ((c : Thread nD τ).loc b) := by
  fin_cases hb <;> exact (W6_of_ne m ρ c _ (by decide)).trans (w5_launch m ρ c _ (by decide))

/-! ## Region 1's arrays at its entry, from region 0's output `V6 … main_v65` -/

set_option maxHeartbeats 1000000 in
theorem v7_x (c : Dev nD) : V7 m ρ c main_v65 = V6 m ρ c main_v65 := by
  show W7 m ρ c (Proc.devRef .tc main_v65) = W6 m ρ c (Proc.devRef .tc main_v65)
  stretch_keeps hostOps1

set_option maxHeartbeats 1000000 in
theorem v7_tx1 (c : Dev nD) : V7 m ρ c main_v78 = Cert.HostFns.tx1 (Nrm m c) (S m c) (D m c) (V6 m ρ c main_v65) := by
  show StableHlo.after hostOps1 (W6 m ρ c) (Proc.devRef .tc main_v78) = Cert.HostFns.tx1 _ _ _ (W6 m ρ c (Proc.devRef .tc main_v65))
  after_results_simp
  rw [w6_v1, w6_v3, w6_v29]
  rfl

set_option maxHeartbeats 1000000 in
theorem v7_tx2 (c : Dev nD) : V7 m ρ c main_v94 = Cert.HostFns.tx2 (Nrm m c) (S m c) (D m c) (V6 m ρ c main_v65) := by
  show StableHlo.after hostOps1 (W6 m ρ c) (Proc.devRef .tc main_v94) = Cert.HostFns.tx2 _ _ _ (W6 m ρ c (Proc.devRef .tc main_v65))
  after_results_simp
  rw [w6_v1, w6_v3, w6_v29]
  rfl

set_option maxHeartbeats 1000000 in
theorem v7_w0 (c : Dev nD) : V7 m ρ c main_v96 = Cert.HostFns.wslice0 (m ((c : Thread nD τ).loc main_arg3)) := by
  show StableHlo.after hostOps1 (W6 m ρ c) (Proc.devRef .tc main_v96) = _
  after_results_simp
  rw [w6_launch m ρ c main_arg3 (by decide)]
  rfl

set_option maxHeartbeats 1000000 in
theorem v7_w1 (c : Dev nD) : V7 m ρ c main_v98 = Cert.HostFns.wslice1 (m ((c : Thread nD τ).loc main_arg3)) := by
  show StableHlo.after hostOps1 (W6 m ρ c) (Proc.devRef .tc main_v98) = _
  after_results_simp
  rw [w6_launch m ρ c main_arg3 (by decide)]
  rfl

set_option maxHeartbeats 1000000 in
theorem v7_w2 (c : Dev nD) : V7 m ρ c main_v100 = Cert.HostFns.wslice2 (m ((c : Thread nD τ).loc main_arg3)) := by
  show StableHlo.after hostOps1 (W6 m ρ c) (Proc.devRef .tc main_v100) = _
  after_results_simp
  rw [w6_launch m ρ c main_arg3 (by decide)]
  rfl

/-! ## Across the second stretch and region 1: neither writes a persistent buffer -/

set_option maxHeartbeats 1000000 in
theorem w8_v1 (c : Dev nD) : W8 m ρ c (Proc.devRef .tc main_v1) = S m c :=
  (W8_of_ne m ρ c main_v1 (by decide)).trans
    ((by stretch_keeps hostOps1 : W7 m ρ c (Proc.devRef .tc main_v1) = W6 m ρ c (Proc.devRef .tc main_v1)).trans (w6_v1 m ρ c))
set_option maxHeartbeats 1000000 in
theorem w8_v3 (c : Dev nD) : W8 m ρ c (Proc.devRef .tc main_v3) = D m c :=
  (W8_of_ne m ρ c main_v3 (by decide)).trans
    ((by stretch_keeps hostOps1 : W7 m ρ c (Proc.devRef .tc main_v3) = W6 m ρ c (Proc.devRef .tc main_v3)).trans (w6_v3 m ρ c))
set_option maxHeartbeats 1000000 in
theorem w8_v29 (c : Dev nD) : W8 m ρ c (Proc.devRef .tc main_v29) = Nrm m c :=
  (W8_of_ne m ρ c main_v29 (by decide)).trans
    ((by stretch_keeps hostOps1 : W7 m ρ c (Proc.devRef .tc main_v29) = W6 m ρ c (Proc.devRef .tc main_v29)).trans (w6_v29 m ρ c))
set_option maxHeartbeats 4000000 in
/-- The last layer's and the head's arguments at region 1's exit. -/
theorem w8_launch (c : Dev nD) (b : Ref sig .tc)
    (hb : b ∈ [main_arg4, main_arg5, main_arg6, main_arg7, main_arg8, main_arg9, main_arg10, main_arg11, main_arg12]) :
    W8 m ρ c (Proc.devRef .tc b) = m ((c : Thread nD τ).loc b) := by
  fin_cases hb <;>
    exact (W8_of_ne m ρ c _ (by decide)).trans
      ((by stretch_keeps hostOps1 : W7 m ρ c (Proc.devRef .tc _) = W6 m ρ c (Proc.devRef .tc _)).trans (w6_launch m ρ c _ (by decide)))

/-! ## Region 2's arrays at its entry, from region 1's output `V8 … main_v101` -/

set_option maxHeartbeats 1000000 in
theorem v9_x (c : Dev nD) : V9 m ρ c main_v101 = V8 m ρ c main_v101 := by
  show W9 m ρ c (Proc.devRef .tc main_v101) = W8 m ρ c (Proc.devRef .tc main_v101)
  stretch_keeps hostOps2

set_option maxHeartbeats 1000000 in
theorem v9_tx1 (c : Dev nD) : V9 m ρ c main_v114 = Cert.HostFns.tx1 (Nrm m c) (S m c) (D m c) (V8 m ρ c main_v101) := by
  show StableHlo.after hostOps2 (W8 m ρ c) (Proc.devRef .tc main_v114) = Cert.HostFns.tx1 _ _ _ (W8 m ρ c (Proc.devRef .tc main_v101))
  after_results_simp
  rw [w8_v1, w8_v3, w8_v29]
  rfl

set_option maxHeartbeats 1000000 in
theorem v9_tx2 (c : Dev nD) : V9 m ρ c main_v130 = Cert.HostFns.tx2 (Nrm m c) (S m c) (D m c) (V8 m ρ c main_v101) := by
  show StableHlo.after hostOps2 (W8 m ρ c) (Proc.devRef .tc main_v130) = Cert.HostFns.tx2 _ _ _ (W8 m ρ c (Proc.devRef .tc main_v101))
  after_results_simp
  rw [w8_v1, w8_v3, w8_v29]
  rfl

set_option maxHeartbeats 1000000 in
theorem v9_w0 (c : Dev nD) : V9 m ρ c main_v138 = Cert.HostFns.wslice0 (m ((c : Thread nD τ).loc main_arg4)) := by
  show StableHlo.after hostOps2 (W8 m ρ c) (Proc.devRef .tc main_v138) = _
  after_results_simp
  rw [w8_launch m ρ c main_arg4 (by decide)]
  rfl

set_option maxHeartbeats 1000000 in
theorem v9_w1 (c : Dev nD) : V9 m ρ c main_v140 = Cert.HostFns.wslice1 (m ((c : Thread nD τ).loc main_arg4)) := by
  show StableHlo.after hostOps2 (W8 m ρ c) (Proc.devRef .tc main_v140) = _
  after_results_simp
  rw [w8_launch m ρ c main_arg4 (by decide)]
  rfl

set_option maxHeartbeats 1000000 in
theorem v9_w2 (c : Dev nD) : V9 m ρ c main_v142 = Cert.HostFns.wslice2 (m ((c : Thread nD τ).loc main_arg4)) := by
  show StableHlo.after hostOps2 (W8 m ρ c) (Proc.devRef .tc main_v142) = _
  after_results_simp
  rw [w8_launch m ρ c main_arg4 (by decide)]
  rfl

set_option maxHeartbeats 1000000 in
theorem v9_cw1 (c : Dev nD) : V9 m ρ c main_arg5 = m ((c : Thread nD τ).loc main_arg5) :=
  (by stretch_keeps hostOps2 : W9 m ρ c (Proc.devRef .tc main_arg5) = W8 m ρ c (Proc.devRef .tc main_arg5)).trans
    (w8_launch m ρ c main_arg5 (by decide))

set_option maxHeartbeats 1000000 in
theorem v9_b1 (c : Dev nD) : V9 m ρ c main_v143 = shapeCast _ (m ((c : Thread nD τ).loc main_arg6)) shapeCasts_S256_S1x256 := by
  show StableHlo.after hostOps2 (W8 m ρ c) (Proc.devRef .tc main_v143) = _
  after_results_simp
  rw [w8_launch m ρ c main_arg6 (by decide)]
  rfl

set_option maxHeartbeats 1000000 in
/-- The kernel's folded scale gamma * rsqrt(var + eps), as a 1 x 256 row. -/
theorem v9_sc (c : Dev nD) : V9 m ρ c main_v144
    = shapeCast _ (mulf (m ((c : Thread nD τ).loc main_arg7)) (Cert.HostFns.rsqVar (m ((c : Thread nD τ).loc main_arg10)))) shapeCasts_S256_S1x256 := by
  show StableHlo.after hostOps2 (W8 m ρ c) (Proc.devRef .tc main_v144) = _
  after_results_simp
  rw [w8_launch m ρ c main_arg7 (by decide), w8_launch m ρ c main_arg10 (by decide)]
  rfl

set_option maxHeartbeats 1000000 in
/-- The kernel's folded shift beta - mean * scale, as a 1 x 256 row. -/
theorem v9_sh (c : Dev nD) : V9 m ρ c main_v145
    = shapeCast _ (subf (m ((c : Thread nD τ).loc main_arg8)) (mulf (m ((c : Thread nD τ).loc main_arg9))
        (mulf (m ((c : Thread nD τ).loc main_arg7)) (Cert.HostFns.rsqVar (m ((c : Thread nD τ).loc main_arg10)))))) shapeCasts_S256_S1x256 := by
  show StableHlo.after hostOps2 (W8 m ρ c) (Proc.devRef .tc main_v145) = _
  after_results_simp
  rw [w8_launch m ρ c main_arg7 (by decide), w8_launch m ρ c main_arg8 (by decide), w8_launch m ρ c main_arg9 (by decide),
    w8_launch m ρ c main_arg10 (by decide)]
  rfl

set_option maxHeartbeats 1000000 in
theorem v9_w2c (c : Dev nD) : V9 m ρ c main_arg11 = m ((c : Thread nD τ).loc main_arg11) :=
  (by stretch_keeps hostOps2 : W9 m ρ c (Proc.devRef .tc main_arg11) = W8 m ρ c (Proc.devRef .tc main_arg11)).trans
    (w8_launch m ρ c main_arg11 (by decide))

set_option maxHeartbeats 1000000 in
theorem v9_b2 (c : Dev nD) : V9 m ρ c main_v146 = shapeCast _ (m ((c : Thread nD τ).loc main_arg12)) shapeCasts_S2_S1x2 := by
  show StableHlo.after hostOps2 (W8 m ρ c) (Proc.devRef .tc main_v146) = _
  after_results_simp
  rw [w8_launch m ρ c main_arg12 (by decide)]
  rfl

end Cert.KernelIdeal.HostVals

end
-- ==== Proof.KValue.lean ====
/-
  The kernel program's result as one closed term of the launch contents: the head applied to the third layer's
  dense step, whose first input is the second layer's output, whose first input is the first layer's — each layer's
  other two inputs the propagated Chebyshev terms of its first, by the shared graph operators.
-/
import proofs.«428064_j64707977281948_4_alg».proof.Proof.Gen.KernelIdeal.Frame
import proofs.«428064_j64707977281948_4_alg».proof.Proof.Spec
import proofs.«428064_j64707977281948_4_alg».proof.Proof.HostFns
import proofs.«428064_j64707977281948_4_alg».proof.Proof.KReg0
import proofs.«428064_j64707977281948_4_alg».proof.Proof.KReg1
import proofs.«428064_j64707977281948_4_alg».proof.Proof.KReg2
import proofs.«428064_j64707977281948_4_alg».proof.Proof.KHost

set_option maxRecDepth 16384

noncomputable section

namespace Cert.KernelIdeal.KValue

open Cert.KernelIdeal Cert.KernelIdeal.Gen Idealize.ShloMosaic Idealize.ShloMosaic.TcCoe Idealize.SL.Sem
open Cert.KernelIdeal.HostVals (S D Nrm)

variable (m : (ℓ : Loc nD τ sig) → Buf (Elt Ideal) ℓ) (ρ : Dev nD → PrngReg)

theorem comb_congr {a a' b b' e e' : Cert.Spec.SN128.Idx → EReal} {f f' g g' h h' : Cert.Spec.SW128.Idx → EReal}
    (h1 : a = a') (h2 : b = b') (h3 : e = e') (h4 : f = f') (h5 : g = g') (h6 : h = h') :
    Cert.Spec.comb a b e f g h = Cert.Spec.comb a' b' e' f' g' h' := by subst h1 h2 h3 h4 h5 h6; rfl

theorem headArr_congr {a a' b b' e e' : Cert.Spec.SN128.Idx → EReal} {f f' g g' h h' : Cert.Spec.SW128.Idx → EReal}
    {cw cw' : Cert.Spec.SW256.Idx → EReal} {r1 r1' r2 r2' r3 r3' : Cert.Spec.SR256.Idx → EReal}
    {w2 w2' : Cert.Spec.SW2.Idx → EReal} {r4 r4' : Cert.Spec.SR2.Idx → EReal}
    (h1 : a = a') (h2 : b = b') (h3 : e = e') (h4 : f = f') (h5 : g = g') (h6 : h = h') (h7 : cw = cw')
    (h8 : r1 = r1') (h9 : r2 = r2') (h10 : r3 = r3') (h11 : w2 = w2') (h12 : r4 = r4') :
    Cert.Spec.headArr a b e f g h cw r1 r2 r3 w2 r4 = Cert.Spec.headArr a' b' e' f' g' h' cw' r1' r2' r3' w2' r4' := by
  subst h1 h2 h3 h4 h5 h6 h7 h8 h9 h10 h11 h12; rfl

/-- The first layer's output, of the launch contents. -/
def X1 (c : Dev nD) : Cert.Spec.SN128.Idx → EReal :=
  Cert.Spec.comb (m ((c : Thread nD τ).loc main_arg0))
    (Cert.HostFns.tx1 (Nrm m c) (S m c) (D m c) (m ((c : Thread nD τ).loc main_arg0)))
    (Cert.HostFns.tx2 (Nrm m c) (S m c) (D m c) (m ((c : Thread nD τ).loc main_arg0)))
    (Cert.HostFns.wslice0 (m ((c : Thread nD τ).loc main_arg2))) (Cert.HostFns.wslice1 (m ((c : Thread nD τ).loc main_arg2)))
    (Cert.HostFns.wslice2 (m ((c : Thread nD τ).loc main_arg2)))

/-- The second layer's output. -/
def X2 (c : Dev nD) : Cert.Spec.SN128.Idx → EReal :=
  Cert.Spec.comb (X1 m c)
    (Cert.HostFns.tx1 (Nrm m c) (S m c) (D m c) (X1 m c))
    (Cert.HostFns.tx2 (Nrm m c) (S m c) (D m c) (X1 m c))
    (Cert.HostFns.wslice0 (m ((c : Thread nD τ).loc main_arg3))) (Cert.HostFns.wslice1 (m ((c : Thread nD τ).loc main_arg3)))
    (Cert.HostFns.wslice2 (m ((c : Thread nD τ).loc main_arg3)))

/-- The logits: the head over the third layer's dense step, the bias, scale and shift as 1 x 256 rows. -/
def logits (c : Dev nD) : Cert.Spec.SN2.Idx → EReal :=
  Cert.Spec.headArr (X2 m c)
    (Cert.HostFns.tx1 (Nrm m c) (S m c) (D m c) (X2 m c))
    (Cert.HostFns.tx2 (Nrm m c) (S m c) (D m c) (X2 m c))
    (Cert.HostFns.wslice0 (m ((c : Thread nD τ).loc main_arg4))) (Cert.HostFns.wslice1 (m ((c : Thread nD τ).loc main_arg4)))
    (Cert.HostFns.wslice2 (m ((c : Thread nD τ).loc main_arg4)))
    (m ((c : Thread nD τ).loc main_arg5))
    (shapeCast _ (m ((c : Thread nD τ).loc main_arg6)) shapeCasts_S256_S1x256)
    (shapeCast _ (mulf (m ((c : Thread nD τ).loc main_arg7)) (Cert.HostFns.rsqVar (m ((c : Thread nD τ).loc main_arg10)))) shapeCasts_S256_S1x256)
    (shapeCast _ (subf (m ((c : Thread nD τ).loc main_arg8)) (mulf (m ((c : Thread nD τ).loc main_arg9))
        (mulf (m ((c : Thread nD τ).loc main_arg7)) (Cert.HostFns.rsqVar (m ((c : Thread nD τ).loc main_arg10)))))) shapeCasts_S256_S1x256)
    (m ((c : Thread nD τ).loc main_arg11))
    (shapeCast _ (m ((c : Thread nD τ).loc main_arg12)) shapeCasts_S2_S1x2)

/-- Region 0 leaves the first layer's output in its output array. -/
theorem x1_eq (c : Dev nD) : V6 m ρ c main_v65 = X1 m c :=
  ((W6_arr m ρ c 6).trans (Cert.KernelIdeal.Reg0.final (V5 m ρ) c)).trans
    (comb_congr (HostVals.v5_arg0 m ρ c) (HostVals.v5_tx1 m ρ c) (HostVals.v5_tx2 m ρ c)
      (HostVals.v5_w0 m ρ c) (HostVals.v5_w1 m ρ c) (HostVals.v5_w2 m ρ c))

/-- Region 1 leaves the second layer's output in its output array. -/
theorem x2_eq (c : Dev nD) : V8 m ρ c main_v101 = X2 m c :=
  ((W8_arr m ρ c 6).trans (Cert.KernelIdeal.Reg1.final (V7 m ρ) c)).trans
    (comb_congr ((HostVals.v7_x m ρ c).trans (x1_eq m ρ c))
      ((HostVals.v7_tx1 m ρ c).trans (congrArg (Cert.HostFns.tx1 (Nrm m c) (S m c) (D m c)) (x1_eq m ρ c)))
      ((HostVals.v7_tx2 m ρ c).trans (congrArg (Cert.HostFns.tx2 (Nrm m c) (S m c) (D m c)) (x1_eq m ρ c)))
      (HostVals.v7_w0 m ρ c) (HostVals.v7_w1 m ρ c) (HostVals.v7_w2 m ρ c))

/-- Region 2 leaves the logits in the program's result array. -/
theorem logits_eq (c : Dev nD) : W10 m ρ c (Proc.devRef .tc main_v147) = logits m c :=
  ((W10_arr m ρ c 12).trans (Cert.KernelIdeal.Reg2.final (V9 m ρ) c)).trans
    (headArr_congr ((HostVals.v9_x m ρ c).trans (x2_eq m ρ c))
      ((HostVals.v9_tx1 m ρ c).trans (congrArg (Cert.HostFns.tx1 (Nrm m c) (S m c) (D m c)) (x2_eq m ρ c)))
      ((HostVals.v9_tx2 m ρ c).trans (congrArg (Cert.HostFns.tx2 (Nrm m c) (S m c) (D m c)) (x2_eq m ρ c)))
      (HostVals.v9_w0 m ρ c) (HostVals.v9_w1 m ρ c) (HostVals.v9_w2 m ρ c) (HostVals.v9_cw1 m ρ c)
      (HostVals.v9_b1 m ρ c) (HostVals.v9_sc m ρ c) (HostVals.v9_sh m ρ c) (HostVals.v9_w2c m ρ c) (HostVals.v9_b2 m ρ c))

end Cert.KernelIdeal.KValue

end
-- ==== Proof.RefFold.lean ====
/-
  The reference's 219 host operations read back in five stretches — the edge norms, three layers, the head — each
  stretch's results named by the shared graph operators of what the stretch before it left, so that the whole
  program's result is the head of three nested layers of the launch contents.
-/
import proofs.«428064_j64707977281948_4_alg».proof.Proof.RefRun
import proofs.«428064_j64707977281948_4_alg».proof.Proof.HostFns

set_option maxRecDepth 16384

noncomputable section

namespace Cert.RefFold

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Running two lines one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The first stretch: the two rows of the edge list, the masked weights, the degrees and the edge norms. -/
abbrev opsA : List (HloOp τ sig (Elt F)) :=
  [ unary main_arg13 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg13 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_v1 main_v3 main_v4 (cmpi .eq : (⟨S600000, .i32⟩ : BufTy).Contents (Elt F) → (⟨S600000, .i32⟩ : BufTy).Contents (Elt F) → (⟨S600000, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S600000, .f32⟩) main_call0_v1) (broadcastInDim S600000 ![] bcast_S_S600000),
    TRef.ternary (TRef.of (T := ⟨S600000, .i1⟩) main_v4) (TRef.of (T := ⟨S600000, .f32⟩) main_call0_v1) (TRef.of (T := ⟨S600000, .f32⟩) main_arg1) (TRef.of (T := ⟨S600000, .f32⟩) main_v5) select,
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v1 main_v7 (broadcastInDim S600000x1 ![0] bcast_S600000_S600000x1_0 : (⟨S600000, .i32⟩ : BufTy).Contents (Elt F) → (⟨S600000x1, .i32⟩ : BufTy).Contents (Elt F)),
    ternary main_v6 main_v7 main_v5 main_v8 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (cmpf .ogt : (⟨S100000, .f32⟩ : BufTy).Contents (Elt F) → (⟨S100000, .f32⟩ : BufTy).Contents (Elt F) → (⟨S100000, .i1⟩ : BufTy).Contents (Elt F)),
    unary main_v8 main_v11 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v10) (TRef.of (T := ⟨S100000, .f32⟩) main_v11) (TRef.of (T := ⟨S100000, .f32⟩) main_call1_v1) (TRef.of (T := ⟨S100000, .f32⟩) main_v12) select,
    nullary main_c (constantI S_ 32 0#32),
    unary main_c main_v13 (broadcastInDim S600000 ![] bcast_S_S600000 : (⟨S_, .i32⟩ : BufTy).Contents (Elt F) → (⟨S600000, .i32⟩ : BufTy).Contents (Elt F)),
    binary main_v1 main_v13 main_v14 (cmpi .slt : (⟨S600000, .i32⟩ : BufTy).Contents (Elt F) → (⟨S600000, .i32⟩ : BufTy).Contents (Elt F) → (⟨S600000, .i1⟩ : BufTy).Contents (Elt F)),
    nullary main_c_3 (constantI S_ 32 100000#32),
    unary main_c_3 main_v15 (broadcastInDim S600000 ![] bcast_S_S600000 : (⟨S_, .i32⟩ : BufTy).Contents (Elt F) → (⟨S600000, .i32⟩ : BufTy).Contents (Elt F)),
    binary main_v1 main_v15 main_v16 (addi : (⟨S600000, .i32⟩ : BufTy).Contents (Elt F) → (⟨S600000, .i32⟩ : BufTy).Contents (Elt F) → (⟨S600000, .i32⟩ : BufTy).Contents (Elt F)),
    ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v17 main_v18 (broadcastInDim S600000x1 ![0] bcast_S600000_S600000x1_0 : (⟨S600000, .i32⟩ : BufTy).Contents (Elt F) → (⟨S600000x1, .i32⟩ : BufTy).Contents (Elt F)),
    binary main_v12 main_v18 main_v19 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    unary main_v19 main_v20 (Host.negf : (⟨S600000, .f32⟩ : BufTy).Contents (Elt F) → (⟨S600000, .f32⟩ : BufTy).Contents (Elt F)),
    binary main_v20 main_v5 main_v21 (mulf : (⟨S600000, .f32⟩ : BufTy).Contents (Elt F) → (⟨S600000, .f32⟩ : BufTy).Contents (Elt F) → (⟨S600000, .f32⟩ : BufTy).Contents (Elt F)),
    nullary main_c_4 (constantI S_ 32 0#32),
    unary main_c_4 main_v22 (broadcastInDim S600000 ![] bcast_S_S600000 : (⟨S_, .i32⟩ : BufTy).Contents (Elt F) → (⟨S600000, .i32⟩ : BufTy).Contents (Elt F)),
    binary main_v3 main_v22 main_v23 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v24 (broadcastInDim S600000 ![] bcast_S_S600000 : (⟨S_, .i32⟩ : BufTy).Contents (Elt F) → (⟨S600000, .i32⟩ : BufTy).Contents (Elt F)),
    binary main_v3 main_v24 main_v25 (addi : (⟨S600000, .i32⟩ : BufTy).Contents (Elt F) → (⟨S600000, .i32⟩ : BufTy).Contents (Elt F) → (⟨S600000, .i32⟩ : BufTy).Contents (Elt F)),
    ternary main_v23 main_v25 main_v3 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v26 main_v27 (broadcastInDim S600000x1 ![0] bcast_S600000_S600000x1_0 : (⟨S600000, .i32⟩ : BufTy).Contents (Elt F) → (⟨S600000x1, .i32⟩ : BufTy).Contents (Elt F)),
    binary main_v12 main_v27 main_v28 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v21 main_v28 main_v29 (mulf : (⟨S600000, .f32⟩ : BufTy).Contents (Elt F) → (⟨S600000, .f32⟩ : BufTy).Contents (Elt F) → (⟨S600000, .f32⟩ : BufTy).Contents (Elt F)) ]

/-- The second stretch: the first layer, from the launch features to its rectified sum. -/
abbrev opsB : List (HloOp τ sig (Elt F)) :=
  [ unary main_arg2 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v29 main_v33 (broadcastInDim S600000x1 ![0] bcast_S600000_S600000x1_0 : (⟨S600000, .f32⟩ : BufTy).Contents (Elt F) → (⟨S600000x1, .f32⟩ : BufTy).Contents (Elt F)),
    nullary main_c_6 (constantI S_ 32 0#32),
    unary main_c_6 main_v34 (broadcastInDim S600000 ![] bcast_S_S600000 : (⟨S_, .i32⟩ : BufTy).Contents (Elt F) → (⟨S600000, .i32⟩ : BufTy).Contents (Elt F)),
    binary main_v1 main_v34 main_v35 (cmpi .slt : (⟨S600000, .i32⟩ : BufTy).Contents (Elt F) → (⟨S600000, .i32⟩ : BufTy).Contents (Elt F) → (⟨S600000, .i1⟩ : BufTy).Contents (Elt F)),
    nullary main_c_7 (constantI S_ 32 100000#32),
    unary main_c_7 main_v36 (broadcastInDim S600000 ![] bcast_S_S600000 : (⟨S_, .i32⟩ : BufTy).Contents (Elt F) → (⟨S600000, .i32⟩ : BufTy).Contents (Elt F)),
    binary main_v1 main_v36 main_v37 (addi : (⟨S600000, .i32⟩ : BufTy).Contents (Elt F) → (⟨S600000, .i32⟩ : BufTy).Contents (Elt F) → (⟨S600000, .i32⟩ : BufTy).Contents (Elt F)),
    ternary main_v35 main_v37 main_v1 main_v38 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v38 main_v39 (broadcastInDim S600000x1 ![0] bcast_S600000_S600000x1_0 : (⟨S600000, .i32⟩ : BufTy).Contents (Elt F) → (⟨S600000x1, .i32⟩ : BufTy).Contents (Elt F)),
    binary main_arg0 main_v39 main_v40 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v33 main_v41 (broadcastInDim S600000x128 ![0, 1] bcast_S600000x1_S600000x128_0_1 : (⟨S600000x1, .f32⟩ : BufTy).Contents (Elt F) → (⟨S600000x128, .f32⟩ : BufTy).Contents (Elt F)),
    binary main_v41 main_v40 main_v42 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg2 main_v46 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v46 main_v47 rfl shapeCasts_S1x128x128_S128x128,
    binary main_v45 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v32 main_v48 main_v49 (addf : (⟨S100000x128, .f32⟩ : BufTy).Contents (Elt F) → (⟨S100000x128, .f32⟩ : BufTy).Contents (Elt F) → (⟨S100000x128, .f32⟩ : BufTy).Contents (Elt F)),
    unary main_v29 main_v50 (broadcastInDim S600000x1 ![0] bcast_S600000_S600000x1_0 : (⟨S600000, .f32⟩ : BufTy).Contents (Elt F) → (⟨S600000x1, .f32⟩ : BufTy).Contents (Elt F)),
    nullary main_c_9 (constantI S_ 32 0#32),
    unary main_c_9 main_v51 (broadcastInDim S600000 ![] bcast_S_S600000 : (⟨S_, .i32⟩ : BufTy).Contents (Elt F) → (⟨S600000, .i32⟩ : BufTy).Contents (Elt F)),
    binary main_v1 main_v51 main_v52 (cmpi .slt : (⟨S600000, .i32⟩ : BufTy).Contents (Elt F) → (⟨S600000, .i32⟩ : BufTy).Contents (Elt F) → (⟨S600000, .i1⟩ : BufTy).Contents (Elt F)),
    nullary main_c_10 (constantI S_ 32 100000#32),
    unary main_c_10 main_v53 (broadcastInDim S600000 ![] bcast_S_S600000 : (⟨S_, .i32⟩ : BufTy).Contents (Elt F) → (⟨S600000, .i32⟩ : BufTy).Contents (Elt F)),
    binary main_v1 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v45 main_v56 main_v57 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v50 main_v58 (broadcastInDim S600000x128 ![0, 1] bcast_S600000x1_S600000x128_0_1 : (⟨S600000x1, .f32⟩ : BufTy).Contents (Elt F) → (⟨S600000x128, .f32⟩ : BufTy).Contents (Elt F)),
    binary main_v58 main_v57 main_v59 (mulf : (⟨S600000x128, .f32⟩ : BufTy).Contents (Elt F) → (⟨S600000x128, .f32⟩ : BufTy).Contents (Elt F) → (⟨S600000x128, .f32⟩ : BufTy).Contents (Elt F)),
    nullary main_cst_11 (constant S_ .f32 0x00000000#32),
    unary main_cst_11 main_v60 (broadcastInDim S100000x128 ![] bcast_S_S100000x128 : (⟨S_, .f32⟩ : BufTy).Contents (Elt F) → (⟨S100000x128, .f32⟩ : BufTy).Contents (Elt F)),
    unary main_v3 main_v61 (broadcastInDim S600000x1 ![0] bcast_S600000_S600000x1_0 : (⟨S600000, .i32⟩ : BufTy).Contents (Elt F) → (⟨S600000x1, .i32⟩ : BufTy).Contents (Elt F)),
    ternary main_v60 main_v61 main_v59 main_v62 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_12 (constant S_ .f32 0x40000000#32),
    unary main_cst_12 main_v63 (broadcastInDim S100000x128 ![] bcast_S_S100000x128 : (⟨S_, .f32⟩ : BufTy).Contents (Elt F) → (⟨S100000x128, .f32⟩ : BufTy).Contents (Elt F)),
    binary main_v63 main_v62 main_v64 (mulf : (⟨S100000x128, .f32⟩ : BufTy).Contents (Elt F) → (⟨S100000x128, .f32⟩ : BufTy).Contents (Elt F) → (⟨S100000x128, .f32⟩ : BufTy).Contents (Elt F)),
    binary main_v64 main_arg0 main_v65 (subf : (⟨S100000x128, .f32⟩ : BufTy).Contents (Elt F) → (⟨S100000x128, .f32⟩ : BufTy).Contents (Elt F) → (⟨S100000x128, .f32⟩ : BufTy).Contents (Elt F)),
    unary main_arg2 main_v66 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v49 main_v68 main_v69 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v69) (TRef.of (T := ⟨S100000x128, .f32⟩) main_call2_v0) (TRef.of (T := ⟨S100000x128, .f32⟩) main_v70) maximumf ]

/-- The third stretch: the second layer. -/
abbrev opsC : List (HloOp τ sig (Elt F)) :=
  [ unary main_arg3 main_v71 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v71 main_v72 rfl shapeCasts_S1x128x128_S128x128,
    binary main_v70 main_v72 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v29 main_v74 (broadcastInDim S600000x1 ![0] bcast_S600000_S600000x1_0 : (⟨S600000, .f32⟩ : BufTy).Contents (Elt F) → (⟨S600000x1, .f32⟩ : BufTy).Contents (Elt F)),
    nullary main_c_13 (constantI S_ 32 0#32),
    unary main_c_13 main_v75 (broadcastInDim S600000 ![] bcast_S_S600000 : (⟨S_, .i32⟩ : BufTy).Contents (Elt F) → (⟨S600000, .i32⟩ : BufTy).Contents (Elt F)),
    binary main_v1 main_v75 main_v76 (cmpi .slt : (⟨S600000, .i32⟩ : BufTy).Contents (Elt F) → (⟨S600000, .i32⟩ : BufTy).Contents (Elt F) → (⟨S600000, .i1⟩ : BufTy).Contents (Elt F)),
    nullary main_c_14 (constantI S_ 32 100000#32),
    unary main_c_14 main_v77 (broadcastInDim S600000 ![] bcast_S_S600000 : (⟨S_, .i32⟩ : BufTy).Contents (Elt F) → (⟨S600000, .i32⟩ : BufTy).Contents (Elt F)),
    binary main_v1 main_v77 main_v78 (addi : (⟨S600000, .i32⟩ : BufTy).Contents (Elt F) → (⟨S600000, .i32⟩ : BufTy).Contents (Elt F) → (⟨S600000, .i32⟩ : BufTy).Contents (Elt F)),
    ternary main_v76 main_v78 main_v1 main_v79 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v79 main_v80 (broadcastInDim S600000x1 ![0] bcast_S600000_S600000x1_0 : (⟨S600000, .i32⟩ : BufTy).Contents (Elt F) → (⟨S600000x1, .i32⟩ : BufTy).Contents (Elt F)),
    binary main_v70 main_v80 main_v81 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v74 main_v82 (broadcastInDim S600000x128 ![0, 1] bcast_S600000x1_S600000x128_0_1 : (⟨S600000x1, .f32⟩ : BufTy).Contents (Elt F) → (⟨S600000x128, .f32⟩ : BufTy).Contents (Elt F)),
    binary main_v82 main_v81 main_v83 (mulf : (⟨S600000x128, .f32⟩ : BufTy).Contents (Elt F) → (⟨S600000x128, .f32⟩ : BufTy).Contents (Elt F) → (⟨S600000x128, .f32⟩ : BufTy).Contents (Elt F)),
    nullary main_cst_15 (constant S_ .f32 0x00000000#32),
    unary main_cst_15 main_v84 (broadcastInDim S100000x128 ![] bcast_S_S100000x128 : (⟨S_, .f32⟩ : BufTy).Contents (Elt F) → (⟨S100000x128, .f32⟩ : BufTy).Contents (Elt F)),
    unary main_v3 main_v85 (broadcastInDim S600000x1 ![0] bcast_S600000_S600000x1_0 : (⟨S600000, .i32⟩ : BufTy).Contents (Elt F) → (⟨S600000x1, .i32⟩ : BufTy).Contents (Elt F)),
    ternary main_v84 main_v85 main_v83 main_v86 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg3 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v87 main_v88 rfl shapeCasts_S1x128x128_S128x128,
    binary main_v86 main_v88 main_v89 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v73 main_v89 main_v90 (addf : (⟨S100000x128, .f32⟩ : BufTy).Contents (Elt F) → (⟨S100000x128, .f32⟩ : BufTy).Contents (Elt F) → (⟨S100000x128, .f32⟩ : BufTy).Contents (Elt F)),
    unary main_v29 main_v91 (broadcastInDim S600000x1 ![0] bcast_S600000_S600000x1_0 : (⟨S600000, .f32⟩ : BufTy).Contents (Elt F) → (⟨S600000x1, .f32⟩ : BufTy).Contents (Elt F)),
    nullary main_c_16 (constantI S_ 32 0#32),
    unary main_c_16 main_v92 (broadcastInDim S600000 ![] bcast_S_S600000 : (⟨S_, .i32⟩ : BufTy).Contents (Elt F) → (⟨S600000, .i32⟩ : BufTy).Contents (Elt F)),
    binary main_v1 main_v92 main_v93 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v94 (broadcastInDim S600000 ![] bcast_S_S600000 : (⟨S_, .i32⟩ : BufTy).Contents (Elt F) → (⟨S600000, .i32⟩ : BufTy).Contents (Elt F)),
    binary main_v1 main_v94 main_v95 (addi : (⟨S600000, .i32⟩ : BufTy).Contents (Elt F) → (⟨S600000, .i32⟩ : BufTy).Contents (Elt F) → (⟨S600000, .i32⟩ : BufTy).Contents (Elt F)),
    ternary main_v93 main_v95 main_v1 main_v96 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v96 main_v97 (broadcastInDim S600000x1 ![0] bcast_S600000_S600000x1_0 : (⟨S600000, .i32⟩ : BufTy).Contents (Elt F) → (⟨S600000x1, .i32⟩ : BufTy).Contents (Elt F)),
    binary main_v86 main_v97 main_v98 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v91 main_v99 (broadcastInDim S600000x128 ![0, 1] bcast_S600000x1_S600000x128_0_1 : (⟨S600000x1, .f32⟩ : BufTy).Contents (Elt F) → (⟨S600000x128, .f32⟩ : BufTy).Contents (Elt F)),
    binary main_v99 main_v98 main_v100 (mulf : (⟨S600000x128, .f32⟩ : BufTy).Contents (Elt F) → (⟨S600000x128, .f32⟩ : BufTy).Contents (Elt F) → (⟨S600000x128, .f32⟩ : BufTy).Contents (Elt F)),
    nullary main_cst_18 (constant S_ .f32 0x00000000#32),
    unary main_cst_18 main_v101 (broadcastInDim S100000x128 ![] bcast_S_S100000x128 : (⟨S_, .f32⟩ : BufTy).Contents (Elt F) → (⟨S100000x128, .f32⟩ : BufTy).Contents (Elt F)),
    unary main_v3 main_v102 (broadcastInDim S600000x1 ![0] bcast_S600000_S600000x1_0 : (⟨S600000, .i32⟩ : BufTy).Contents (Elt F) → (⟨S600000x1, .i32⟩ : BufTy).Contents (Elt F)),
    ternary main_v101 main_v102 main_v100 main_v103 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_19 (constant S_ .f32 0x40000000#32),
    unary main_cst_19 main_v104 (broadcastInDim S100000x128 ![] bcast_S_S100000x128 : (⟨S_, .f32⟩ : BufTy).Contents (Elt F) → (⟨S100000x128, .f32⟩ : BufTy).Contents (Elt F)),
    binary main_v104 main_v103 main_v105 (mulf : (⟨S100000x128, .f32⟩ : BufTy).Contents (Elt F) → (⟨S100000x128, .f32⟩ : BufTy).Contents (Elt F) → (⟨S100000x128, .f32⟩ : BufTy).Contents (Elt F)),
    binary main_v105 main_v70 main_v106 (subf : (⟨S100000x128, .f32⟩ : BufTy).Contents (Elt F) → (⟨S100000x128, .f32⟩ : BufTy).Contents (Elt F) → (⟨S100000x128, .f32⟩ : BufTy).Contents (Elt F)),
    unary main_arg3 main_v107 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v107 main_v108 rfl shapeCasts_S1x128x128_S128x128,
    binary main_v106 main_v108 main_v109 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v90 main_v109 main_v110 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v110) (TRef.of (T := ⟨S100000x128, .f32⟩) main_call3_v0) (TRef.of (T := ⟨S100000x128, .f32⟩) main_v111) maximumf ]

/-- The fourth stretch: the third layer. -/
abbrev opsD : List (HloOp τ sig (Elt F)) :=
  [ unary main_arg4 main_v112 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v112 main_v113 rfl shapeCasts_S1x128x128_S128x128,
    binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v29 main_v115 (broadcastInDim S600000x1 ![0] bcast_S600000_S600000x1_0 : (⟨S600000, .f32⟩ : BufTy).Contents (Elt F) → (⟨S600000x1, .f32⟩ : BufTy).Contents (Elt F)),
    nullary main_c_20 (constantI S_ 32 0#32),
    unary main_c_20 main_v116 (broadcastInDim S600000 ![] bcast_S_S600000 : (⟨S_, .i32⟩ : BufTy).Contents (Elt F) → (⟨S600000, .i32⟩ : BufTy).Contents (Elt F)),
    binary main_v1 main_v116 main_v117 (cmpi .slt : (⟨S600000, .i32⟩ : BufTy).Contents (Elt F) → (⟨S600000, .i32⟩ : BufTy).Contents (Elt F) → (⟨S600000, .i1⟩ : BufTy).Contents (Elt F)),
    nullary main_c_21 (constantI S_ 32 100000#32),
    unary main_c_21 main_v118 (broadcastInDim S600000 ![] bcast_S_S600000 : (⟨S_, .i32⟩ : BufTy).Contents (Elt F) → (⟨S600000, .i32⟩ : BufTy).Contents (Elt F)),
    binary main_v1 main_v118 main_v119 (addi : (⟨S600000, .i32⟩ : BufTy).Contents (Elt F) → (⟨S600000, .i32⟩ : BufTy).Contents (Elt F) → (⟨S600000, .i32⟩ : BufTy).Contents (Elt F)),
    ternary main_v117 main_v119 main_v1 main_v120 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v120 main_v121 (broadcastInDim S600000x1 ![0] bcast_S600000_S600000x1_0 : (⟨S600000, .i32⟩ : BufTy).Contents (Elt F) → (⟨S600000x1, .i32⟩ : BufTy).Contents (Elt F)),
    binary main_v111 main_v121 main_v122 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v115 main_v123 (broadcastInDim S600000x128 ![0, 1] bcast_S600000x1_S600000x128_0_1 : (⟨S600000x1, .f32⟩ : BufTy).Contents (Elt F) → (⟨S600000x128, .f32⟩ : BufTy).Contents (Elt F)),
    binary main_v123 main_v122 main_v124 (mulf : (⟨S600000x128, .f32⟩ : BufTy).Contents (Elt F) → (⟨S600000x128, .f32⟩ : BufTy).Contents (Elt F) → (⟨S600000x128, .f32⟩ : BufTy).Contents (Elt F)),
    nullary main_cst_22 (constant S_ .f32 0x00000000#32),
    unary main_cst_22 main_v125 (broadcastInDim S100000x128 ![] bcast_S_S100000x128 : (⟨S_, .f32⟩ : BufTy).Contents (Elt F) → (⟨S100000x128, .f32⟩ : BufTy).Contents (Elt F)),
    unary main_v3 main_v126 (broadcastInDim S600000x1 ![0] bcast_S600000_S600000x1_0 : (⟨S600000, .i32⟩ : BufTy).Contents (Elt F) → (⟨S600000x1, .i32⟩ : BufTy).Contents (Elt F)),
    ternary main_v125 main_v126 main_v124 main_v127 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg4 main_v128 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v128 main_v129 rfl shapeCasts_S1x128x128_S128x128,
    binary main_v127 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v114 main_v130 main_v131 (addf : (⟨S100000x128, .f32⟩ : BufTy).Contents (Elt F) → (⟨S100000x128, .f32⟩ : BufTy).Contents (Elt F) → (⟨S100000x128, .f32⟩ : BufTy).Contents (Elt F)),
    unary main_v29 main_v132 (broadcastInDim S600000x1 ![0] bcast_S600000_S600000x1_0 : (⟨S600000, .f32⟩ : BufTy).Contents (Elt F) → (⟨S600000x1, .f32⟩ : BufTy).Contents (Elt F)),
    nullary main_c_23 (constantI S_ 32 0#32),
    unary main_c_23 main_v133 (broadcastInDim S600000 ![] bcast_S_S600000 : (⟨S_, .i32⟩ : BufTy).Contents (Elt F) → (⟨S600000, .i32⟩ : BufTy).Contents (Elt F)),
    binary main_v1 main_v133 main_v134 (cmpi .slt : (⟨S600000, .i32⟩ : BufTy).Contents (Elt F) → (⟨S600000, .i32⟩ : BufTy).Contents (Elt F) → (⟨S600000, .i1⟩ : BufTy).Contents (Elt F)),
    nullary main_c_24 (constantI S_ 32 100000#32),
    unary main_c_24 main_v135 (broadcastInDim S600000 ![] bcast_S_S600000 : (⟨S_, .i32⟩ : BufTy).Contents (Elt F) → (⟨S600000, .i32⟩ : BufTy).Contents (Elt F)),
    binary main_v1 main_v135 main_v136 (addi : (⟨S600000, .i32⟩ : BufTy).Contents (Elt F) → (⟨S600000, .i32⟩ : BufTy).Contents (Elt F) → (⟨S600000, .i32⟩ : BufTy).Contents (Elt F)),
    ternary main_v134 main_v136 main_v1 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v137 main_v138 (broadcastInDim S600000x1 ![0] bcast_S600000_S600000x1_0 : (⟨S600000, .i32⟩ : BufTy).Contents (Elt F) → (⟨S600000x1, .i32⟩ : BufTy).Contents (Elt F)),
    binary main_v127 main_v138 main_v139 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v132 main_v140 (broadcastInDim S600000x128 ![0, 1] bcast_S600000x1_S600000x128_0_1 : (⟨S600000x1, .f32⟩ : BufTy).Contents (Elt F) → (⟨S600000x128, .f32⟩ : BufTy).Contents (Elt F)),
    binary main_v140 main_v139 main_v141 (mulf : (⟨S600000x128, .f32⟩ : BufTy).Contents (Elt F) → (⟨S600000x128, .f32⟩ : BufTy).Contents (Elt F) → (⟨S600000x128, .f32⟩ : BufTy).Contents (Elt F)),
    nullary main_cst_25 (constant S_ .f32 0x00000000#32),
    unary main_cst_25 main_v142 (broadcastInDim S100000x128 ![] bcast_S_S100000x128 : (⟨S_, .f32⟩ : BufTy).Contents (Elt F) → (⟨S100000x128, .f32⟩ : BufTy).Contents (Elt F)),
    unary main_v3 main_v143 (broadcastInDim S600000x1 ![0] bcast_S600000_S600000x1_0 : (⟨S600000, .i32⟩ : BufTy).Contents (Elt F) → (⟨S600000x1, .i32⟩ : BufTy).Contents (Elt F)),
    ternary main_v142 main_v143 main_v141 main_v144 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_26 (constant S_ .f32 0x40000000#32),
    unary main_cst_26 main_v145 (broadcastInDim S100000x128 ![] bcast_S_S100000x128 : (⟨S_, .f32⟩ : BufTy).Contents (Elt F) → (⟨S100000x128, .f32⟩ : BufTy).Contents (Elt F)),
    binary main_v145 main_v144 main_v146 (mulf : (⟨S100000x128, .f32⟩ : BufTy).Contents (Elt F) → (⟨S100000x128, .f32⟩ : BufTy).Contents (Elt F) → (⟨S100000x128, .f32⟩ : BufTy).Contents (Elt F)),
    binary main_v146 main_v111 main_v147 (subf : (⟨S100000x128, .f32⟩ : BufTy).Contents (Elt F) → (⟨S100000x128, .f32⟩ : BufTy).Contents (Elt F) → (⟨S100000x128, .f32⟩ : BufTy).Contents (Elt F)),
    unary main_arg4 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v148 main_v149 rfl shapeCasts_S1x128x128_S128x128,
    binary main_v147 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v131 main_v150 main_v151 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v151) (TRef.of (T := ⟨S100000x128, .f32⟩) main_call4_v0) (TRef.of (T := ⟨S100000x128, .f32⟩) main_v152) maximumf ]

/-- The last stretch: the classifier head. -/
abbrev opsE : List (HloOp τ sig (Elt F)) :=
  [ binary main_v152 main_arg5 main_v153 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg6 main_v154 (broadcastInDim S1x256 ![1] bcast_S256_S1x256_1 : (⟨S256, .f32⟩ : BufTy).Contents (Elt F) → (⟨S1x256, .f32⟩ : BufTy).Contents (Elt F)),
    unary main_v154 main_v155 (broadcastInDim S100000x256 ![0, 1] bcast_S1x256_S100000x256_0_1 : (⟨S1x256, .f32⟩ : BufTy).Contents (Elt F) → (⟨S100000x256, .f32⟩ : BufTy).Contents (Elt F)),
    binary main_v153 main_v155 main_v156 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v156) (TRef.of (T := ⟨S100000x256, .f32⟩) main_call5_v0) (TRef.of (T := ⟨S100000x256, .f32⟩) main_v157) maximumf,
    unary main_arg9 main_v158 (broadcastInDim S1x256 ![1] bcast_S256_S1x256_1 : (⟨S256, .f32⟩ : BufTy).Contents (Elt F) → (⟨S1x256, .f32⟩ : BufTy).Contents (Elt F)),
    unary main_v158 main_v159 (broadcastInDim S100000x256 ![0, 1] bcast_S1x256_S100000x256_0_1 : (⟨S1x256, .f32⟩ : BufTy).Contents (Elt F) → (⟨S100000x256, .f32⟩ : BufTy).Contents (Elt F)),
    binary main_v157 main_v159 main_v160 (subf : (⟨S100000x256, .f32⟩ : BufTy).Contents (Elt F) → (⟨S100000x256, .f32⟩ : BufTy).Contents (Elt F) → (⟨S100000x256, .f32⟩ : BufTy).Contents (Elt F)),
    nullary main_cst_27 (constant S_ .f32 0x3727C5AC#32),
    unary main_cst_27 main_v161 (broadcastInDim S256 ![] bcast_S_S256 : (⟨S_, .f32⟩ : BufTy).Contents (Elt F) → (⟨S256, .f32⟩ : BufTy).Contents (Elt F)),
    binary main_arg10 main_v161 main_v162 (addf : (⟨S256, .f32⟩ : BufTy).Contents (Elt F) → (⟨S256, .f32⟩ : BufTy).Contents (Elt F) → (⟨S256, .f32⟩ : BufTy).Contents (Elt F)),
    unary main_v162 main_v163 (Host.rsqrt : (⟨S256, .f32⟩ : BufTy).Contents (Elt F) → (⟨S256, .f32⟩ : BufTy).Contents (Elt F)),
    unary main_v163 main_v164 (broadcastInDim S1x256 ![1] bcast_S256_S1x256_1 : (⟨S256, .f32⟩ : BufTy).Contents (Elt F) → (⟨S1x256, .f32⟩ : BufTy).Contents (Elt F)),
    unary main_v164 main_v165 (broadcastInDim S100000x256 ![0, 1] bcast_S1x256_S100000x256_0_1 : (⟨S1x256, .f32⟩ : BufTy).Contents (Elt F) → (⟨S100000x256, .f32⟩ : BufTy).Contents (Elt F)),
    binary main_v160 main_v165 main_v166 (mulf : (⟨S100000x256, .f32⟩ : BufTy).Contents (Elt F) → (⟨S100000x256, .f32⟩ : BufTy).Contents (Elt F) → (⟨S100000x256, .f32⟩ : BufTy).Contents (Elt F)),
    unary main_arg7 main_v167 (broadcastInDim S1x256 ![1] bcast_S256_S1x256_1 : (⟨S256, .f32⟩ : BufTy).Contents (Elt F) → (⟨S1x256, .f32⟩ : BufTy).Contents (Elt F)),
    unary main_v167 main_v168 (broadcastInDim S100000x256 ![0, 1] bcast_S1x256_S100000x256_0_1 : (⟨S1x256, .f32⟩ : BufTy).Contents (Elt F) → (⟨S100000x256, .f32⟩ : BufTy).Contents (Elt F)),
    binary main_v166 main_v168 main_v169 (mulf : (⟨S100000x256, .f32⟩ : BufTy).Contents (Elt F) → (⟨S100000x256, .f32⟩ : BufTy).Contents (Elt F) → (⟨S100000x256, .f32⟩ : BufTy).Contents (Elt F)),
    unary main_arg8 main_v170 (broadcastInDim S1x256 ![1] bcast_S256_S1x256_1 : (⟨S256, .f32⟩ : BufTy).Contents (Elt F) → (⟨S1x256, .f32⟩ : BufTy).Contents (Elt F)),
    unary main_v170 main_v171 (broadcastInDim S100000x256 ![0, 1] bcast_S1x256_S100000x256_0_1 : (⟨S1x256, .f32⟩ : BufTy).Contents (Elt F) → (⟨S100000x256, .f32⟩ : BufTy).Contents (Elt F)),
    binary main_v169 main_v171 main_v172 (addf : (⟨S100000x256, .f32⟩ : BufTy).Contents (Elt F) → (⟨S100000x256, .f32⟩ : BufTy).Contents (Elt F) → (⟨S100000x256, .f32⟩ : BufTy).Contents (Elt F)),
    binary main_v172 main_arg11 main_v173 ((fun l r => Host.dotGeneral dot_S100000x256_S256x2_S100000x2_1_0_0_1_n_n none l r) : (⟨S100000x256, .f32⟩ : BufTy).Contents (Elt F) → (⟨S256x2, .f32⟩ : BufTy).Contents (Elt F) → (⟨S100000x2, .f32⟩ : BufTy).Contents (Elt F)),
    unary main_arg12 main_v174 (broadcastInDim S1x2 ![1] bcast_S2_S1x2_1 : (⟨S2, .f32⟩ : BufTy).Contents (Elt F) → (⟨S1x2, .f32⟩ : BufTy).Contents (Elt F)),
    unary main_v174 main_v175 (broadcastInDim S100000x2 ![0, 1] bcast_S1x2_S100000x2_0_1 : (⟨S1x2, .f32⟩ : BufTy).Contents (Elt F) → (⟨S100000x2, .f32⟩ : BufTy).Contents (Elt F)),
    binary main_v173 main_v175 main_v176 (addf : (⟨S100000x2, .f32⟩ : BufTy).Contents (Elt F) → (⟨S100000x2, .f32⟩ : BufTy).Contents (Elt F) → (⟨S100000x2, .f32⟩ : BufTy).Contents (Elt F)) ]

/-- The operation list is the five stretches in order. -/
theorem ops_split : (ops : List (HloOp τ sig (Elt F))) = opsA ++ opsB ++ opsC ++ opsD ++ opsE := rfl

/-- Every reference the stretch A writes. -/
def WA : List (Ref sig .tc) :=
  [main_v0, main_v1, main_v2, main_v3, main_v4, main_cst, main_call0_v0, main_call0_v1, main_v5, main_cst_0, main_v6,
   main_v7, main_v8, main_cst_1, main_v9, main_v10, main_v11, main_cst_2, main_call1_v0, main_call1_v1, main_v12,
   main_c, main_v13, main_v14, main_c_3, main_v15, main_v16, main_v17, main_v18, main_v19, main_v20, main_v21,
   main_c_4, main_v22, main_v23, main_c_5, main_v24, main_v25, main_v26, main_v27, main_v28, main_v29]

/-- Every reference the stretch B writes. -/
def WB : List (Ref sig .tc) :=
  [main_v30, main_v31, main_v32, main_v33, main_c_6, main_v34, main_v35, main_c_7, main_v36, main_v37, main_v38,
   main_v39, main_v40, main_v41, main_v42, main_cst_8, main_v43, main_v44, main_v45, main_v46, main_v47, main_v48,
   main_v49, main_v50, main_c_9, main_v51, main_v52, main_c_10, main_v53, main_v54, main_v55, main_v56, main_v57,
   main_v58, main_v59, main_cst_11, main_v60, main_v61, main_v62, main_cst_12, main_v63, main_v64, main_v65,
   main_v66, main_v67, main_v68, main_v69, main_call2_cst, main_call2_v0, main_v70]

/-- Every reference the stretch C writes. -/
def WC : List (Ref sig .tc) :=
  [main_v71, main_v72, main_v73, main_v74, main_c_13, main_v75, main_v76, main_c_14, main_v77, main_v78, main_v79,
   main_v80, main_v81, main_v82, main_v83, main_cst_15, main_v84, main_v85, main_v86, main_v87, main_v88, main_v89,
   main_v90, main_v91, main_c_16, main_v92, main_v93, main_c_17, main_v94, main_v95, main_v96, main_v97, main_v98,
   main_v99, main_v100, main_cst_18, main_v101, main_v102, main_v103, main_cst_19, main_v104, main_v105, main_v106,
   main_v107, main_v108, main_v109, main_v110, main_call3_cst, main_call3_v0, main_v111]

/-- Every reference the stretch D writes. -/
def WD : List (Ref sig .tc) :=
  [main_v112, main_v113, main_v114, main_v115, main_c_20, main_v116, main_v117, main_c_21, main_v118, main_v119,
   main_v120, main_v121, main_v122, main_v123, main_v124, main_cst_22, main_v125, main_v126, main_v127, main_v128,
   main_v129, main_v130, main_v131, main_v132, main_c_23, main_v133, main_v134, main_c_24, main_v135, main_v136,
   main_v137, main_v138, main_v139, main_v140, main_v141, main_cst_25, main_v142, main_v143, main_v144, main_cst_26,
   main_v145, main_v146, main_v147, main_v148, main_v149, main_v150, main_v151, main_call4_cst, main_call4_v0,
   main_v152]

/-- Every reference the stretch E writes. -/
def WE : List (Ref sig .tc) :=
  [main_v153, main_v154, main_v155, main_v156, main_call5_cst, main_call5_v0, main_v157, main_v158, main_v159,
   main_v160, main_cst_27, main_v161, main_v162, main_v163, main_v164, main_v165, main_v166, main_v167, main_v168,
   main_v169, main_v170, main_v171, main_v172, main_v173, main_v174, main_v175, main_v176]

/-- Each operation of the stretch A writes a reference of the list. -/
theorem hWA : (opsA : List (HloOp τ sig (Elt F))).Forall fun op => op.writes ⊆ (WA.map (Proc.devRef (τ := τ) .tc)).toFinset := by
  simp only [opsA, List.Forall, nullary_writes, unary_writes, binary_writes, ternary_writes, reshape_writes, Finset.singleton_subset_iff]
  repeat' apply And.intro
  all_goals exact List.mem_toFinset.mpr (List.mem_map_of_mem (by decide))

/-- A reference the stretch A does not write keeps its contents across it. -/
theorem keepA (V : Valuation τ sig (Elt F)) (r : Ref sig .tc) (hr : r ∉ WA) :
    after opsA V (Proc.devRef .tc r) = V (Proc.devRef .tc r) :=
  after_of_writes_sub opsA V hWA hr

/-- Each operation of the stretch B writes a reference of the list. -/
theorem hWB : (opsB : List (HloOp τ sig (Elt F))).Forall fun op => op.writes ⊆ (WB.map (Proc.devRef (τ := τ) .tc)).toFinset := by
  simp only [opsB, List.Forall, nullary_writes, unary_writes, binary_writes, ternary_writes, reshape_writes, Finset.singleton_subset_iff]
  repeat' apply And.intro
  all_goals exact List.mem_toFinset.mpr (List.mem_map_of_mem (by decide))

/-- A reference the stretch B does not write keeps its contents across it. -/
theorem keepB (V : Valuation τ sig (Elt F)) (r : Ref sig .tc) (hr : r ∉ WB) :
    after opsB V (Proc.devRef .tc r) = V (Proc.devRef .tc r) :=
  after_of_writes_sub opsB V hWB hr

/-- Each operation of the stretch C writes a reference of the list. -/
theorem hWC : (opsC : List (HloOp τ sig (Elt F))).Forall fun op => op.writes ⊆ (WC.map (Proc.devRef (τ := τ) .tc)).toFinset := by
  simp only [opsC, List.Forall, nullary_writes, unary_writes, binary_writes, ternary_writes, reshape_writes, Finset.singleton_subset_iff]
  repeat' apply And.intro
  all_goals exact List.mem_toFinset.mpr (List.mem_map_of_mem (by decide))

/-- A reference the stretch C does not write keeps its contents across it. -/
theorem keepC (V : Valuation τ sig (Elt F)) (r : Ref sig .tc) (hr : r ∉ WC) :
    after opsC V (Proc.devRef .tc r) = V (Proc.devRef .tc r) :=
  after_of_writes_sub opsC V hWC hr

/-- Each operation of the stretch D writes a reference of the list. -/
theorem hWD : (opsD : List (HloOp τ sig (Elt F))).Forall fun op => op.writes ⊆ (WD.map (Proc.devRef (τ := τ) .tc)).toFinset := by
  simp only [opsD, List.Forall, nullary_writes, unary_writes, binary_writes, ternary_writes, reshape_writes, Finset.singleton_subset_iff]
  repeat' apply And.intro
  all_goals exact List.mem_toFinset.mpr (List.mem_map_of_mem (by decide))

/-- A reference the stretch D does not write keeps its contents across it. -/
theorem keepD (V : Valuation τ sig (Elt F)) (r : Ref sig .tc) (hr : r ∉ WD) :
    after opsD V (Proc.devRef .tc r) = V (Proc.devRef .tc r) :=
  after_of_writes_sub opsD V hWD hr

/-- Each operation of the stretch E writes a reference of the list. -/
theorem hWE : (opsE : List (HloOp τ sig (Elt F))).Forall fun op => op.writes ⊆ (WE.map (Proc.devRef (τ := τ) .tc)).toFinset := by
  simp only [opsE, List.Forall, nullary_writes, unary_writes, binary_writes, ternary_writes, reshape_writes, Finset.singleton_subset_iff]
  repeat' apply And.intro
  all_goals exact List.mem_toFinset.mpr (List.mem_map_of_mem (by decide))

/-- A reference the stretch E does not write keeps its contents across it. -/
theorem keepE (V : Valuation τ sig (Elt F)) (r : Ref sig .tc) (hr : r ∉ WE) :
    after opsE V (Proc.devRef .tc r) = V (Proc.devRef .tc r) :=
  after_of_writes_sub opsE V hWE hr

/-- The stretch A from any contents: row 0 of the edge list. -/
theorem srcA (V : Valuation τ sig (Elt F)) :
    after opsA V (Proc.devRef .tc main_v1) = Cert.HostFns.srcOf (V (Proc.devRef .tc main_arg13)) := by
  after_results_simp
  rfl

/-- The stretch A from any contents: row 1 of the edge list. -/
theorem dstA (V : Valuation τ sig (Elt F)) :
    after opsA V (Proc.devRef .tc main_v3) = Cert.HostFns.dstOf (V (Proc.devRef .tc main_arg13)) := by
  after_results_simp
  rfl

/-- The stretch A from any contents: the edge norms of the weights over the two rows. -/
theorem nrmA (V : Valuation τ sig (Elt F)) :
    after opsA V (Proc.devRef .tc main_v29)
      = Cert.HostFns.nrmOf (V (Proc.devRef .tc main_arg1)) (Cert.HostFns.srcOf (V (Proc.devRef .tc main_arg13)))
          (Cert.HostFns.dstOf (V (Proc.devRef .tc main_arg13))) := by
  after_results_simp
  rfl

/-- The stretch B from any contents: its rectified sum is one layer of the contents' edge norms, edge rows, weights and features. -/
theorem layerB (V : Valuation τ sig (Elt F)) :
    after opsB V (Proc.devRef .tc main_v70)
      = Cert.HostFns.refLayer (V (Proc.devRef .tc main_v29)) (V (Proc.devRef .tc main_v1)) (V (Proc.devRef .tc main_v3))
          (V (Proc.devRef .tc main_arg2)) (V (Proc.devRef .tc main_arg0)) := by
  after_results_simp
  rfl

/-- The stretch C from any contents: its rectified sum is one layer of the contents' edge norms, edge rows, weights and features. -/
theorem layerC (V : Valuation τ sig (Elt F)) :
    after opsC V (Proc.devRef .tc main_v111)
      = Cert.HostFns.refLayer (V (Proc.devRef .tc main_v29)) (V (Proc.devRef .tc main_v1)) (V (Proc.devRef .tc main_v3))
          (V (Proc.devRef .tc main_arg3)) (V (Proc.devRef .tc main_v70)) := by
  after_results_simp
  rfl

/-- The stretch D from any contents: its rectified sum is one layer of the contents' edge norms, edge rows, weights and features. -/
theorem layerD (V : Valuation τ sig (Elt F)) :
    after opsD V (Proc.devRef .tc main_v152)
      = Cert.HostFns.refLayer (V (Proc.devRef .tc main_v29)) (V (Proc.devRef .tc main_v1)) (V (Proc.devRef .tc main_v3))
          (V (Proc.devRef .tc main_arg4)) (V (Proc.devRef .tc main_v111)) := by
  after_results_simp
  rfl

/-- The stretch E from any contents: the head of the contents' last layer and head parameters. -/
theorem headE (V : Valuation τ sig (Elt F)) :
    after opsE V (Proc.devRef .tc main_v176)
      = Cert.HostFns.refHead (V (Proc.devRef .tc main_v152)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) (V (Proc.devRef .tc main_arg12)) := by
  after_results_simp
  rfl

variable (m : (ℓ : Loc nD τ sig) → Buf (Elt F) ℓ)

abbrev S (c : Dev nD) := Cert.HostFns.srcOf (F := F) (m ((c.tc : Thread nD τ).loc main_arg13))
abbrev D (c : Dev nD) := Cert.HostFns.dstOf (F := F) (m ((c.tc : Thread nD τ).loc main_arg13))
abbrev Nrm (c : Dev nD) := Cert.HostFns.nrmOf (F := F) (m ((c.tc : Thread nD τ).loc main_arg1)) (S m c) (D m c)

/-- No stretch writes an argument's reference. -/
theorem arg_not_written (b : Ref sig .tc)
    (hb : b = main_arg0 ∨ b = main_arg1 ∨ b = main_arg2 ∨ b = main_arg3 ∨ b = main_arg4 ∨ b = main_arg5 ∨ b = main_arg6 ∨ b = main_arg7
      ∨ b = main_arg8 ∨ b = main_arg9 ∨ b = main_arg10 ∨ b = main_arg11 ∨ b = main_arg12 ∨ b = main_arg13) :
    b ∉ WA ∧ b ∉ WB ∧ b ∉ WC ∧ b ∉ WD ∧ b ∉ WE := by
  rcases hb with rfl | rfl | rfl | rfl | rfl | rfl | rfl | rfl | rfl | rfl | rfl | rfl | rfl | rfl <;> decide

/-- The result buffer after all the operations: the head of three nested layers of the launch contents. -/
theorem ref_value (c : Dev nD) :
    after ops (launchContents m c) (Proc.devRef .tc main_v176)
      = Cert.HostFns.refHead
          (Cert.HostFns.refLayer (Nrm m c) (S m c) (D m c) (m ((c.tc : Thread nD τ).loc main_arg4))
            (Cert.HostFns.refLayer (Nrm m c) (S m c) (D m c) (m ((c.tc : Thread nD τ).loc main_arg3))
              (Cert.HostFns.refLayer (Nrm m c) (S m c) (D m c) (m ((c.tc : Thread nD τ).loc main_arg2))
                (m ((c.tc : Thread nD τ).loc main_arg0)))))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  rw [ops_split]; simp only [after_app]
  -- each stretch's result, from whatever the stretch before it left
  rw [headE, layerD, layerC, layerB]
  -- what a stretch reads and does not write is what the stretch before it left: back to the first stretch
  rw [keepD _ main_arg5 (by decide), keepD _ main_arg6 (by decide), keepD _ main_arg7 (by decide), keepD _ main_arg8 (by decide),
    keepD _ main_arg9 (by decide), keepD _ main_arg10 (by decide), keepD _ main_arg11 (by decide), keepD _ main_arg12 (by decide)]
  rw [keepC _ main_v29 (by decide), keepC _ main_v1 (by decide), keepC _ main_v3 (by decide), keepC _ main_arg4 (by decide),
    keepC _ main_arg5 (by decide), keepC _ main_arg6 (by decide), keepC _ main_arg7 (by decide), keepC _ main_arg8 (by decide),
    keepC _ main_arg9 (by decide), keepC _ main_arg10 (by decide), keepC _ main_arg11 (by decide), keepC _ main_arg12 (by decide)]
  rw [keepB _ main_v29 (by decide), keepB _ main_v1 (by decide), keepB _ main_v3 (by decide), keepB _ main_arg3 (by decide),
    keepB _ main_arg4 (by decide), keepB _ main_arg5 (by decide), keepB _ main_arg6 (by decide), keepB _ main_arg7 (by decide),
    keepB _ main_arg8 (by decide), keepB _ main_arg9 (by decide), keepB _ main_arg10 (by decide), keepB _ main_arg11 (by decide),
    keepB _ main_arg12 (by decide)]
  rw [nrmA, srcA, dstA]
  -- and the first stretch writes no argument
  rw [keepA _ main_arg0 (by decide), keepA _ main_arg2 (by decide), keepA _ main_arg3 (by decide), keepA _ main_arg4 (by decide),
    keepA _ main_arg5 (by decide), keepA _ main_arg6 (by decide), keepA _ main_arg7 (by decide), keepA _ main_arg8 (by decide),
    keepA _ main_arg9 (by decide), keepA _ main_arg10 (by decide), keepA _ main_arg11 (by decide), keepA _ main_arg12 (by decide)]

/-- Every argument buffer is as launched after all the operations. -/
theorem ref_arg (c : Dev nD) (b : Ref sig .tc)
    (hb : b = main_arg0 ∨ b = main_arg1 ∨ b = main_arg2 ∨ b = main_arg3 ∨ b = main_arg4 ∨ b = main_arg5 ∨ b = main_arg6 ∨ b = main_arg7
      ∨ b = main_arg8 ∨ b = main_arg9 ∨ b = main_arg10 ∨ b = main_arg11 ∨ b = main_arg12 ∨ b = main_arg13) :
    after ops (launchContents m c) (Proc.devRef .tc b) = m ((c.tc : Thread nD τ).loc b) := by
  obtain ⟨hA, hB, hC, hD, hE⟩ := arg_not_written b hb
  rw [ops_split]; simp only [after_app]
  rw [keepE _ b hE, keepD _ b hD, keepC _ b hC, keepB _ b hB, keepA _ b hA]

end Cert.RefFold

end
-- ==== Proof.PreFacts.lean ====
/-
  What the precondition gives the proof: the four per-column vectors of the normalisation are real numbers, the
  variance is non-negative, and therefore the reciprocal square root of the shifted variance is a positive real.
-/
import proofs.«428064_j64707977281948_4_alg».proof.Pre_finite_inputs
import proofs.«428064_j64707977281948_4_alg».proof.Proof.Gen.Pre_finite_inputs
import proofs.«428064_j64707977281948_4_alg».proof.Proof.HostFns
import Idealize.ShloMosaic.Lib.ValueIdx
import Idealize.ShloMosaic.Lib.ReduceAll
import Idealize.ShloMosaic.PureOps.Ideal.Laws

noncomputable section

namespace Cert.PreFacts

open Idealize.ShloMosaic Idealize.ShloMosaic.ValueIdx Cert.Pre_finite_inputs

/-- The rank-0 shape has exactly one index. -/
instance : Subsingleton S_.Idx := ⟨fun a b => funext fun d => d.elim0⟩

/-- An extended real whose absolute value max x (-x) lies strictly below +inf is a real number: at -inf and at +inf that
    maximum is +inf itself. -/
theorem real_of_abs_lt_top (x : EReal) (h : max x (-x) < ⊤) : ∃ a : ℝ, x = (a : EReal) := by
  induction x using EReal.rec with
  | bot => simp at h
  | coe a => exact ⟨a, rfl⟩
  | top => simp at h

/-- The word 0x7F800000 (sign 0, exponent all ones, fraction 0) denotes +inf. -/
theorem ofBits_inf_f32 : Ideal.ofBits .f32 0x7F800000#32 = ⊤ := by simp [Ideal.ofBits, Ideal.ieee]

/-- A strict comparison that answers 1 is the order's strict inequality. -/
theorem lt_of_cmp_olt {x y : EReal} (h : Ideal.cmp .olt x y = 1#1) : x < y := by
  by_contra hn
  simp [Ideal.cmp, hn] at h

/-- A greater-or-equal comparison that answers 1 is the order's inequality. -/
theorem le_of_cmp_oge {x y : EReal} (h : Ideal.cmp .oge x y = 1#1) : y ≤ x := by
  by_contra hn
  simp [Ideal.cmp, hn] at h

/-- One conjunct of the precondition on a length-256 vector: all |x| < +inf makes every entry a real number. -/
theorem real_of_all_lt [Facts] (x : FVec Ideal S256 .f32)
    (h : Host.reduce IntOp.andi
        (cmpf .olt (Host.absf x) (broadcastInDim S256 ![] Facts.bcast_S_S256 (constant S_ .f32 0x7F800000#32)))
        (constantI S_ 1 1#1) Facts.reducesTo_S256_S_d0 Facts.h_S_ ix0 = 1#1) (j : S256.Idx) :
    ∃ a : ℝ, x j = (a : EReal) := by
  have e := Host.reduce_andi_all _ _ _ _ _ h j
  have e' : Ideal.cmp .olt (max (x j) (-(x j))) (Ideal.ofBits .f32 0x7F800000#32) = 1#1 := e
  rw [ofBits_inf_f32] at e'
  exact real_of_abs_lt_top _ (lt_of_cmp_olt e')

/-- The last conjunct: all x ≥ 0 makes every entry at least the extended real 0. -/
theorem nonneg_of_all_ge [Facts] (x : FVec Ideal S256 .f32)
    (h : Host.reduce IntOp.andi
        (cmpf .oge x (broadcastInDim S256 ![] Facts.bcast_S_S256 (constant S_ .f32 0x00000000#32)))
        (constantI S_ 1 1#1) Facts.reducesTo_S256_S_d0 Facts.h_S_ ix0 = 1#1) (j : S256.Idx) :
    (0 : EReal) ≤ x j := by
  have e := Host.reduce_andi_all _ _ _ _ _ h j
  have e' : Ideal.cmp .oge (x j) (Ideal.ofBits .f32 0x00000000#32) = 1#1 := e
  rw [Ideal.ofBits_zero_f32] at e'
  exact le_of_cmp_oge e'

/-- From the precondition (every float input finite, the variance non-negative): gamma (x7), beta (x8), mean (x9)
    are real in every column, and the variance (x10) is a non-negative real. -/
theorem of_pre (x0 : FVec Ideal S100000x128 .f32) (x1 : FVec Ideal S600000 .f32) (x2 x3 x4 : FVec Ideal S3x128x128 .f32)
    (x5 : FVec Ideal S128x256 .f32) (x6 x7 x8 x9 x10 : FVec Ideal S256 .f32) (x11 : FVec Ideal S256x2 .f32)
    (x12 : FVec Ideal S2 .f32) (x13 : IVec S2x600000 32)
    (h : Cert.Pre_finite_inputs.fn (F := Ideal) x0 x1 x2 x3 x4 x5 x6 x7 x8 x9 x10 x11 x12 x13 = fun _ => 1#1) :
    (∀ j : S256.Idx, ∃ a : ℝ, x7 j = (a : EReal)) ∧ (∀ j : S256.Idx, ∃ a : ℝ, x8 j = (a : EReal))
      ∧ (∀ j : S256.Idx, ∃ a : ℝ, x9 j = (a : EReal)) ∧ (∀ j : S256.Idx, ∃ a : ℝ, 0 ≤ a ∧ x10 j = (a : EReal)) := by
  have h0 := congrFun h ValueIdx.ix0
  dsimp only [fn, fn_part1, fn_part2, fn_part3] at h0
  obtain ⟨h63, h66⟩ := IntOp.andi_eq_one.1 h0
  obtain ⟨h58, -⟩ := IntOp.andi_eq_one.1 h63
  obtain ⟨h53, -⟩ := IntOp.andi_eq_one.1 h58
  obtain ⟨h48, h52⟩ := IntOp.andi_eq_one.1 h53
  obtain ⟨h43, h47⟩ := IntOp.andi_eq_one.1 h48
  obtain ⟨h38, h42⟩ := IntOp.andi_eq_one.1 h43
  obtain ⟨-, h37⟩ := IntOp.andi_eq_one.1 h38
  refine ⟨real_of_all_lt x7 h37, real_of_all_lt x8 h42, real_of_all_lt x9 h47, fun j => ?_⟩
  obtain ⟨a, ha⟩ := real_of_all_lt x10 h52 j
  have hge := nonneg_of_all_ge x10 h66 j
  rw [ha] at hge
  exact ⟨a, EReal.coe_nonneg.1 hge, ha⟩

/-- The word 0x3727C5AC (sign 0, exponent 110, fraction 2606508) denotes the positive real (2^23 + 2606508) * 2^(110 - 127 - 23),
    the single-precision 1e-5. -/
theorem ofBits_eps_f32 : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The reciprocal square root of a non-negative real variance shifted by the positive literal is a positive real. -/
theorem rsqVar_pos (var : (⟨Cert.ReferenceIdeal.S256, .f32⟩ : BufTy).Contents (Elt Ideal))
    (h : ∀ j, ∃ a : ℝ, 0 ≤ a ∧ var j = (a : EReal)) :
    ∀ j, ∃ a : ℝ, 0 < a ∧ Cert.HostFns.rsqVar (F := Ideal) var j = (a : EReal) := by
  intro j
  obtain ⟨a, ha0, ha⟩ := h j
  obtain ⟨e, he0, he⟩ := ofBits_eps_f32
  have hpos : 0 < a + e := add_pos_of_nonneg_of_pos ha0 he0
  refine ⟨(Real.sqrt (a + e))⁻¹, inv_pos.2 (Real.sqrt_pos.2 hpos), ?_⟩
  show Ideal.rsqrt (var j + Ideal.ofBits .f32 0x3727C5AC#32) = _
  rw [ha, he, ← EReal.coe_add, Ideal.rsqrt_coe, if_neg (not_lt.2 hpos.le), if_neg hpos.ne']

end Cert.PreFacts

end
-- ==== Proof.RefValue.lean ====
/-
  The reference's layer and head, written with host operations on whole arrays, read entry by entry: a layer is the
  rectified sum of three matrix products (each product of the host a plain sum over the contracted axis), and the
  head is the reference's arrangement of the per-column affine map between its two linear maps.
-/
import proofs.«428064_j64707977281948_4_alg».proof.Proof.HostFns
import proofs.«428064_j64707977281948_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Idealize.ShloMosaic Idealize.ShloMosaic.TcCoe Idealize.ShloMosaic.ValueIdx

/-! ## The host's matrix products at an index -/

/-! ### The 100000 x 128 by 128 x 128 product: entry (p, q) is the sum over k of a[p,k] * b[k,q] -/

/-- The left operand's row coordinate is the output's row. -/
theorem lhsW_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column coordinate is the contraction coordinate. -/
theorem lhsW_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- The right operand's row coordinate is the contraction coordinate. -/
theorem rhsW_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- The right operand's column coordinate is the output's column. -/
theorem rhsW_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- The host's product at (p, q): the contraction index set is one axis of extent 128, re-indexed by its coordinate. -/
theorem dotW_apply (a : FVec Ideal S100000x128 .f32) (b : FVec Ideal S128x128 .f32)
    (p : Fin 100000) (q : Fin 128) :
    Host.dotGeneral (F := Ideal) dot_S100000x128_S128x128_S100000x128_1_0_0_1_n_n none a b (ix2 p q) = ∑ k : Fin 128, a (ix2 p k) * b (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ### The 100000 x 128 by 128 x 256 product: entry (p, q) is the sum over k of a[p,k] * b[k,q] -/

/-- The left operand's row coordinate is the output's row. -/
theorem lhsH_0 (i : S100000x256.Idx) (c : dot_S100000x128_S128x256_S100000x256_1_0_0_1_n_n.contr.Idx) :
    (dot_S100000x128_S128x256_S100000x256_1_0_0_1_n_n.lhsIdx i c 0).val = (i 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
/-- The left operand's column coordinate is the contraction coordinate. -/
theorem lhsH_1 (i : S100000x256.Idx) (c : dot_S100000x128_S128x256_S100000x256_1_0_0_1_n_n.contr.Idx) :
    (dot_S100000x128_S128x256_S100000x256_1_0_0_1_n_n.lhsIdx i c 1).val = (c ⟨0, by decide⟩).val :=
  dot_S100000x128_S128x256_S100000x256_1_0_0_1_n_n.lhsIdx_val_of_single rfl i c
/-- The right operand's row coordinate is the contraction coordinate. -/
theorem rhsH_0 (i : S100000x256.Idx) (c : dot_S100000x128_S128x256_S100000x256_1_0_0_1_n_n.contr.Idx) :
    (dot_S100000x128_S128x256_S100000x256_1_0_0_1_n_n.rhsIdx i c 0).val = (c ⟨0, by decide⟩).val :=
  dot_S100000x128_S128x256_S100000x256_1_0_0_1_n_n.rhsIdx_val_of_single rfl i c
/-- The right operand's column coordinate is the output's column. -/
theorem rhsH_1 (i : S100000x256.Idx) (c : dot_S100000x128_S128x256_S100000x256_1_0_0_1_n_n.contr.Idx) :
    (dot_S100000x128_S128x256_S100000x256_1_0_0_1_n_n.rhsIdx i c 1).val = (i 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl
/-- The host's product at (p, q): the contraction index set is one axis of extent 128, re-indexed by its coordinate. -/
theorem dotH_apply (a : FVec Ideal S100000x128 .f32) (b : FVec Ideal S128x256 .f32)
    (p : Fin 100000) (q : Fin 256) :
    Host.dotGeneral (F := Ideal) dot_S100000x128_S128x256_S100000x256_1_0_0_1_n_n none a b (ix2 p q) = ∑ k : Fin 128, a (ix2 p k) * b (ix2 k q) := by
  simp only [Host.dotGeneral]
  rw [Ideal.dotGeneral_apply, ← Equiv.sum_comp (ValueIdx.contrEquiv1 dot_S100000x128_S128x256_S100000x256_1_0_0_1_n_n 128 rfl rfl).symm]
  refine Finset.sum_congr rfl fun k _ => ?_
  have hk := ValueIdx.contrEquiv1_symm_val dot_S100000x128_S128x256_S100000x256_1_0_0_1_n_n 128 rfl rfl k
  have el : dot_S100000x128_S128x256_S100000x256_1_0_0_1_n_n.lhsIdx (ix2 p q) ((ValueIdx.contrEquiv1 dot_S100000x128_S128x256_S100000x256_1_0_0_1_n_n 128 rfl rfl).symm k) = ix2 p k := funext fun a => Fin.ext (by
    match a with
    | ⟨0, _⟩ => exact lhsH_0 _ _
    | ⟨1, _⟩ => exact (lhsH_1 _ _).trans hk)
  have er : dot_S100000x128_S128x256_S100000x256_1_0_0_1_n_n.rhsIdx (ix2 p q) ((ValueIdx.contrEquiv1 dot_S100000x128_S128x256_S100000x256_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-! ### The 100000 x 256 by 256 x 2 product: entry (p, q) is the sum over k of a[p,k] * b[k,q] -/

/-- The left operand's row coordinate is the output's row. -/
theorem lhsL_0 (i : S100000x2.Idx) (c : dot_S100000x256_S256x2_S100000x2_1_0_0_1_n_n.contr.Idx) :
    (dot_S100000x256_S256x2_S100000x2_1_0_0_1_n_n.lhsIdx i c 0).val = (i 0).val := by
  unfold DotDims.lhsIdx
  rw [dif_neg (show ¬(0 : Fin S100000x256.rank) ∈ dot_S100000x256_S256x2_S100000x2_1_0_0_1_n_n.lhsBatch by decide), dif_pos (show (0 : Fin S100000x256.rank) ∈ dot_S100000x256_S256x2_S100000x2_1_0_0_1_n_n.lhsNonContracting by decide)]
  rfl
/-- The left operand's column coordinate is the contraction coordinate. -/
theorem lhsL_1 (i : S100000x2.Idx) (c : dot_S100000x256_S256x2_S100000x2_1_0_0_1_n_n.contr.Idx) :
    (dot_S100000x256_S256x2_S100000x2_1_0_0_1_n_n.lhsIdx i c 1).val = (c ⟨0, by decide⟩).val :=
  dot_S100000x256_S256x2_S100000x2_1_0_0_1_n_n.lhsIdx_val_of_single rfl i c
/-- The right operand's row coordinate is the contraction coordinate. -/
theorem rhsL_0 (i : S100000x2.Idx) (c : dot_S100000x256_S256x2_S100000x2_1_0_0_1_n_n.contr.Idx) :
    (dot_S100000x256_S256x2_S100000x2_1_0_0_1_n_n.rhsIdx i c 0).val = (c ⟨0, by decide⟩).val :=
  dot_S100000x256_S256x2_S100000x2_1_0_0_1_n_n.rhsIdx_val_of_single rfl i c
/-- The right operand's column coordinate is the output's column. -/
theorem rhsL_1 (i : S100000x2.Idx) (c : dot_S100000x256_S256x2_S100000x2_1_0_0_1_n_n.contr.Idx) :
    (dot_S100000x256_S256x2_S100000x2_1_0_0_1_n_n.rhsIdx i c 1).val = (i 1).val := by
  unfold DotDims.rhsIdx
  rw [dif_neg (show ¬(1 : Fin S256x2.rank) ∈ dot_S100000x256_S256x2_S100000x2_1_0_0_1_n_n.rhsBatch by decide), dif_pos (show (1 : Fin S256x2.rank) ∈ dot_S100000x256_S256x2_S100000x2_1_0_0_1_n_n.rhsNonContracting by decide)]
  rfl
/-- The host's product at (p, q): the contraction index set is one axis of extent 256, re-indexed by its coordinate. -/
theorem dotL_apply (a : FVec Ideal S100000x256 .f32) (b : FVec Ideal S256x2 .f32)
    (p : Fin 100000) (q : Fin 2) :
    Host.dotGeneral (F := Ideal) dot_S100000x256_S256x2_S100000x2_1_0_0_1_n_n none a b (ix2 p q) = ∑ k : Fin 256, a (ix2 p k) * b (ix2 k q) := by
  simp only [Host.dotGeneral]
  rw [Ideal.dotGeneral_apply, ← Equiv.sum_comp (ValueIdx.contrEquiv1 dot_S100000x256_S256x2_S100000x2_1_0_0_1_n_n 256 rfl rfl).symm]
  refine Finset.sum_congr rfl fun k _ => ?_
  have hk := ValueIdx.contrEquiv1_symm_val dot_S100000x256_S256x2_S100000x2_1_0_0_1_n_n 256 rfl rfl k
  have el : dot_S100000x256_S256x2_S100000x2_1_0_0_1_n_n.lhsIdx (ix2 p q) ((ValueIdx.contrEquiv1 dot_S100000x256_S256x2_S100000x2_1_0_0_1_n_n 256 rfl rfl).symm k) = ix2 p k := funext fun a => Fin.ext (by
    match a with
    | ⟨0, _⟩ => exact lhsL_0 _ _
    | ⟨1, _⟩ => exact (lhsL_1 _ _).trans hk)
  have er : dot_S100000x256_S256x2_S100000x2_1_0_0_1_n_n.rhsIdx (ix2 p q) ((ValueIdx.contrEquiv1 dot_S100000x256_S256x2_S100000x2_1_0_0_1_n_n 256 rfl rfl).symm k) = ix2 k q := funext fun a => Fin.ext (by
    match a with
    | ⟨0, _⟩ => exact (rhsL_0 _ _).trans hk
    | ⟨1, _⟩ => exact rhsL_1 _ _)
  rw [el, er]

/-! ## Splat zeros and row broadcasts at an index -/

/-- The splat zero of a layer's shape reads 0 everywhere. -/
theorem zero128_apply (i : S100000x128.Idx) :
    broadcastInDim S100000x128 ![] bcast_S_S100000x128 (constant (F := Ideal) S_ .f32 0x00000000#32) i = 0 := by
  rw [broadcastInDim_apply _ bcast_S_S100000x128 _ i ix0 (fun a => a.elim0), constant_apply, Ideal.ofBits_zero_f32]

/-- The splat zero of the hidden shape reads 0 everywhere. -/
theorem zero256_apply (i : S100000x256.Idx) :
    broadcastInDim S100000x256 ![] bcast_S_S100000x256 (constant (F := Ideal) S_ .f32 0x00000000#32) i = 0 := by
  rw [broadcastInDim_apply _ bcast_S_S100000x256 _ i ix0 (fun a => a.elim0), constant_apply, Ideal.ofBits_zero_f32]

/-- A length-256 vector laid out as every row of a 100000 x 256 array reads, at (p, j), the vector's entry j. -/
theorem rows256_apply (v : (⟨S256, .f32⟩ : BufTy).Contents (Elt Ideal)) (p : Fin 100000) (j : Fin 256) :
    Cert.HostFns.rows256 (F := Ideal) v (ix2 p j) = v (ix1 j) := by
  unfold Cert.HostFns.rows256
  rw [broadcastInDim_apply _ bcast_S1x256_S100000x256_0_1 _ (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])]
  exact broadcastInDim_apply _ bcast_S256_S1x256_1 v (ix2 (0 : Fin 1) j) (ix1 j) (fun a => match a with
    | ⟨0, _⟩ => by show j.val = if (256 : Nat) = 1 then 0 else j.val; rw [if_neg (by decide)])

/-- The length-2 bias laid out as every row of a 100000 x 2 array reads, at (p, c), the bias's entry c. -/
theorem rows2_apply (v : (⟨S2, .f32⟩ : BufTy).Contents (Elt Ideal)) (p : Fin 100000) (c : Fin 2) :
    broadcastInDim S100000x2 ![0, 1] bcast_S1x2_S100000x2_0_1 (broadcastInDim S1x2 ![1] bcast_S2_S1x2_1 v) (ix2 p c) = v (ix1 c) := by
  rw [broadcastInDim_apply _ bcast_S1x2_S100000x2_0_1 _ (ix2 p c) (ix2 (0 : Fin 1) c) (fun a => match a with
    | ⟨0, _⟩ => by show 0 = if (1 : Nat) = 1 then 0 else p.val; rw [if_pos rfl]
    | ⟨1, _⟩ => by show c.val = if (2 : Nat) = 1 then 0 else c.val; rw [if_neg (by decide)])]
  exact broadcastInDim_apply _ bcast_S2_S1x2_1 v (ix2 (0 : Fin 1) c) (ix1 c) (fun a => match a with
    | ⟨0, _⟩ => by show c.val = if (2 : Nat) = 1 then 0 else c.val; rw [if_neg (by decide)])

/-! ## The layer and the head, entry by entry -/

/-- A reference layer is the dense step `Cert.Spec.comb` of x, P x, 2 P (P x) - x and the three weight slices. -/
theorem refLayer_eq_comb (nrm : (⟨S600000, .f32⟩ : BufTy).Contents (Elt Ideal)) (s d : (⟨S600000, .i32⟩ : BufTy).Contents (Elt Ideal))
    (w : (⟨S3x128x128, .f32⟩ : BufTy).Contents (Elt Ideal)) (x : (⟨S100000x128, .f32⟩ : BufTy).Contents (Elt Ideal)) :
    Cert.HostFns.refLayer (F := Ideal) nrm s d w x
      = Cert.Spec.comb x (Cert.HostFns.tx1 nrm s d x) (Cert.HostFns.tx2 nrm s d x)
          (Cert.HostFns.wslice0 w) (Cert.HostFns.wslice1 w) (Cert.HostFns.wslice2 w) := by
  funext i
  obtain ⟨p, q, rfl⟩ : ∃ (p : Fin 100000) (q : Fin 128), i = ix2 p q := ⟨i 0, i 1, eq_ix2 i⟩
  unfold Cert.HostFns.refLayer
  rw [maximumf_apply, addf_apply, addf_apply, dotW_apply, dotW_apply, dotW_apply, zero128_apply]
  rfl

/-- The reference's head is `Cert.Spec.headRArr` of the per-column vectors, r the reciprocal square root of the
    shifted variance. -/
theorem refHead_eq (x : (⟨S100000x128, .f32⟩ : BufTy).Contents (Elt Ideal)) (cw1 : (⟨S128x256, .f32⟩ : BufTy).Contents (Elt Ideal))
    (b1 ga be mu var : (⟨S256, .f32⟩ : BufTy).Contents (Elt Ideal)) (w2 : (⟨S256x2, .f32⟩ : BufTy).Contents (Elt Ideal))
    (b2 : (⟨S2, .f32⟩ : BufTy).Contents (Elt Ideal)) :
    Cert.HostFns.refHead (F := Ideal) x cw1 b1 ga be mu var w2 b2
      = Cert.Spec.headRArr x cw1 b1 mu (Cert.HostFns.rsqVar var) ga be w2 b2 := by
  funext i
  obtain ⟨p, c, rfl⟩ : ∃ (p : Fin 100000) (c : Fin 2), i = ix2 p c := ⟨i 0, i 1, eq_ix2 i⟩
  unfold Cert.HostFns.refHead
  rw [addf_apply, dotL_apply, rows2_apply]
  show _ = Cert.Spec.headR x cw1 (fun j => b1 (ix1 j)) (fun j => mu (ix1 j)) (fun j => Cert.HostFns.rsqVar var (ix1 j))
    (fun j => ga (ix1 j)) (fun j => be (ix1 j)) w2 (fun c => b2 (ix1 c)) p c
  unfold Cert.Spec.headR Cert.Spec.hidAt
  congr 1
  refine Finset.sum_congr rfl fun j _ => ?_
  rw [addf_apply, mulf_apply, mulf_apply, subf_apply, maximumf_apply, addf_apply, dotH_apply, zero256_apply,
    rows256_apply, rows256_apply, rows256_apply, rows256_apply, rows256_apply]

end Cert.RefValue

end
-- ==== Proof.Bridge.lean ====
/-
  The two closed terms are one function of the arguments.  The kernel's: the head, with its per-column affine map as
  hidden * scale + shift, over three nested dense steps.  The reference's: its head, the affine map as
  ((hidden - mean) * r) * gamma + beta, over three nested layers.  The layers agree entry by entry with no condition
  (the same sums in the same order); the heads agree because scale = gamma * r, shift = beta - mean * (gamma * r) with
  mean, gamma, beta real and r a positive real — which is what the precondition (finite inputs, non-negative
  variance) gives.
-/
import proofs.«428064_j64707977281948_4_alg».proof.Proof.Gen.KernelIdeal
import proofs.«428064_j64707977281948_4_alg».proof.Proof.Spec
import proofs.«428064_j64707977281948_4_alg».proof.Proof.HostFns
import proofs.«428064_j64707977281948_4_alg».proof.Proof.RefValue
import proofs.«428064_j64707977281948_4_alg».proof.Proof.PreFacts
import Idealize.ShloMosaic.Lib.ValueIdx
import Idealize.ShloMosaic.Lib.ValueLayout

noncomputable section

namespace Cert.Bridge

open Cert.ReferenceIdeal Idealize.ShloMosaic Idealize.ShloMosaic.TcCoe Idealize.ShloMosaic.ValueIdx
open Cert.HostFns

variable (x0 : (⟨S100000x128, .f32⟩ : BufTy).Contents (Elt Ideal)) (x1 : (⟨S600000, .f32⟩ : BufTy).Contents (Elt Ideal))
  (x2 x3 x4 : (⟨S3x128x128, .f32⟩ : BufTy).Contents (Elt Ideal)) (x5 : (⟨S128x256, .f32⟩ : BufTy).Contents (Elt Ideal))
  (x6 x7 x8 x9 x10 : (⟨S256, .f32⟩ : BufTy).Contents (Elt Ideal)) (x11 : (⟨S256x2, .f32⟩ : BufTy).Contents (Elt Ideal))
  (x12 : (⟨S2, .f32⟩ : BufTy).Contents (Elt Ideal)) (x13 : (⟨S2x600000, .i32⟩ : BufTy).Contents (Elt Ideal))

/-- The edge norms of the arguments. -/
abbrev nrm := nrmOf (F := Ideal) x1 (srcOf x13) (dstOf x13)

/-- One layer's dense step over x and its two propagated Chebyshev terms. -/
def layer (w : (⟨S3x128x128, .f32⟩ : BufTy).Contents (Elt Ideal)) (x : Cert.Spec.SN128.Idx → EReal) : Cert.Spec.SN128.Idx → EReal :=
  Cert.Spec.comb x (tx1 (nrm x1 x13) (srcOf x13) (dstOf x13) x) (tx2 (nrm x1 x13) (srcOf x13) (dstOf x13) x)
    (wslice0 w) (wslice1 w) (wslice2 w)

/-- The kernel program's logits as a function of the arguments. -/
def kLogits : Cert.Spec.SN2.Idx → EReal :=
  Cert.Spec.headArr (layer x1 x13 x3 (layer x1 x13 x2 x0))
    (tx1 (nrm x1 x13) (srcOf x13) (dstOf x13) (layer x1 x13 x3 (layer x1 x13 x2 x0)))
    (tx2 (nrm x1 x13) (srcOf x13) (dstOf x13) (layer x1 x13 x3 (layer x1 x13 x2 x0)))
    (wslice0 x4) (wslice1 x4) (wslice2 x4) x5
    (shapeCast _ x6 Cert.KernelIdeal.Gen.shapeCasts_S256_S1x256)
    (shapeCast _ (mulf x7 (rsqVar x10)) Cert.KernelIdeal.Gen.shapeCasts_S256_S1x256)
    (shapeCast _ (subf x8 (mulf x9 (mulf x7 (rsqVar x10)))) Cert.KernelIdeal.Gen.shapeCasts_S256_S1x256)
    x11
    (shapeCast _ x12 Cert.KernelIdeal.Gen.shapeCasts_S2_S1x2)

/-- The reference program's logits as a function of the arguments. -/
def rLogits : (⟨S100000x2, .f32⟩ : BufTy).Contents (Elt Ideal) :=
  refHead
    (refLayer (nrm x1 x13) (srcOf x13) (dstOf x13) x4
      (refLayer (nrm x1 x13) (srcOf x13) (dstOf x13) x3 (refLayer (nrm x1 x13) (srcOf x13) (dstOf x13) x2 x0)))
    x5 x6 x7 x8 x9 x10 x11 x12

/-- A reference layer is a `layer`. -/
theorem refLayer_eq_layer (w : (⟨S3x128x128, .f32⟩ : BufTy).Contents (Elt Ideal)) (x : (⟨S100000x128, .f32⟩ : BufTy).Contents (Elt Ideal)) :
    refLayer (nrm x1 x13) (srcOf x13) (dstOf x13) w x = layer x1 x13 w x :=
  Cert.RefValue.refLayer_eq_comb _ _ _ w x

/-- Under the precondition's facts the two programs' logits are one array. -/
theorem kLogits_eq_rLogits
    (hga : ∀ j : S256.Idx, ∃ a : ℝ, x7 j = (a : EReal)) (hbe : ∀ j : S256.Idx, ∃ a : ℝ, x8 j = (a : EReal))
    (hmu : ∀ j : S256.Idx, ∃ a : ℝ, x9 j = (a : EReal)) (hvar : ∀ j : S256.Idx, ∃ a : ℝ, 0 ≤ a ∧ x10 j = (a : EReal)) :
    kLogits x0 x1 x2 x3 x4 x5 x6 x7 x8 x9 x10 x11 x12 x13 = rLogits x0 x1 x2 x3 x4 x5 x6 x7 x8 x9 x10 x11 x12 x13 := by
  unfold rLogits
  rw [refLayer_eq_layer, refLayer_eq_layer, refLayer_eq_layer, Cert.RefValue.refHead_eq]
  have hr := Cert.PreFacts.rsqVar_pos x10 hvar
  funext i
  unfold kLogits
  show Cert.Spec.headK _ x5 (fun j => shapeCast _ x6 Cert.KernelIdeal.Gen.shapeCasts_S256_S1x256 (ix2 0 j))
      (fun j => shapeCast _ (mulf x7 (rsqVar x10)) Cert.KernelIdeal.Gen.shapeCasts_S256_S1x256 (ix2 0 j))
      (fun j => shapeCast _ (subf x8 (mulf x9 (mulf x7 (rsqVar x10)))) Cert.KernelIdeal.Gen.shapeCasts_S256_S1x256 (ix2 0 j))
      x11 (fun c => shapeCast _ x12 Cert.KernelIdeal.Gen.shapeCasts_S2_S1x2 (ix2 0 c)) _ _
    = Cert.Spec.headR _ x5 (fun j => x6 (ix1 j)) (fun j => x9 (ix1 j)) (fun j => rsqVar x10 (ix1 j)) (fun j => x7 (ix1 j))
      (fun j => x8 (ix1 j)) x11 (fun c => x12 (ix1 c)) _ _
  have hb1 : (fun j : Fin 256 => shapeCast _ x6 Cert.KernelIdeal.Gen.shapeCasts_S256_S1x256 (ix2 (0 : Fin 1) j)) = fun j => x6 (ix1 j) :=
    funext fun j => shapeCast_a_1a_apply x6 _ 0 j
  have hb2 : (fun c : Fin 2 => shapeCast _ x12 Cert.KernelIdeal.Gen.shapeCasts_S2_S1x2 (ix2 (0 : Fin 1) c)) = fun c => x12 (ix1 c) :=
    funext fun c => shapeCast_a_1a_apply x12 _ 0 c
  rw [hb1, hb2]
  refine Cert.Spec.headK_eq_headR _ x5 _ _ _ _ _ _ _ x11 _ (fun j => ?_) (fun j => ?_) (fun j => hmu (ix1 j)) (fun j => hga (ix1 j))
    (fun j => hbe (ix1 j)) (fun j => hr (ix1 j)) _ _
  · exact shapeCast_a_1a_apply (mulf x7 (rsqVar x10)) _ 0 j
  · exact shapeCast_a_1a_apply (subf x8 (mulf x9 (mulf x7 (rsqVar x10)))) _ 0 j

end Cert.Bridge

end
-- ==== Proof.lean ====
/-
  The certificate's five claims.

  The kernel program runs three pipelined regions among host operations; the reference is host operations only.  At the
  exact instance both compute, for the same arguments, the logits of a three-layer Chebyshev graph convolution with a
  two-layer classifier head.  The layers agree term for term: each is the rectified sum of three matrix products whose
  operands — the node features and their two propagated Chebyshev terms — both programs obtain by the same host
  operators.  The heads differ in how they apply the per-column normalisation: the kernel multiplies by a folded scale
  gamma * r and adds a folded shift beta - mean * scale, the reference computes ((h - mean) * r) * gamma + beta.  These
  agree at every extended-real h once mean, gamma, beta are real and r, the reciprocal square root of the shifted
  variance, is a positive real; the precondition (finite inputs, non-negative variance) gives exactly that.  The two
  frames of the kernel programs are the generated frame certificates; the reference's frame and value come from its
  run read back stretch by stretch.
-/
import proofs.«428064_j64707977281948_4_alg».proof.Defs
import proofs.«428064_j64707977281948_4_alg».proof.Proof.Gen.Kernel
import proofs.«428064_j64707977281948_4_alg».proof.Proof.Gen.Kernel.Skeleton
import proofs.«428064_j64707977281948_4_alg».proof.Proof.Gen.Kernel.Launch
import proofs.«428064_j64707977281948_4_alg».proof.Proof.Gen.Kernel.Points
import proofs.«428064_j64707977281948_4_alg».proof.Proof.Gen.Kernel.Frame
import proofs.«428064_j64707977281948_4_alg».proof.Proof.Gen.KernelIdeal
import proofs.«428064_j64707977281948_4_alg».proof.Proof.Gen.KernelIdeal.Skeleton
import proofs.«428064_j64707977281948_4_alg».proof.Proof.Gen.KernelIdeal.Launch
import proofs.«428064_j64707977281948_4_alg».proof.Proof.Gen.KernelIdeal.Points
import proofs.«428064_j64707977281948_4_alg».proof.Proof.Gen.KernelIdeal.Frame
import proofs.«428064_j64707977281948_4_alg».proof.Proof.Gen.ReferenceIdeal
import proofs.«428064_j64707977281948_4_alg».proof.Proof.Gen.Pre_finite_inputs
import proofs.«428064_j64707977281948_4_alg».proof.Proof.KRun
import proofs.«428064_j64707977281948_4_alg».proof.Proof.KValue
import proofs.«428064_j64707977281948_4_alg».proof.Proof.RefRun
import proofs.«428064_j64707977281948_4_alg».proof.Proof.RefFold
import proofs.«428064_j64707977281948_4_alg».proof.Proof.PreFacts
import proofs.«428064_j64707977281948_4_alg».proof.Proof.Bridge
import Idealize.ShloMosaic.Adequacy
import Idealize.ShloMosaic.Init

set_option maxRecDepth 16384

noncomputable section

namespace Cert.Proof

open Idealize.ShloMosaic Idealize.SL.Sem

/-- The word-level kernel's frame: the generated frame certificate. -/
theorem frame_k : Cert.frame_Kernel := fun m ρ _ => Cert.Kernel.Gen.frame m ρ

/-- The idealized kernel's frame: the generated frame certificate. -/
theorem frame_ki : Cert.frame_KernelIdeal := fun m ρ _ => Cert.KernelIdeal.Gen.frame m ρ

/-- The reference's frame: its run ends with every buffer at the fold of its operations, and no operation writes an
    argument. -/
theorem frame_ri : Cert.frame_ReferenceIdeal := fun m ρ _ =>
  (θ_run Cert.ReferenceIdeal.defs _ _).mono (fun r h c =>
    ⟨(h c _).trans (Cert.RefFold.ref_arg m c Cert.ReferenceIdeal.main_arg0 (by (repeat (first | exact Or.inl rfl | apply Or.inr)) <;> rfl)),
     (h c _).trans (Cert.RefFold.ref_arg m c Cert.ReferenceIdeal.main_arg1 (by (repeat (first | exact Or.inl rfl | apply Or.inr)) <;> rfl)),
     (h c _).trans (Cert.RefFold.ref_arg m c Cert.ReferenceIdeal.main_arg2 (by (repeat (first | exact Or.inl rfl | apply Or.inr)) <;> rfl)),
     (h c _).trans (Cert.RefFold.ref_arg m c Cert.ReferenceIdeal.main_arg3 (by (repeat (first | exact Or.inl rfl | apply Or.inr)) <;> rfl)),
     (h c _).trans (Cert.RefFold.ref_arg m c Cert.ReferenceIdeal.main_arg4 (by (repeat (first | exact Or.inl rfl | apply Or.inr)) <;> rfl)),
     (h c _).trans (Cert.RefFold.ref_arg m c Cert.ReferenceIdeal.main_arg5 (by (repeat (first | exact Or.inl rfl | apply Or.inr)) <;> rfl)),
     (h c _).trans (Cert.RefFold.ref_arg m c Cert.ReferenceIdeal.main_arg6 (by (repeat (first | exact Or.inl rfl | apply Or.inr)) <;> rfl)),
     (h c _).trans (Cert.RefFold.ref_arg m c Cert.ReferenceIdeal.main_arg7 (by (repeat (first | exact Or.inl rfl | apply Or.inr)) <;> rfl)),
     (h c _).trans (Cert.RefFold.ref_arg m c Cert.ReferenceIdeal.main_arg8 (by (repeat (first | exact Or.inl rfl | apply Or.inr)) <;> rfl)),
     (h c _).trans (Cert.RefFold.ref_arg m c Cert.ReferenceIdeal.main_arg9 (by (repeat (first | exact Or.inl rfl | apply Or.inr)) <;> rfl)),
     (h c _).trans (Cert.RefFold.ref_arg m c Cert.ReferenceIdeal.main_arg10 (by (repeat (first | exact Or.inl rfl | apply Or.inr)) <;> rfl)),
     (h c _).trans (Cert.RefFold.ref_arg m c Cert.ReferenceIdeal.main_arg11 (by (repeat (first | exact Or.inl rfl | apply Or.inr)) <;> rfl)),
     (h c _).trans (Cert.RefFold.ref_arg m c Cert.ReferenceIdeal.main_arg12 (by (repeat (first | exact Or.inl rfl | apply Or.inr)) <;> rfl)),
     (h c _).trans (Cert.RefFold.ref_arg m c Cert.ReferenceIdeal.main_arg13 (by (repeat (first | exact Or.inl rfl | apply Or.inr)) <;> rfl))⟩)
    (Cert.ReferenceIdeal.ValueP.run_fold m ρ)

/-- The kernel's closed term of KValue is the function `Bridge.kLogits` of the argument arrays. -/
theorem logits_eq_kLogits (m : (ℓ : Loc Cert.KernelIdeal.nD Cert.KernelIdeal.τ Cert.KernelIdeal.sig) → Buf (Elt Ideal) ℓ) (c : Dev Cert.KernelIdeal.nD) :
    Cert.KernelIdeal.KValue.logits m c
      = Cert.Bridge.kLogits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := rfl

/-- Both idealized programs end with the same logits, and both return the edge weights as they were. -/
theorem algebraic : Cert.algebraic_KernelIdeal_ReferenceIdeal := by
  intro m ρ m' ρ' hpre hagree
  refine ⟨fun c => Cert.KernelIdeal.KValue.logits m c, fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.GenP.run_all m ρ)
    exact ⟨(h c _ (Cert.KernelIdeal.Gen.mem_uc Cert.KernelIdeal.main_v147 (by decide))).trans (Cert.KernelIdeal.KValue.logits_eq m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c)⟩
  · refine (θ_run Cert.ReferenceIdeal.defs _ _).mono (fun r h c => ?_) (Cert.ReferenceIdeal.ValueP.run_fold m' ρ')
    refine ⟨(h c _).trans ?_,
      (h c _).trans ((Cert.RefFold.ref_arg m' c Cert.ReferenceIdeal.main_arg1 (by (repeat (first | exact Or.inl rfl | apply Or.inr)) <;> rfl)).trans (hagree c).2.1),
      (h c _).trans (Cert.RefFold.ref_arg m' c Cert.ReferenceIdeal.main_arg0 (by (repeat (first | exact Or.inl rfl | apply Or.inr)) <;> rfl)),
      (h c _).trans (Cert.RefFold.ref_arg m' c Cert.ReferenceIdeal.main_arg1 (by (repeat (first | exact Or.inl rfl | apply Or.inr)) <;> rfl)),
      (h c _).trans (Cert.RefFold.ref_arg m' c Cert.ReferenceIdeal.main_arg2 (by (repeat (first | exact Or.inl rfl | apply Or.inr)) <;> rfl)),
      (h c _).trans (Cert.RefFold.ref_arg m' c Cert.ReferenceIdeal.main_arg3 (by (repeat (first | exact Or.inl rfl | apply Or.inr)) <;> rfl)),
      (h c _).trans (Cert.RefFold.ref_arg m' c Cert.ReferenceIdeal.main_arg4 (by (repeat (first | exact Or.inl rfl | apply Or.inr)) <;> rfl)),
      (h c _).trans (Cert.RefFold.ref_arg m' c Cert.ReferenceIdeal.main_arg5 (by (repeat (first | exact Or.inl rfl | apply Or.inr)) <;> rfl)),
      (h c _).trans (Cert.RefFold.ref_arg m' c Cert.ReferenceIdeal.main_arg6 (by (repeat (first | exact Or.inl rfl | apply Or.inr)) <;> rfl)),
      (h c _).trans (Cert.RefFold.ref_arg m' c Cert.ReferenceIdeal.main_arg7 (by (repeat (first | exact Or.inl rfl | apply Or.inr)) <;> rfl)),
      (h c _).trans (Cert.RefFold.ref_arg m' c Cert.ReferenceIdeal.main_arg8 (by (repeat (first | exact Or.inl rfl | apply Or.inr)) <;> rfl)),
      (h c _).trans (Cert.RefFold.ref_arg m' c Cert.ReferenceIdeal.main_arg9 (by (repeat (first | exact Or.inl rfl | apply Or.inr)) <;> rfl)),
      (h c _).trans (Cert.RefFold.ref_arg m' c Cert.ReferenceIdeal.main_arg10 (by (repeat (first | exact Or.inl rfl | apply Or.inr)) <;> rfl)),
      (h c _).trans (Cert.RefFold.ref_arg m' c Cert.ReferenceIdeal.main_arg11 (by (repeat (first | exact Or.inl rfl | apply Or.inr)) <;> rfl)),
      (h c _).trans (Cert.RefFold.ref_arg m' c Cert.ReferenceIdeal.main_arg12 (by (repeat (first | exact Or.inl rfl | apply Or.inr)) <;> rfl)),
      (h c _).trans (Cert.RefFold.ref_arg m' c Cert.ReferenceIdeal.main_arg13 (by (repeat (first | exact Or.inl rfl | apply Or.inr)) <;> rfl))⟩
    obtain ⟨hga, hbe, hmu, hvar⟩ := Cert.PreFacts.of_pre _ _ _ _ _ _ _ _ _ _ _ _ _ _ (hpre c)
    rw [Cert.RefFold.ref_value m' c]
    show _ = Cert.KernelIdeal.KValue.logits m c
    rw [logits_eq_kLogits m c]
    dsimp only [Cert.RefFold.Nrm, Cert.RefFold.S, Cert.RefFold.D]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.Bridge.kLogits_eq_rLogits _ _ _ _ _ _ _ _ _ _ _ _ _ _ hga hbe hmu hvar).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
